-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S1024x1024 : Shape := ⟨2, ![1024, 1024]⟩
abbrev S1024 : Shape := ⟨1, ![1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_arg5 : FVec F S1024x1024 .f32) (main_arg6 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  main_v33

def fn {F : FTy → Type} [FloatOps F] (main_arg0 : FVec F S4x2048x1024 .f32) (main_arg1 : FVec F S1024x1024 .f32) (main_arg2 : FVec F S1024 .f32) (main_arg3 : FVec F S1024x1024 .f32) (main_arg4 : FVec F S1024 .f32) (main_arg5 : FVec F S1024x1024 .f32) (main_arg6 : FVec F S1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_v13 main_v16
-- ==== Kernel.lean ====
abbrev S4x2048x1024 : Shape := ⟨3, ![4, 2048, 1024]⟩
abbrev S1024x1024 : Shape := ⟨2, ![1024, 1024]⟩
abbrev S1024 : Shape := ⟨1, ![1024]⟩
abbrev S8192x1024 : Shape := ⟨2, ![8192, 1024]⟩
abbrev S1x1024 : Shape := ⟨2, ![1, 1024]⟩
abbrev S512x1024 : Shape := ⟨2, ![512, 1024]⟩
abbrev S1x1024x1024 : Shape := ⟨3, ![1, 1024, 1024]⟩
abbrev S1x512x1024 : Shape := ⟨3, ![1, 512, 1024]⟩
abbrev S1024x1 : Shape := ⟨2, ![1024, 1]⟩
abbrev S1024x512 : Shape := ⟨2, ![1024, 512]⟩

abbrev nBuf : Space → Nat
  | .hbm => 21
  | .vmem => 25
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S8192x1024, .f32⟩
  | .hbm, ⟨8, _⟩ => ⟨S1024x1024, .bf16⟩
  | .hbm, ⟨9, _⟩ => ⟨S1024x1024, .bf16⟩
  | .hbm, ⟨10, _⟩ => ⟨S1024x1024, .bf16⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S8192x1024, .bf16⟩
  | .hbm, ⟨15, _⟩ => ⟨S8192x1024, .bf16⟩
  | .hbm, ⟨16, _⟩ => ⟨S8192x1024, .bf16⟩
  | .hbm, ⟨17, _⟩ => ⟨S4x2048x1024, .bf16⟩
  | .hbm, ⟨18, _⟩ => ⟨S4x2048x1024, .bf16⟩
  | .hbm, ⟨19, _⟩ => ⟨S4x2048x1024, .bf16⟩
  | .hbm, ⟨20, _⟩ => ⟨S4x2048x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S1x1024, .f32⟩
  | .local _ .vmem, ⟨4, _⟩ => ⟨S1024x1024, .bf16⟩
  | .local _ .vmem, ⟨5, _⟩ => ⟨S1x1024, .f32⟩
  | .local _ .vmem, ⟨6, _⟩ => ⟨S1024x1024, .bf16⟩
  | .local _ .vmem, ⟨7, _⟩ => ⟨S1x1024, .f32⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S1x1024x1024, .bf16⟩
  | .local _ .vmem, ⟨15, _⟩ => ⟨S1x1024x1024, .bf16⟩
  | .local _ .vmem, ⟨16, _⟩ => ⟨S1x512x1024, .bf16⟩
  | .local _ .vmem, ⟨17, _⟩ => ⟨S1x512x1024, .bf16⟩
  | .local _ .vmem, ⟨18, _⟩ => ⟨S1x512x1024, .bf16⟩
  | .local _ .vmem, ⟨19, _⟩ => ⟨S1x512x1024, .bf16⟩
  | .local _ .vmem, ⟨20, _⟩ => ⟨S1x1024x1024, .f32⟩
  | .local _ .vmem, ⟨21, _⟩ => ⟨S1x1024x1024, .f32⟩
  | .local _ .vmem, ⟨22, _⟩ => ⟨S1024x1, .f32⟩
  | .local _ .vmem, ⟨23, _⟩ => ⟨S1024x1, .f32⟩
  | .local _ .vmem, ⟨24, _⟩ => ⟨S1024x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev main_v7_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_scratch0 : Ref sig .tc := ⟨.vmem, 22, rfl⟩
abbrev cc1_scratch1 : Ref sig .tc := ⟨.vmem, 23, rfl⟩
abbrev cc1_scratch2 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨3, ![4, 2, 4], ![false, false, false]⟩

def k1_cond2 (i : grid1.Coords) : BitVec 1 :=
  let arg2 : BitVec 32 := BitVec.ofNat 32 (i 2).val
  let c3_i32 : BitVec 32 := 3#32
  let v42 : BitVec 1 := Scalar.cmpi .eq arg2 c3_i32
  let v43 : BitVec 32 := Scalar.extui v42
  let c0_i32_27 : BitVec 32 := 0#32
  let v44 : BitVec 1 := Scalar.cmpi .ne v43 c0_i32_27
  v44

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x512x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S1x512x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, true]

abbrev stage1_3 : Fin 2 → Memref sig .tc .vmem S1x1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

class Facts₀ : Prop where
  shapeCasts_S4x2048x1024_S8192x1024 : S4x2048x1024.ShapeCasts S8192x1024
  bitsLt_bf16_f32 : FTy.bits .bf16 < FTy.bits .f32
  shapeCasts_S1024_S1x1024 : S1024.ShapeCasts S1x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  packedbf16_S512x1024_S512x1024_0_0 : (Rect.unit (s := S512x1024) ![0, 0] S512x1024.size inb_S512x1024_S512x1024_0_0).PackedRows (EltTy.packing .bf16)
  shapeCasts_S8192x1024_S4x2048x1024 : S8192x1024.ShapeCasts S4x2048x1024
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  reduces_S1024x512_S1024 : S1024x512.Reduces [1] S1024
  shapeCasts_S1024_S1024x1 : S1024.ShapeCasts S1024x1
  broadcasts_S1024x1_S1024x512 : S1024x1.Broadcasts S1024x512
  broadcasts_S1024x1_S1024x1024 : S1024x1.Broadcasts S1024x1024
  shapeCasts_S1024x1024_S1x1024x1024 : S1024x1024.ShapeCasts S1x1024x1024
  dot_S512x1024_S1024x1024_S512x1024_1_0_0_1_n_n_wf : DotDims.WF S512x1024 S1024x1024 S512x1024 [1] [0] [0] [1] [] []
  dot_S1024x1024_S512x1024_S1024x512_1_1_0_0_n_n_wf : DotDims.WF S1024x1024 S512x1024 S1024x512 [1] [1] [0] [0] [] []
  dot_S1024x512_S512x1024_S1024x1024_1_0_0_1_n_n_wf : DotDims.WF S1024x512 S512x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .f32 = 32 ∨ (Rect.block (s := S8192x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S1024x1024.size a
  hwx0_5 : ∀ i : grid0.Coords, EltTy.bits .bf16 = 32 ∨ (Rect.block (s := S1024x1024) S1024x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x1024.size a ≤ S8192x1024.size a
  hwx0_7 : ∀ i : grid0.Coords, EltTy.bits .bf16 = 32 ∨ (Rect.block (s := S8192x1024) S512x1024.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S512x1024.size a ≤ S8192x1024.size a
  hwx0_8 : ∀ i : grid0.Coords, EltTy.bits .bf16 = 32 ∨ (Rect.block (s := S8192x1024) S512x1024.size (cc0_transform_8 i) (hinb0_8 i)).WholeWords (EltTy.packing .bf16)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S512x1024.size a ≤ S8192x1024.size a
  hwx0_9 : ∀ i : grid0.Coords, EltTy.bits .bf16 = 32 ∨ (Rect.block (s := S8192x1024) S512x1024.size (cc0_transform_9 i) (hinb0_9 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x1024.size a ≤ S4x2048x1024.size a
  hwx1_0 : ∀ i : grid1.Coords, EltTy.bits .bf16 = 32 ∨ (Rect.block (s := S4x2048x1024) S1x1024x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x512x1024.size a ≤ S4x2048x1024.size a
  hwx1_1 : ∀ i : grid1.Coords, EltTy.bits .bf16 = 32 ∨ (Rect.block (s := S4x2048x1024) S1x512x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512x1024.size a ≤ S4x2048x1024.size a
  hwx1_2 : ∀ i : grid1.Coords, EltTy.bits .bf16 = 32 ∨ (Rect.block (s := S4x2048x1024) S1x512x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024x1024.size a ≤ S4x2048x1024.size a
  hwx1_3 : ∀ i : grid1.Coords, EltTy.bits .f32 = 32 ∨ (Rect.block (s := S4x2048x1024) S1x1024x1024.size (cc1_transform_3 i) (hinb1_3 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S1024x1024_S512x1024_S1024x512_1_1_0_0_n_n : DotDims S1024x1024 S512x1024 S1024x512 where
  lhsContracting := [1]
  rhsContracting := [1]
  lhsNonContracting := [0]
  rhsNonContracting := [0]
  lhsBatch := []
  rhsBatch := []
  wf := dot_S1024x1024_S512x1024_S1024x512_1_1_0_0_n_n_wf
def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1024x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v7_0) S512x1024.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v7_1) S512x1024.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v7_2) S512x1024.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v8) S1x1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v9) S1x512x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v10) S1x512x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v11) S1x1024x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S4x2048x1024 : Shape := ⟨3, ![4, 2048, 1024]⟩
abbrev S1024x1024 : Shape := ⟨2, ![1024, 1024]⟩
abbrev S1024 : Shape := ⟨1, ![1024]⟩
abbrev S1x1x1024 : Shape := ⟨3, ![1, 1, 1024]⟩
abbrev S4x2048x2048 : Shape := ⟨3, ![4, 2048, 2048]⟩
abbrev S_ : Shape := ⟨0, ![]⟩
abbrev S4x2048 : Shape := ⟨2, ![4, 2048]⟩
abbrev S4x2048x1 : Shape := ⟨3, ![4, 2048, 1]⟩

abbrev nBuf : Space → Nat
  | .hbm => 38
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S4x2048x1024, .f32⟩
  | .hbm, ⟨8, _⟩ => ⟨S1x1x1024, .f32⟩
  | .hbm, ⟨9, _⟩ => ⟨S4x2048x1024, .f32⟩
  | .hbm, ⟨10, _⟩ => ⟨S4x2048x1024, .f32⟩
  | .hbm, ⟨11, _⟩ => ⟨S4x2048x1024, .f32⟩
  | .hbm, ⟨12, _⟩ => ⟨S1x1x1024, .f32⟩
  | .hbm, ⟨13, _⟩ => ⟨S4x2048x1024, .f32⟩
  | .hbm, ⟨14, _⟩ => ⟨S4x2048x1024, .f32⟩
  | .hbm, ⟨15, _⟩ => ⟨S4x2048x1024, .f32⟩
  | .hbm, ⟨16, _⟩ => ⟨S1x1x1024, .f32⟩
  | .hbm, ⟨17, _⟩ => ⟨S4x2048x1024, .f32⟩
  | .hbm, ⟨18, _⟩ => ⟨S4x2048x1024, .f32⟩
  | .hbm, ⟨19, _⟩ => ⟨S4x2048x2048, .f32⟩
  | .hbm, ⟨20, _⟩ => ⟨S_, .f32⟩
  | .hbm, ⟨21, _⟩ => ⟨S4x2048x2048, .f32⟩
  | .hbm, ⟨22, _⟩ => ⟨S4x2048x2048, .f32⟩
  | .hbm, ⟨23, _⟩ => ⟨S_, .f32⟩
  | .hbm, ⟨24, _⟩ => ⟨S4x2048, .f32⟩
  | .hbm, ⟨25, _⟩ => ⟨S_, .f32⟩
  | .hbm, ⟨26, _⟩ => ⟨S4x2048, .f32⟩
  | .hbm, ⟨27, _⟩ => ⟨S4x2048, .f32⟩
  | .hbm, ⟨28, _⟩ => ⟨S4x2048x1, .f32⟩
  | .hbm, ⟨29, _⟩ => ⟨S4x2048x2048, .f32⟩
  | .hbm, ⟨30, _⟩ => ⟨S4x2048x2048, .f32⟩
  | .hbm, ⟨31, _⟩ => ⟨S4x2048x2048, .f32⟩
  | .hbm, ⟨32, _⟩ => ⟨S_, .f32⟩
  | .hbm, ⟨33, _⟩ => ⟨S4x2048, .f32⟩
  | .hbm, ⟨34, _⟩ => ⟨S4x2048x1, .f32⟩
  | .hbm, ⟨35, _⟩ => ⟨S4x2048x2048, .f32⟩
  | .hbm, ⟨36, _⟩ => ⟨S4x2048x2048, .f32⟩
  | .hbm, ⟨37, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_cst_0 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S4x2048x1024_0_1_2 : S1x1x1024.BroadcastsInDim S4x2048x1024 (![0, 1, 2] : Fin 3 → Fin S4x2048x1024.rank)
  bcast_S_S4x2048x2048 : S_.BroadcastsInDim S4x2048x2048 (![] : Fin 0 → Fin S4x2048x2048.rank)
  reducesTo_S4x2048x2048_S4x2048_d2 : S4x2048x2048.ReducesTo [2] S4x2048
  h_S_ : 0 < S_.numel
  bcast_S_S4x2048 : S_.BroadcastsInDim S4x2048 (![] : Fin 0 → Fin S4x2048.rank)
  bcast_S4x2048_S4x2048x1_0_1 : S4x2048.BroadcastsInDim S4x2048x1 (![0, 1] : Fin 2 → Fin S4x2048x1.rank)
  bcast_S4x2048x1_S4x2048x2048_0_1_2 : S4x2048x1.BroadcastsInDim S4x2048x2048 (![0, 1, 2] : Fin 3 → Fin S4x2048x2048.rank)
  dot_S4x2048x1024_S1024x1024_S4x2048x1024_2_0_01_1_n_n_wf : DotDims.WF S4x2048x1024 S1024x1024 S4x2048x1024 [2] [0] [0, 1] [1] [] []
  dot_S4x2048x1024_S4x2048x1024_S4x2048x2048_2_2_1_1_0_0_wf : DotDims.WF S4x2048x1024 S4x2048x1024 S4x2048x2048 [2] [2] [1] [1] [0] [0]
  dot_S4x2048x2048_S4x2048x1024_S4x2048x1024_2_1_1_2_0_0_wf : DotDims.WF S4x2048x2048 S4x2048x1024 S4x2048x1024 [2] [1] [1] [2] [0] [0]

variable [Facts₀]

def dot_S4x2048x1024_S1024x1024_S4x2048x1024_2_0_01_1_n_n : DotDims S4x2048x1024 S1024x1024 S4x2048x1024 where
  lhsContracting := [2]
  rhsContracting := [0]
  lhsNonContracting := [0, 1]
  rhsNonContracting := [1]
  lhsBatch := []
  rhsBatch := []
  wf := dot_S4x2048x1024_S1024x1024_S4x2048x1024_2_0_01_1_n_n_wf
def dot_S4x2048x1024_S4x2048x1024_S4x2048x2048_2_2_1_1_0_0 : DotDims S4x2048x1024 S4x2048x1024 S4x2048x2048 where
  lhsContracting := [2]
  rhsContracting := [2]
  lhsNonContracting := [1]
  rhsNonContracting := [1]
  lhsBatch := [0]
  rhsBatch := [0]
  wf := dot_S4x2048x1024_S4x2048x1024_S4x2048x2048_2_2_1_1_0_0_wf
def dot_S4x2048x2048_S4x2048x1024_S4x2048x1024_2_1_1_2_0_0 : DotDims S4x2048x2048 S4x2048x1024 S4x2048x1024 where
  lhsContracting := [2]
  rhsContracting := [1]
  lhsNonContracting := [1]
  rhsNonContracting := [2]
  lhsBatch := [0]
  rhsBatch := [0]
  wf := dot_S4x2048x2048_S4x2048x1024_S4x2048x1024_2_1_1_2_0_0_wf

class Facts : Prop extends Facts₀ where

variable [Facts]
-- ==== Proof.K.R0Defs.lean ====
/-
  The projection call (first pallas_call): a grid of 16 points, point t taking rows 512·t … 512·t+511 of the
  flattened input. Its body loads the row block x, the three weight matrices and the three bias rows, and stores
  three blocks: x·Wq + bq, x·Wk + bk, x·Wv + bv (each narrowed to bf16, the identity on ideal values).
  Here: each window's block at a point, what each of the three stores leaves in its output buffer as a function of
  the loaded blocks, and the pipeline's proof data over them, at ANY contents `V` of the buffers at the call's entry.
-/
import proofs.«425711_j52012053954870_3_alg».proof.Proof.Gen.Kernel.Launch
import proofs.«425711_j52012053954870_3_alg».proof.Proof.Gen.Kernel.Skeleton
import proofs.«425711_j52012053954870_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole-buffer rectangles the body loads and stores through. -/
abbrev rX0 : Rect S512x1024 := Rect.unit (s := S512x1024) ![0, 0] S512x1024.size inb_S512x1024_S512x1024_0_0
abbrev rW0 : Rect S1024x1024 := Rect.unit (s := S1024x1024) ![0, 0] S1024x1024.size inb_S1024x1024_S1024x1024_0_0
abbrev rB0 : Rect S1x1024 := Rect.unit (s := S1x1024) ![0, 0] S1x1024.size inb_S1x1024_S1x1024_0_0

/-- The Q block: the one store into window 7's buffer, over the loaded row block, Wq and bq. -/
def out0_7 (x : Vec F S512x1024 .f32) (w : Vec F S1024x1024 .bf16) (b : Vec F S1x1024 .f32) : Vec F S512x1024 .bf16 :=
  View.canon [⟨rX0, k0_pay2 (View.ld x rX0) (View.ld w rW0) (View.ld b rB0)⟩]
/-- The K block: the one store into window 8's buffer, over the loaded row block, Wk and bk. -/
def out0_8 (x : Vec F S512x1024 .f32) (w : Vec F S1024x1024 .bf16) (b : Vec F S1x1024 .f32) : Vec F S512x1024 .bf16 :=
  View.canon [⟨rX0, k0_pay3 (View.ld x rX0) (View.ld w rW0) (View.ld b rB0)⟩]
/-- The V block: the one store into window 9's buffer, over the loaded row block, Wv and bv. -/
def out0_9 (x : Vec F S512x1024 .f32) (w : Vec F S1024x1024 .bf16) (b : Vec F S1x1024 .f32) : Vec F S512x1024 .bf16 :=
  View.canon [⟨rX0, k0_pay4 (View.ld x rX0) (View.ld w rW0) (View.ld b rB0)⟩]

/-- Each store covers its buffer. -/
theorem cover0 (p : Vec F S512x1024 .bf16) (y : S512x1024.Idx) :
    ∃ pc ∈ ([⟨rX0, p⟩] : List (View.Piece (Elt F) S512x1024 .bf16)), y ∈ pc.1.set :=
  View.cover_of_tiled [⟨rX0, p⟩] S512x1024.size (by rfl) y

/-- The input blocks at a point under their literal types. -/
abbrev xb0 (c : Dev nD) (t : Fin cfg0.N) : Vec F S512x1024 .f32 := iblk0 V c 0 t
abbrev wq0 (c : Dev nD) (t : Fin cfg0.N) : Vec F S1024x1024 .bf16 := iblk0 V c 1 t
abbrev bq0 (c : Dev nD) (t : Fin cfg0.N) : Vec F S1x1024 .f32 := iblk0 V c 2 t
abbrev wk0 (c : Dev nD) (t : Fin cfg0.N) : Vec F S1024x1024 .bf16 := iblk0 V c 3 t
abbrev bk0 (c : Dev nD) (t : Fin cfg0.N) : Vec F S1x1024 .f32 := iblk0 V c 4 t
abbrev wv0 (c : Dev nD) (t : Fin cfg0.N) : Vec F S1024x1024 .bf16 := iblk0 V c 5 t
abbrev bv0 (c : Dev nD) (t : Fin cfg0.N) : Vec F S1x1024 .f32 := iblk0 V c 6 t

/-- The proof data of the projection call on core `c`: the arrays as the call finds them; after the body at point
    `t` each input's buffer at its block and each output's at its store over the input blocks; the invariant the
    scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (xb0 V c t) (wq0 V c t) (bq0 V c t)
    | ⟨8, _⟩ => out0_8 (xb0 V c t) (wk0 V c t) (bk0 V c t)
    | ⟨9, _⟩ => out0_9 (xb0 V c t) (wv0 V c t) (bv0 V c t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = out0_7 (xb0 V c t) (wq0 V c t) (bq0 V c t) := by dsimp only [dat0]
theorem after0_8 (c : Dev nD) (t : Fin cfg0.N) : (dat0 V c).after 8 t = out0_8 (xb0 V c t) (wk0 V c t) (bk0 V c t) := by dsimp only [dat0]
theorem after0_9 (c : Dev nD) (t : Fin cfg0.N) : (dat0 V c).after 9 t = out0_9 (xb0 V c t) (wv0 V c t) (bv0 V c t) := by dsimp only [dat0]

end Cert.Kernel.Hand

end
-- ==== Proof.K.R1Defs.lean ====
/-
  The attention call (second pallas_call): a grid of 4·2·4 = 32 points (batch b, query tile qi of 1024 rows, key
  tile ki of 512 rows; point t = 8·b + 4·qi + ki). At a point the body loads the query tile, one key tile and one
  value tile and updates three scratch buffers it carries from point to point: the running row maximum m, the
  running normaliser l and the running weighted sum acc (online softmax). At ki = 0 it first resets them to
  (-inf, 0, 0); at ki = 3 it also stores acc / l into the output tile.
  Here: the blocks at a point, ONE update step as a function of the three loaded blocks and the carried triple
  (spelled through the generated payload names), the triple after every point by recursion on the point, the
  output tile, the invariant that holds the three scratch buffers at that triple, and the pipeline's proof data.
  All at ANY contents `V` of the buffers at the call's entry, and at any float instance.
-/
import proofs.«425711_j52012053954870_3_alg».proof.Proof.Gen.Kernel.Launch
import proofs.«425711_j52012053954870_3_alg».proof.Proof.Gen.Kernel.Skeleton
import proofs.«425711_j52012053954870_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The query tile, the key tile and the value tile at a point, under their literal types. -/
abbrev qb1 (c : Dev nD) (t : Fin cfg1.N) : Vec F S1x1024x1024 .bf16 := iblk1 V c 0 t
abbrev kb1 (c : Dev nD) (t : Fin cfg1.N) : Vec F S1x512x1024 .bf16 := iblk1 V c 1 t
abbrev vb1 (c : Dev nD) (t : Fin cfg1.N) : Vec F S1x512x1024 .bf16 := iblk1 V c 2 t

/-- The carried triple: row maxima m [1024,1], normalisers l [1024,1], weighted sums acc [1024,1024]. -/
abbrev St (F : FTy → Type) [FloatOps F] : Type := Vec F S1024x1 .f32 × Vec F S1024x1 .f32 × Vec F S1024x1024 .f32

/-- What the reset at ki = 0 stores: (-inf, 0, 0). -/
def initS : St F := (k1_pay4, k1_pay5, k1_pay6)

/-- One update: from the query tile `q`, key tile `k`, value tile `v` and the carried (m, l, acc), the new triple
    m' = max m (rowmax s), l' = exp(m - m')·l + rowsum exp(s - m'), acc' = exp(m - m')·acc + exp(s - m')·v,
    with s = (q·kᵀ)/32 — exactly the three stores' payloads. -/
def stepS (q : Vec F S1x1024x1024 .bf16) (k v : Vec F S1x512x1024 .bf16) (s : St F) : St F :=
  (k1_pay2 (k1_pay9 q k s.1), k1_pay12 q k s.1 s.1 s.2.1, k1_pay1 (k1_pay7 v) (k1_pay10 q k s.1 s.1) (k1_pay11 q k s.1) s.2.2)

/-- The carried triple after the body at position `n`: one step from the reset values where ki = 0 (n ≡ 0 mod 4),
    else one step from what the point before left. -/
def stateAt (c : Dev nD) : (n : ℕ) → n < cfg1.N → St F
  | 0, hn => stepS (qb1 V c ⟨0, hn⟩) (kb1 V c ⟨0, hn⟩) (vb1 V c ⟨0, hn⟩) initS
  | n + 1, hn => stepS (qb1 V c ⟨n + 1, hn⟩) (kb1 V c ⟨n + 1, hn⟩) (vb1 V c ⟨n + 1, hn⟩)
      (if (n + 1) % 4 = 0 then initS else stateAt c n (Nat.lt_of_succ_lt hn))

theorem stateAt_reset (c : Dev nD) (t : Fin cfg1.N) (h : t.val % 4 = 0) :
    stateAt V c t.val t.isLt = stepS (qb1 V c t) (kb1 V c t) (vb1 V c t) initS := by
  obtain ⟨n, hn⟩ := t
  cases n with
  | zero => rfl
  | succ n => exact congrArg (stepS _ _ _) (if_pos h)

theorem stateAt_carry (c : Dev nD) (t : Fin cfg1.N) (h : ¬ t.val % 4 = 0) :
    stateAt V c t.val t.isLt = stepS (qb1 V c t) (kb1 V c t) (vb1 V c t)
      (stateAt V c (t.val - 1) (Nat.lt_of_le_of_lt (Nat.sub_le _ _) t.isLt)) := by
  obtain ⟨n, hn⟩ := t
  cases n with
  | zero => exact absurd (Nat.zero_mod _) h
  | succ n => exact congrArg (stepS _ _ _) (if_neg h)

/-- The output tile the body stores at ki = 3: acc / l of the triple after that point. -/
def outAt (c : Dev nD) (t : Fin cfg1.N) : Vec F S1x1024x1024 .f32 :=
  k1_pay3 (stateAt V c t.val t.isLt).2.2 (stateAt V c t.val t.isLt).2.1

/-- The three scratch buffers as whole memrefs. -/
abbrev scM0 : Memref sig .tc .vmem S1024x1 .f32 := Memref.whole cc1_scratch0
abbrev scM1 : Memref sig .tc .vmem S1024x1 .f32 := Memref.whole cc1_scratch1
abbrev scM2 : Memref sig .tc .vmem S1024x1024 .f32 := Memref.whole cc1_scratch2

/-- The invariant before position `n`: before the first point the scoped rest at anything and the generator
    register; afterwards the same with the three scratch buffers at the triple the point before left. -/
def PhiS (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg8_1), ((c : Thread nD τ).loc cc0_stg8_1) ↦{fullShare} f) ∗ (∃ f : Buf (Elt F) ((c : Thread nD τ).loc cc0_stg9_0), ((c : Thread nD τ).loc cc0_stg9_0) ↦{fullShare} f) ∗ (∃ f : Buf (Elt F) ((c : Thread nD τ).loc cc0_stg9_1), ((c : Thread nD τ).loc cc0_stg9_1) ↦{fullShare} f)
      ∗ owns (c : Thread nD τ) scM0 fullShare (stateAt V c n hn).1
      ∗ owns (c : Thread nD τ) scM1 fullShare (stateAt V c n hn).2.1
      ∗ owns (c : Thread nD τ) scM2 fullShare (stateAt V c n hn).2.2) ∗ (∃ r, prngReg c r))

/-- The proof data of the attention call on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => outAt V c t
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = outAt V c t := by dsimp only [dat1]

end Cert.Kernel.Hand

end
-- ==== Proof.K.Bounds.lean ====
/-
  The buffers' contents at the four boundaries of @main: at launch, after the host lines before the projection
  call (the reshape of x, the three weight conversions, the three bias reshapes), after the projection call (its
  three result arrays at what its write-backs leave, everything else as entered), after the three reshapes of
  Q, K, V, and after the attention call (its result array at what its write-backs leave). Each argument array is
  read back through all four to its launch contents: no host line and no call writes one.
-/
import proofs.«425711_j52012053954870_3_alg».proof.Proof.Gen.Kernel.Launch
import proofs.«425711_j52012053954870_3_alg».proof.Proof.Gen.Kernel.Skeleton
import proofs.«425711_j52012053954870_3_alg».proof.Proof.Gen.Kernel.Points
import proofs.«425711_j52012053954870_3_alg».proof.Proof.K.R0Defs
import proofs.«425711_j52012053954870_3_alg».proof.Proof.K.R1Defs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-- Core `c`'s buffers at launch. -/
abbrev W0 : Dev nD → Valuation τ sig (Elt F) := fun c b => m (c, b)
/-- After the host lines before the projection call. -/
abbrev W1 : Dev nD → Valuation τ sig (Elt F) := fun c => StableHlo.after hostOps0 (W0 m c)
/-- The same read at the TensorCore's references. -/
abbrev Vr1 : (c : Dev nD) → (b : Ref sig .tc) → Buf (Elt F) ((c : Thread nD τ).loc b) := fun c b => W1 m c b
/-- After the projection call: its arrays at what the pipeline leaves, every other buffer as entered. -/
def W2 (c : Dev nD) : Valuation τ sig (Elt F) :=
  Pipeline.withArrays spec0 c (W1 m c) fun w => (dat0 (Vr1 m) c).arrAt w cfg0.N
theorem W2_arr (c : Dev nD) (w : Fin cfg0.W) :
    W2 m c (Proc.devRef .tc (Pipeline.arrRef spec0 w)) = (dat0 (Vr1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev Vr2 : (c : Dev nD) → (b : Ref sig .tc) → Buf (Elt F) ((c : Thread nD τ).loc b) := fun c b => W2 m c b
theorem hF0 (c : Dev nD) (w : Fin cfg0.W) : (dat0 (Vr1 m) c).arrAt w cfg0.N = Vr2 m c (Pipeline.arrRef spec0 w) :=
  (W2_arr m c w).symm
theorem hrest0 (c : Dev nD) : ∀ b, b ∉ Finset.univ.image (Pipeline.arrRef spec0) → Vr2 m c b = Vr1 m c b :=
  fun b hb => W2_of_ne m c b fun w e => hb (Finset.mem_image.mpr ⟨w, Finset.mem_univ _, e⟩)

/-- After the three reshapes between the calls. -/
abbrev W3 : Dev nD → Valuation τ sig (Elt F) := fun c => StableHlo.after hostOps1 (W2 m c)
abbrev Vr3 : (c : Dev nD) → (b : Ref sig .tc) → Buf (Elt F) ((c : Thread nD τ).loc b) := fun c b => W3 m c b
/-- After the attention call. -/
def W4 (c : Dev nD) : Valuation τ sig (Elt F) :=
  Pipeline.withArrays spec1 c (W3 m c) fun w => (dat1 (Vr3 m) c).arrAt w cfg1.N
theorem W4_arr (c : Dev nD) (w : Fin cfg1.W) :
    W4 m c (Proc.devRef .tc (Pipeline.arrRef spec1 w)) = (dat1 (Vr3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev Vr4 : (c : Dev nD) → (b : Ref sig .tc) → Buf (Elt F) ((c : Thread nD τ).loc b) := fun c b => W4 m c b
theorem hF1 (c : Dev nD) (w : Fin cfg1.W) : (dat1 (Vr3 m) c).arrAt w cfg1.N = Vr4 m c (Pipeline.arrRef spec1 w) :=
  (W4_arr m c w).symm
theorem hrest1 (c : Dev nD) : ∀ b, b ∉ Finset.univ.image (Pipeline.arrRef spec1) → Vr4 m c b = Vr3 m c b :=
  fun b hb => W4_of_ne m c b fun w e => hb (Finset.mem_image.mpr ⟨w, Finset.mem_univ _, e⟩)

/-- A buffer no line of the first host stretch writes is unchanged by it. -/
theorem W1_keep (c : Dev nD) (b : Ref sig .tc)
    (hb : b ≠ main_v0 ∧ b ≠ main_v1 ∧ b ≠ main_v2 ∧ b ≠ main_v3 ∧ b ≠ main_v4 ∧ b ≠ main_v5 ∧ b ≠ main_v6) :
    W1 m c (Proc.devRef .tc b) = W0 m c (Proc.devRef .tc b) :=
  StableHlo.after_of_forall_not_mem (b := Proc.devRef .tc b) _ _ (List.forall_iff_forall_mem.mp (by
    simp only [hostOps0, List.Forall, StableHlo.unary_writes, StableHlo.reshape_writes, Finset.mem_singleton]
    obtain ⟨h0, h1, h2, h3, h4, h5, h6⟩ := hb
    exact ⟨StableHlo.devRef_ne_of_ne h0, StableHlo.devRef_ne_of_ne h1, StableHlo.devRef_ne_of_ne h2, StableHlo.devRef_ne_of_ne h3,
      StableHlo.devRef_ne_of_ne h4, StableHlo.devRef_ne_of_ne h5, StableHlo.devRef_ne_of_ne h6⟩))

/-- A buffer none of the three reshapes between the calls writes is unchanged by them. -/
theorem W3_keep (c : Dev nD) (b : Ref sig .tc) (hb : b ≠ main_v8 ∧ b ≠ main_v9 ∧ b ≠ main_v10) :
    W3 m c (Proc.devRef .tc b) = W2 m c (Proc.devRef .tc b) :=
  StableHlo.after_of_forall_not_mem (b := Proc.devRef .tc b) _ _ (List.forall_iff_forall_mem.mp (by
    simp only [hostOps1, List.Forall, StableHlo.reshape_writes, Finset.mem_singleton]
    obtain ⟨h0, h1, h2⟩ := hb
    exact ⟨StableHlo.devRef_ne_of_ne h0, StableHlo.devRef_ne_of_ne h1, StableHlo.devRef_ne_of_ne h2⟩))

/-- An argument array is no window of either call and no host line's result: it ends as launched. -/
theorem W4_arg (c : Dev nD) (b : Ref sig .tc)
    (h1 : ∀ w, Pipeline.arrRef spec1 w ≠ b) (h3 : b ≠ main_v8 ∧ b ≠ main_v9 ∧ b ≠ main_v10)
    (h0 : ∀ w, Pipeline.arrRef spec0 w ≠ b)
    (hh : b ≠ main_v0 ∧ b ≠ main_v1 ∧ b ≠ main_v2 ∧ b ≠ main_v3 ∧ b ≠ main_v4 ∧ b ≠ main_v5 ∧ b ≠ main_v6) :
    W4 m c (Proc.devRef .tc b) = m ((c : Thread nD τ).loc b) :=
  (W4_of_ne m c b h1).trans ((W3_keep m c b h3).trans ((W2_of_ne m c b h0).trans ((W1_keep m c b hh).trans rfl)))

theorem W4_main_arg0 (c : Dev nD) : W4 m c (Proc.devRef .tc main_arg0) = m ((c : Thread nD τ).loc main_arg0) :=
  W4_arg m c main_arg0 (by decide) (by decide) (by decide) (by decide)
theorem W4_main_arg1 (c : Dev nD) : W4 m c (Proc.devRef .tc main_arg1) = m ((c : Thread nD τ).loc main_arg1) :=
  W4_arg m c main_arg1 (by decide) (by decide) (by decide) (by decide)
theorem W4_main_arg2 (c : Dev nD) : W4 m c (Proc.devRef .tc main_arg2) = m ((c : Thread nD τ).loc main_arg2) :=
  W4_arg m c main_arg2 (by decide) (by decide) (by decide) (by decide)
theorem W4_main_arg3 (c : Dev nD) : W4 m c (Proc.devRef .tc main_arg3) = m ((c : Thread nD τ).loc main_arg3) :=
  W4_arg m c main_arg3 (by decide) (by decide) (by decide) (by decide)
theorem W4_main_arg4 (c : Dev nD) : W4 m c (Proc.devRef .tc main_arg4) = m ((c : Thread nD τ).loc main_arg4) :=
  W4_arg m c main_arg4 (by decide) (by decide) (by decide) (by decide)
theorem W4_main_arg5 (c : Dev nD) : W4 m c (Proc.devRef .tc main_arg5) = m ((c : Thread nD τ).loc main_arg5) :=
  W4_arg m c main_arg5 (by decide) (by decide) (by decide) (by decide)
theorem W4_main_arg6 (c : Dev nD) : W4 m c (Proc.devRef .tc main_arg6) = m ((c : Thread nD τ).loc main_arg6) :=
  W4_arg m c main_arg6 (by decide) (by decide) (by decide) (by decide)

/-- The result array after the run is what the attention call's write-backs leave. -/
theorem W4_main_v11 (c : Dev nD) : W4 m c (Proc.devRef .tc main_v11) = (dat1 (Vr3 m) c).arrAt 3 cfg1.N :=
  W4_arr m c 3

end Cert.Kernel.Hand

end
-- ==== Proof.K.R0Body.lean ====
/-
  The projection body at any grid point meets the pipeline's obligation: on the staging buffers holding the
  point's blocks it runs to the end leaving each input as it was and each output at its store (`out0_7/8/9`).
-/
import proofs.«425711_j52012053954870_3_alg».proof.Proof.Gen.Kernel.Launch
import proofs.«425711_j52012053954870_3_alg».proof.Proof.Gen.Kernel.Skeleton
import proofs.«425711_j52012053954870_3_alg».proof.Proof.Gen.Kernel.Points
import proofs.«425711_j52012053954870_3_alg».proof.Proof.K.R0Defs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the body finds in each input window's buffer

An input window's block is left in place by the body, the window is uncut and has no idle point. So at every
point its current buffer holds the block of that point: where the window is fetched, the fetch puts it there;
where it is not, its block index has not moved since the point before, and the buffer still holds that block. -/

theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)

theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)

theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)

theorem before0_3 (c : Dev nD) (t : Fin cfg0.N) (d) : (dat0 V c).before 3 t d = iblk0 V c 3 t :=
  ((dat0 V c).before_in_eq_fetched 3 rfl (fun _ => rfl) (fun _ _ _ => rfl)
    (fun t => by rw [after0_3]; unfold Dat.blockOf iblk0; rw [A_eq0]; try rfl) t d).trans
    (by unfold Dat.fetched Dat.blockOf iblk0; rw [A_eq0]; try rfl)

theorem before0_4 (c : Dev nD) (t : Fin cfg0.N) (d) : (dat0 V c).before 4 t d = iblk0 V c 4 t :=
  ((dat0 V c).before_in_eq_fetched 4 rfl (fun _ => rfl) (fun _ _ _ => rfl)
    (fun t => by rw [after0_4]; unfold Dat.blockOf iblk0; rw [A_eq0]; try rfl) t d).trans
    (by unfold Dat.fetched Dat.blockOf iblk0; rw [A_eq0]; try rfl)

theorem before0_5 (c : Dev nD) (t : Fin cfg0.N) (d) : (dat0 V c).before 5 t d = iblk0 V c 5 t :=
  ((dat0 V c).before_in_eq_fetched 5 rfl (fun _ => rfl) (fun _ _ _ => rfl)
    (fun t => by rw [after0_5]; unfold Dat.blockOf iblk0; rw [A_eq0]; try rfl) t d).trans
    (by unfold Dat.fetched Dat.blockOf iblk0; rw [A_eq0]; try rfl)

theorem before0_6 (c : Dev nD) (t : Fin cfg0.N) (d) : (dat0 V c).before 6 t d = iblk0 V c 6 t :=
  ((dat0 V c).before_in_eq_fetched 6 rfl (fun _ => rfl) (fun _ _ _ => rfl)
    (fun t => by rw [after0_6]; unfold Dat.blockOf iblk0; rw [A_eq0]; try rfl) t d).trans
    (by unfold Dat.fetched Dat.blockOf iblk0; rw [A_eq0]; try rfl)

/-! ## The body's triple -/

set_option maxHeartbeats 1000000 in
/-- The projection body on whole staging memrefs, the seven inputs' at read contents and the three outputs' at
    anything, runs to the continuation holding the inputs' as they were and each output's at its one store over
    the loaded blocks: the store's rectangle is the whole buffer, so what it leaves reads as that one piece
    whatever the buffer held before. -/
theorem sound_kernel0 (c : Dev nD) (E : Set ℕ) (i : grid0.Coords)
    (arg1 : Memref sig .tc .vmem S512x1024 .f32) (harg1 : arg1.IsWhole)
    (arg2 : Memref sig .tc .vmem S1024x1024 .bf16) (harg2 : arg2.IsWhole)
    (arg3 : Memref sig .tc .vmem S1x1024 .f32) (harg3 : arg3.IsWhole)
    (arg4 : Memref sig .tc .vmem S1024x1024 .bf16) (harg4 : arg4.IsWhole)
    (arg5 : Memref sig .tc .vmem S1x1024 .f32) (harg5 : arg5.IsWhole)
    (arg6 : Memref sig .tc .vmem S1024x1024 .bf16) (harg6 : arg6.IsWhole)
    (arg7 : Memref sig .tc .vmem S1x1024 .f32) (harg7 : arg7.IsWhole)
    (arg8 : Memref sig .tc .vmem S512x1024 .bf16) (harg8 : arg8.IsWhole)
    (arg9 : Memref sig .tc .vmem S512x1024 .bf16) (harg9 : arg9.IsWhole)
    (arg10 : Memref sig .tc .vmem S512x1024 .bf16) (harg10 : arg10.IsWhole)
    (x : Vec F S512x1024 .f32) (wq : Vec F S1024x1024 .bf16) (bq : Vec F S1x1024 .f32) (wk : Vec F S1024x1024 .bf16) (bk : Vec F S1x1024 .f32) (wv : Vec F S1024x1024 .bf16) (bv : Vec F S1x1024 .f32) (K : PUnit → sProp 𝕄) :
    iprop(owns (c : Thread nD τ) arg1 fullShare x ∗ owns (c : Thread nD τ) arg2 fullShare wq ∗ owns (c : Thread nD τ) arg3 fullShare bq ∗ owns (c : Thread nD τ) arg4 fullShare wk ∗ owns (c : Thread nD τ) arg5 fullShare bk ∗ owns (c : Thread nD τ) arg6 fullShare wv ∗ owns (c : Thread nD τ) arg7 fullShare bv
        ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg1 fullShare x ∗ owns (c : Thread nD τ) arg2 fullShare wq ∗ owns (c : Thread nD τ) arg3 fullShare bq ∗ owns (c : Thread nD τ) arg4 fullShare wk ∗ owns (c : Thread nD τ) arg5 fullShare bk ∗ owns (c : Thread nD τ) arg6 fullShare wv ∗ owns (c : Thread nD τ) arg7 fullShare bv
            ∗ owns (c : Thread nD τ) arg8 fullShare (out0_7 x wq bq) ∗ owns (c : Thread nD τ) arg9 fullShare (out0_8 x wk bk) ∗ owns (c : Thread nD τ) arg10 fullShare (out0_9 x wv bv)) -∗ K ⟨⟩))
      ⊢ wp frame (wpE (defs₀ (F := F)) Variants.none c none) E (cc0_proj_kernel i arg1 harg1 arg2 harg2 arg3 harg3 arg4 harg4 arg5 harg5 arg6 harg6 arg7 harg7 arg8 harg8 arg9 harg9 arg10 harg10) K := by
  simp only [cc0_proj_kernel_eq_skeleton]; unfold cc0_proj_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, Hk⟩
  subst hf1 hf2 hf3 hf4 hf5 hf6 hf7
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact View.read_writes_eq_canon _ _ _ (cover0 _)
  isplitl [H9]
  · iexists _; isplitr
    swap; · iexact H9
    ipureintro
    exact View.read_writes_eq_canon _ _ _ (cover0 _)
  iexists _; isplitr
  swap; · iexact H10
  ipureintro
  exact View.read_writes_eq_canon _ _ _ (cover0 _)

/-! ## The body obligation, at a generic point -/

/-- What the body is called with at point `t`: the invariant, what the core owes, and each window's current
    buffer at what it then holds. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d)))

/-- and what it returns: each window's current buffer at what the body leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t))

/-- The body at any point: the inputs' buffers hold their blocks, so the body's triple applies at those blocks;
    the invariant and what the core owes pass through unread, and are the same at the next point. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel0 c Set.univ _ _ _ _ _ _ _ _ _ _ _ _ _ _ _ _ _ _ _ _ _ (xb0 V c t) (wq0 V c t) (bq0 V c t) (wk0 V c t) (bk0 V c t) (wv0 V c t) (bv0 V c t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.R1Conds.lean ====
/-
  The attention call's two branch conditions, decided over the grid: the reset branch is taken exactly at the
  points with key tile 0 (t ≡ 0 mod 4), the output branch exactly at key tile 3 (t ≡ 3 mod 4). Where the output
  window is idle and not written back (every point but the last of a group of four), and the staging memrefs the
  pipeline calls the body with.
-/
import proofs.«425711_j52012053954870_3_alg».proof.Proof.Gen.Kernel.Launch
import proofs.«425711_j52012053954870_3_alg».proof.Proof.Gen.Kernel.Skeleton
import proofs.«425711_j52012053954870_3_alg».proof.Proof.Gen.Kernel.Points
import proofs.«425711_j52012053954870_3_alg».proof.Proof.K.R1Defs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The condition of the reset branch, from the grid coordinates. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)
/-- The condition of the output branch. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Where the output branch is not taken the output window is idle and not written back. -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
theorem liveAt1_3 : ∀ t : Fin cfg1.N, cond1_1 (grid1.coords t) → cfg1.idle 3 (grid1.coords t) = false := by decide +kernel

/-- Each window's current staging memref at point `t`, as the pipeline passes it, and its wholeness. -/
abbrev ms1_0 (t : Fin cfg1.N) : Memref sig .tc .vmem S1x1024x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x512x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x512x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1024x1024 .f32 := win1_3.stage (cfg1.slots t 3)
abbrev hs1_3 (t : Fin cfg1.N) : (ms1_3 t).IsWhole := hstage1_3 ((cfg1.slots t 3).cast nbuf1_3)

end Cert.Kernel.Hand

end
-- ==== Proof.K.R1Runs.lean ====
/-
  The attention body run once in each of its three control cases, on any whole staging memrefs:
  A (key tile 0: the reset branch taken, the output branch not), B (key tiles 1, 2: neither branch),
  C (key tile 3: the output branch taken). In every case the three scratch buffers end at ONE update step
  (`stepS`) of the loaded tiles — from the reset values in case A, from what they held in cases B and C —;
  in cases A and B the output buffer is handed back untouched, in case C it ends at acc / l of the new triple.
  Every store and load of the body goes through the whole-shape rectangle at zero offsets, so a buffer stored into reads
  its last store's payload, and a load reads the contents (or, after a store, that store's payload).
-/
import proofs.«425711_j52012053954870_3_alg».proof.Proof.Gen.Kernel.Launch
import proofs.«425711_j52012053954870_3_alg».proof.Proof.Gen.Kernel.Skeleton
import proofs.«425711_j52012053954870_3_alg».proof.Proof.Gen.Kernel.Points
import proofs.«425711_j52012053954870_3_alg».proof.Proof.K.R1Conds
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The zero offsets of a store or load of a whole buffer, of rank two and three. -/
theorem attnZeroOff2 : (![0, 0] : Fin 2 → Nat) = fun _ => 0 := funext fun a => by fin_cases a <;> rfl
theorem attnZeroOff3 : (![0, 0, 0] : Fin 3 → Nat) = fun _ => 0 := funext fun a => by fin_cases a <;> rfl

/-- A store through the whole-shape rectangle at zero offsets, made last, covers the buffer: whatever the buffer
    held and whatever was stored before, the memref then reads the stored vector. -/
theorem attnReadLastWholeStore {sp : Space} {S : Shape} {e : EltTy} (m : Memref sig .tc sp S e) (f : m.view.ty.Contents (Elt F))
    {off : Fin S.rank → Nat} (hz : off = fun _ => 0) (inb : ∀ a, off a + S.size a ≤ S.size a) (w : S.Idx → Elt F e)
    (L : List (View.Piece (Elt F) S e)) :
    m.view.read (Elt F) (m.view.writes (Elt F) f ((⟨Rect.unit off S.size inb, w⟩ : View.Piece (Elt F) S e) :: L)) = w := by
  rw [View.read_writes_eq_canon _ _ _ (fun y => ⟨_, List.mem_cons_self, View.mem_set_unit_zero hz inb y⟩),
    View.canon_cons_unit_zero hz]

/-- Case A: the reset branch taken, the output branch not. -/
theorem sound_kernel1_A (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : cond1_0 i) (hc1 : ¬cond1_1 i)
    (q : Vec F S1x1024x1024 .bf16) (k v : Vec F S1x512x1024 .bf16) (xi : Vec F S1x1024x1024 .f32) (E : Set ℕ) (K : PUnit → sProp 𝕄) :
    iprop(owns (c : Thread nD τ) arg3 fullShare q ∗ owns (c : Thread nD τ) arg4 fullShare k ∗ owns (c : Thread nD τ) arg5 fullShare v ∗ owns (c : Thread nD τ) arg6 fullShare xi
        ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg3 fullShare q ∗ owns (c : Thread nD τ) arg4 fullShare k ∗ owns (c : Thread nD τ) arg5 fullShare v ∗ owns (c : Thread nD τ) arg6 fullShare xi ∗ owns (c : Thread nD τ) arg7 fullShare (stepS q k v initS).1 ∗ owns (c : Thread nD τ) arg8 fullShare (stepS q k v initS).2.1 ∗ owns (c : Thread nD τ) arg9 fullShare (stepS q k v initS).2.2) -∗ K ⟨⟩))
      ⊢ wp frame (wpE (defs₀ (F := F)) Variants.none c none) E (cc1_attn_kernel i arg3 harg3 arg4 harg4 arg5 harg5 arg6 harg6 arg7 harg7 arg8 harg8 arg9 harg9) K := by

  simp only [cc1_attn_kernel_eq_skeleton]; unfold cc1_attn_kernel_skel
  unfold owns
  iintro ⟨⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
  obtain rfl := harg3.eq_unread hf3; obtain rfl := harg4.eq_unread hf4; obtain rfl := harg5.eq_unread hf5
  obtain rfl := harg6.eq_unread hf6
  -- the reset branch is taken, the output branch is not
  sl_exec (disch := first | exact hc0 | exact hc1)
  sl_step
  iapply Hk
  -- the three tiles and the output buffer are only read or untouched
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  -- each scratch buffer was stored whole twice, the reset value then the update: it reads the update's payload,
  -- whose loads of m, l, acc read the reset values back (a whole-buffer load after a whole-buffer store)
  isplitl [H7]
  · iexists _; isplitr
    on_goal 2 => iexact H7
    ipureintro
    sl_unfold_words
    refine (attnReadLastWholeStore arg7 _ attnZeroOff2 _ _ _).trans ?_
    simp only [View.readAt_eq_ld, harg3.read_unread, harg4.read_unread, harg5.read_unread, harg7.read_unread, harg8.read_unread, harg9.read_unread,
        View.ld_unit_zero (S := S1x1024x1024) attnZeroOff3, View.ld_unit_zero (S := S1x512x1024) attnZeroOff3, View.ld_unit_zero (S := S1024x1) attnZeroOff2, View.ld_unit_zero (S := S1024x1024) attnZeroOff2, View.readCov_unit_zero (S := S1024x1) _ attnZeroOff2, View.readCov_unit_zero (S := S1024x1024) _ attnZeroOff2]
    rfl
  isplitl [H8]
  · iexists _; isplitr
    on_goal 2 => iexact H8
    ipureintro
    sl_unfold_words
    refine (attnReadLastWholeStore arg8 _ attnZeroOff2 _ _ _).trans ?_
    simp only [View.readAt_eq_ld, harg3.read_unread, harg4.read_unread, harg5.read_unread, harg7.read_unread, harg8.read_unread, harg9.read_unread,
        View.ld_unit_zero (S := S1x1024x1024) attnZeroOff3, View.ld_unit_zero (S := S1x512x1024) attnZeroOff3, View.ld_unit_zero (S := S1024x1) attnZeroOff2, View.ld_unit_zero (S := S1024x1024) attnZeroOff2, View.readCov_unit_zero (S := S1024x1) _ attnZeroOff2, View.readCov_unit_zero (S := S1024x1024) _ attnZeroOff2]
    rfl
  iexists _; isplitr
  on_goal 2 => iexact H9
  ipureintro
  sl_unfold_words
  refine (attnReadLastWholeStore arg9 _ attnZeroOff2 _ _ _).trans ?_
  simp only [View.readAt_eq_ld, harg3.read_unread, harg4.read_unread, harg5.read_unread, harg7.read_unread, harg8.read_unread, harg9.read_unread,
        View.ld_unit_zero (S := S1x1024x1024) attnZeroOff3, View.ld_unit_zero (S := S1x512x1024) attnZeroOff3, View.ld_unit_zero (S := S1024x1) attnZeroOff2, View.ld_unit_zero (S := S1024x1024) attnZeroOff2, View.readCov_unit_zero (S := S1024x1) _ attnZeroOff2, View.readCov_unit_zero (S := S1024x1024) _ attnZeroOff2]
  rfl

/-- Case B: neither branch taken. -/
theorem sound_kernel1_B (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : ¬cond1_1 i)
    (q : Vec F S1x1024x1024 .bf16) (k v : Vec F S1x512x1024 .bf16) (xi : Vec F S1x1024x1024 .f32) (s : St F) (E : Set ℕ) (K : PUnit → sProp 𝕄) :
    iprop(owns (c : Thread nD τ) arg3 fullShare q ∗ owns (c : Thread nD τ) arg4 fullShare k ∗ owns (c : Thread nD τ) arg5 fullShare v ∗ owns (c : Thread nD τ) arg6 fullShare xi
        ∗ owns (c : Thread nD τ) arg7 fullShare s.1 ∗ owns (c : Thread nD τ) arg8 fullShare s.2.1 ∗ owns (c : Thread nD τ) arg9 fullShare s.2.2
        ∗ (iprop(owns (c : Thread nD τ) arg3 fullShare q ∗ owns (c : Thread nD τ) arg4 fullShare k ∗ owns (c : Thread nD τ) arg5 fullShare v ∗ owns (c : Thread nD τ) arg6 fullShare xi ∗ owns (c : Thread nD τ) arg7 fullShare (stepS q k v s).1 ∗ owns (c : Thread nD τ) arg8 fullShare (stepS q k v s).2.1 ∗ owns (c : Thread nD τ) arg9 fullShare (stepS q k v s).2.2) -∗ K ⟨⟩))
      ⊢ wp frame (wpE (defs₀ (F := F)) Variants.none c none) E (cc1_attn_kernel i arg3 harg3 arg4 harg4 arg5 harg5 arg6 harg6 arg7 harg7 arg8 harg8 arg9 harg9) K := by

  simp only [cc1_attn_kernel_eq_skeleton]; unfold cc1_attn_kernel_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := harg3.eq_unread hf3; obtain rfl := harg4.eq_unread hf4; obtain rfl := harg5.eq_unread hf5
  obtain rfl := harg6.eq_unread hf6; obtain rfl := harg7.eq_unread hf7; obtain rfl := harg8.eq_unread hf8
  obtain rfl := harg9.eq_unread hf9
  -- neither branch is taken
  sl_exec (disch := first | exact hc0 | exact hc1)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  -- each scratch buffer was stored whole once: it reads that store's payload, whose whole-buffer loads read q, k, v
  -- and the carried m, l, acc
  isplitl [H7]
  · iexists _; isplitr
    on_goal 2 => iexact H7
    ipureintro
    sl_unfold_words
    refine (attnReadLastWholeStore arg7 _ attnZeroOff2 _ _ _).trans ?_
    simp only [View.readAt_eq_ld, harg3.read_unread, harg4.read_unread, harg5.read_unread, harg7.read_unread, harg8.read_unread, harg9.read_unread,
        View.ld_unit_zero (S := S1x1024x1024) attnZeroOff3, View.ld_unit_zero (S := S1x512x1024) attnZeroOff3, View.ld_unit_zero (S := S1024x1) attnZeroOff2, View.ld_unit_zero (S := S1024x1024) attnZeroOff2, View.readCov_unit_zero (S := S1024x1) _ attnZeroOff2, View.readCov_unit_zero (S := S1024x1024) _ attnZeroOff2]
    rfl
  isplitl [H8]
  · iexists _; isplitr
    on_goal 2 => iexact H8
    ipureintro
    sl_unfold_words
    refine (attnReadLastWholeStore arg8 _ attnZeroOff2 _ _ _).trans ?_
    simp only [View.readAt_eq_ld, harg3.read_unread, harg4.read_unread, harg5.read_unread, harg7.read_unread, harg8.read_unread, harg9.read_unread,
        View.ld_unit_zero (S := S1x1024x1024) attnZeroOff3, View.ld_unit_zero (S := S1x512x1024) attnZeroOff3, View.ld_unit_zero (S := S1024x1) attnZeroOff2, View.ld_unit_zero (S := S1024x1024) attnZeroOff2, View.readCov_unit_zero (S := S1024x1) _ attnZeroOff2, View.readCov_unit_zero (S := S1024x1024) _ attnZeroOff2]
    rfl
  iexists _; isplitr
  on_goal 2 => iexact H9
  ipureintro
  sl_unfold_words
  refine (attnReadLastWholeStore arg9 _ attnZeroOff2 _ _ _).trans ?_
  simp only [View.readAt_eq_ld, harg3.read_unread, harg4.read_unread, harg5.read_unread, harg7.read_unread, harg8.read_unread, harg9.read_unread,
        View.ld_unit_zero (S := S1x1024x1024) attnZeroOff3, View.ld_unit_zero (S := S1x512x1024) attnZeroOff3, View.ld_unit_zero (S := S1024x1) attnZeroOff2, View.ld_unit_zero (S := S1024x1024) attnZeroOff2, View.readCov_unit_zero (S := S1024x1) _ attnZeroOff2, View.readCov_unit_zero (S := S1024x1024) _ attnZeroOff2]
  rfl

/-- Case C: the output branch taken, the reset branch not. -/
theorem sound_kernel1_C (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i)
    (q : Vec F S1x1024x1024 .bf16) (k v : Vec F S1x512x1024 .bf16) (s : St F) (E : Set ℕ) (K : PUnit → sProp 𝕄) :
    iprop(owns (c : Thread nD τ) arg3 fullShare q ∗ owns (c : Thread nD τ) arg4 fullShare k ∗ owns (c : Thread nD τ) arg5 fullShare v ∗ (∃ d, owns (c : Thread nD τ) arg6 fullShare d)
        ∗ owns (c : Thread nD τ) arg7 fullShare s.1 ∗ owns (c : Thread nD τ) arg8 fullShare s.2.1 ∗ owns (c : Thread nD τ) arg9 fullShare s.2.2
        ∗ (iprop(owns (c : Thread nD τ) arg3 fullShare q ∗ owns (c : Thread nD τ) arg4 fullShare k ∗ owns (c : Thread nD τ) arg5 fullShare v ∗ owns (c : Thread nD τ) arg6 fullShare (k1_pay3 (stepS q k v s).2.2 (stepS q k v s).2.1) ∗ owns (c : Thread nD τ) arg7 fullShare (stepS q k v s).1 ∗ owns (c : Thread nD τ) arg8 fullShare (stepS q k v s).2.1 ∗ owns (c : Thread nD τ) arg9 fullShare (stepS q k v s).2.2) -∗ K ⟨⟩))
      ⊢ wp frame (wpE (defs₀ (F := F)) Variants.none c none) E (cc1_attn_kernel i arg3 harg3 arg4 harg4 arg5 harg5 arg6 harg6 arg7 harg7 arg8 harg8 arg9 harg9) K := by

  simp only [cc1_attn_kernel_eq_skeleton]; unfold cc1_attn_kernel_skel
  unfold owns
  iintro ⟨⟨%f3, %hf3, H3⟩, ⟨%f4, %hf4, H4⟩, ⟨%f5, %hf5, H5⟩, ⟨%d6, %f6, -, H6⟩, ⟨%f7, %hf7, H7⟩, ⟨%f8, %hf8, H8⟩, ⟨%f9, %hf9, H9⟩, Hk⟩
  obtain rfl := harg3.eq_unread hf3; obtain rfl := harg4.eq_unread hf4; obtain rfl := harg5.eq_unread hf5
  obtain rfl := harg7.eq_unread hf7; obtain rfl := harg8.eq_unread hf8
  obtain rfl := harg9.eq_unread hf9
  -- the output branch is taken, the reset branch is not
  sl_exec (disch := first | exact hc0 | exact hc1)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  -- the output buffer was stored whole once, acc / l of the new triple: the branch's loads of acc and l come after the
  -- update's whole-buffer stores and read their payloads back
  isplitl [H6]
  · iexists _; isplitr
    on_goal 2 => iexact H6
    ipureintro
    sl_unfold_words
    refine (attnReadLastWholeStore arg6 _ attnZeroOff3 _ _ _).trans ?_
    simp only [View.readAt_eq_ld, harg3.read_unread, harg4.read_unread, harg5.read_unread, harg7.read_unread, harg8.read_unread, harg9.read_unread,
        View.ld_unit_zero (S := S1x1024x1024) attnZeroOff3, View.ld_unit_zero (S := S1x512x1024) attnZeroOff3, View.ld_unit_zero (S := S1024x1) attnZeroOff2, View.ld_unit_zero (S := S1024x1024) attnZeroOff2, View.readCov_unit_zero (S := S1024x1) _ attnZeroOff2, View.readCov_unit_zero (S := S1024x1024) _ attnZeroOff2]
    rfl
  -- each scratch buffer was stored whole once: it reads that store's payload
  isplitl [H7]
  · iexists _; isplitr
    on_goal 2 => iexact H7
    ipureintro
    sl_unfold_words
    refine (attnReadLastWholeStore arg7 _ attnZeroOff2 _ _ _).trans ?_
    simp only [View.readAt_eq_ld, harg3.read_unread, harg4.read_unread, harg5.read_unread, harg7.read_unread, harg8.read_unread, harg9.read_unread,
        View.ld_unit_zero (S := S1x1024x1024) attnZeroOff3, View.ld_unit_zero (S := S1x512x1024) attnZeroOff3, View.ld_unit_zero (S := S1024x1) attnZeroOff2, View.ld_unit_zero (S := S1024x1024) attnZeroOff2, View.readCov_unit_zero (S := S1024x1) _ attnZeroOff2, View.readCov_unit_zero (S := S1024x1024) _ attnZeroOff2]
    rfl
  isplitl [H8]
  · iexists _; isplitr
    on_goal 2 => iexact H8
    ipureintro
    sl_unfold_words
    refine (attnReadLastWholeStore arg8 _ attnZeroOff2 _ _ _).trans ?_
    simp only [View.readAt_eq_ld, harg3.read_unread, harg4.read_unread, harg5.read_unread, harg7.read_unread, harg8.read_unread, harg9.read_unread,
        View.ld_unit_zero (S := S1x1024x1024) attnZeroOff3, View.ld_unit_zero (S := S1x512x1024) attnZeroOff3, View.ld_unit_zero (S := S1024x1) attnZeroOff2, View.ld_unit_zero (S := S1024x1024) attnZeroOff2, View.readCov_unit_zero (S := S1024x1) _ attnZeroOff2, View.readCov_unit_zero (S := S1024x1024) _ attnZeroOff2]
    rfl
  iexists _; isplitr
  on_goal 2 => iexact H9
  ipureintro
  sl_unfold_words
  refine (attnReadLastWholeStore arg9 _ attnZeroOff2 _ _ _).trans ?_
  simp only [View.readAt_eq_ld, harg3.read_unread, harg4.read_unread, harg5.read_unread, harg7.read_unread, harg8.read_unread, harg9.read_unread,
        View.ld_unit_zero (S := S1x1024x1024) attnZeroOff3, View.ld_unit_zero (S := S1x512x1024) attnZeroOff3, View.ld_unit_zero (S := S1024x1) attnZeroOff2, View.ld_unit_zero (S := S1024x1024) attnZeroOff2, View.readCov_unit_zero (S := S1024x1) _ attnZeroOff2, View.readCov_unit_zero (S := S1024x1024) _ attnZeroOff2]
  rfl

end Cert.Kernel.Hand

end
-- ==== Proof.K.R1Body.lean ====
/-
  The attention body at any grid point meets the pipeline's obligation, the three scratch buffers carried in the
  invariant from point to point at the triple `stateAt`; the invariant before the first point and after the last
  is the scoped rest at anything with the generator register.
-/
import proofs.«425711_j52012053954870_3_alg».proof.Proof.Gen.Kernel.Launch
import proofs.«425711_j52012053954870_3_alg».proof.Proof.Gen.Kernel.Skeleton
import proofs.«425711_j52012053954870_3_alg».proof.Proof.Gen.Kernel.Points
import proofs.«425711_j52012053954870_3_alg».proof.Proof.K.R1Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The invariant, point by point -/

/-- The fourteen scoped buffers that are the projection call's staging, each at some contents. -/
def scopedOthers1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg8_1), ((c : Thread nD τ).loc cc0_stg8_1) ↦{fullShare} f) ∗ (∃ f : Buf (Elt F) ((c : Thread nD τ).loc cc0_stg9_0), ((c : Thread nD τ).loc cc0_stg9_0) ↦{fullShare} f) ∗ (∃ f : Buf (Elt F) ((c : Thread nD τ).loc cc0_stg9_1), ((c : Thread nD τ).loc cc0_stg9_1) ↦{fullShare} f))

/-- Two assertions that entail each other are equal. -/
private theorem eq_of_entails {P Q : sProp 𝕄} (h1 : P ⊢ Q) (h2 : Q ⊢ P) : P = Q := Entails.antisymm h1 h2

/-- The chain of the fourteen before a tail is the fourteen, bundled, and the tail (associativity of ∗). -/
theorem scopedOthers1_chain (c : Dev nD) (T : sProp 𝕄) :
    iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg8_1), ((c : Thread nD τ).loc cc0_stg8_1) ↦{fullShare} f) ∗ (∃ f : Buf (Elt F) ((c : Thread nD τ).loc cc0_stg9_0), ((c : Thread nD τ).loc cc0_stg9_0) ↦{fullShare} f) ∗ (∃ f : Buf (Elt F) ((c : Thread nD τ).loc cc0_stg9_1), ((c : Thread nD τ).loc cc0_stg9_1) ↦{fullShare} f) ∗ T) = iprop(scopedOthers1 (F := F) c ∗ T) := by
  unfold scopedOthers1
  refine eq_of_entails ?_ ?_
  · iintro ⟨H1, H2, H3, H4, H5, H6, H7, H8, H9, H10, H11, H12, H13, H14, HT⟩
    isplitr [HT]
    · isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      iexact H14
    iexact HT
  · iintro ⟨⟨H1, H2, H3, H4, H5, H6, H7, H8, H9, H10, H11, H12, H13, H14⟩, HT⟩
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact HT

/-- The invariant with the three scratch buffers at a triple `s`. -/
def PhiAt (c : Dev nD) (s : St F) : sProp 𝕄 :=
  iprop(iprop(scopedOthers1 c ∗ owns (c : Thread nD τ) scM0 fullShare s.1 ∗ owns (c : Thread nD τ) scM1 fullShare s.2.1
      ∗ owns (c : Thread nD τ) scM2 fullShare s.2.2) ∗ (∃ r, prngReg c r))

theorem PhiS_zero (c : Dev nD) (n : ℕ) (h : n ≤ cfg1.N) (hz : n = 0) : PhiS V c n h = Pipeline.ΦA spec1 c := by
  subst hz; rfl

/-- After point `n` (before point `n + 1`): the scratch buffers at that point's triple. -/
theorem PhiS_succ (c : Dev nD) (n : ℕ) (hn : n < cfg1.N) : PhiS V c (n + 1) hn = PhiAt c (stateAt V c n hn) := by
  unfold PhiAt; rw [← scopedOthers1_chain]; rfl

/-- Before a point that is not the first: the scratch buffers at what the point before left. -/
theorem PhiS_pos (c : Dev nD) (n : ℕ) (h : n ≤ cfg1.N) (hz : n ≠ 0) :
    PhiS V c n h = PhiAt c (stateAt V c (n - 1) (by omega)) := by
  cases n with
  | zero => exact absurd rfl hz
  | succ n => exact PhiS_succ V c n h

/-- The class's invariant with the three scratch buffers as memrefs owned at some contents. -/
theorem PhiA1_eq (c : Dev nD) :
    (Pipeline.ΦA spec1 c : sProp 𝕄)
      = iprop(iprop(scopedOthers1 c ∗ (∃ d, owns (c : Thread nD τ) scM0 fullShare d) ∗ (∃ d, owns (c : Thread nD τ) scM1 fullShare d)
          ∗ (∃ d, owns (c : Thread nD τ) scM2 fullShare d)) ∗ (∃ r, prngReg c r)) := by
  unfold Pipeline.ΦA; rw [scopedRest1_eq, scopedOthers1_chain]; simp only [scM0, scM1, scM2, owns_whole]; try rfl

/-- A triple held is a triple at some contents. -/
theorem PhiAt_forget (c : Dev nD) (s : St F) : PhiAt c s ⊢ Pipeline.ΦA spec1 c := by
  rw [PhiA1_eq]; unfold PhiAt
  iintro ⟨⟨HR, HS0, HS1, HS2⟩, Hg⟩
  isplitr [Hg]
  · isplitl [HR]; · iexact HR
    isplitl [HS0]; · iexists _; iexact HS0
    isplitl [HS1]; · iexists _; iexact HS1
    iexists _; iexact HS2
  iexact Hg

/-- Before the first point the invariant is the class's. -/
theorem Phi1_zero (c : Dev nD) : (dat1 V c).Φ 0 = Pipeline.ΦA spec1 c := by
  rw [show (dat1 V c).Φ 0 = PhiS V c 0 (Nat.zero_le _) from rfl, PhiS_zero V c 0 _ rfl]

/-- After the last point the invariant gives the class's back: the scratch contents are forgotten. -/
theorem Phi1_last (c : Dev nD) : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl,
    PhiS_pos V c _ _ (by rw [Fin.val_last]; have : cfg1.N = 32 := N_1; omega)]
  exact PhiAt_forget c _

/-! ## What the staging buffers hold when the body runs -/

/-- Each input's current staging buffer holds its block at every point, fetched there or not: unfetched, the
    block index has not moved. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)

/-- The invariant at a point's start, restated at the point's position. -/
theorem PhiS_castSucc (c : Dev nD) (t : Fin cfg1.N) :
    (dat1 V c).Φ t.castSucc = PhiS V c t.val (Nat.le_of_lt t.isLt) := by
  dsimp only [dat1]; simp only [Fin.coe_castSucc]

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point. The three inputs' buffers hold their blocks. At a point with key tile 0 the reset case
    runs from the scratch buffers at anything (the class's invariant at the first point, the previous triple
    forgotten later) and leaves one step from the reset values; elsewhere the carry cases run from the triple the
    point before left and leave one step from it; the output buffer is handed back as found except at key tile 3,
    where it ends at acc / l of the new triple. The core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rewrite [show (dat1 V c).owesAt () t.succ = (dat1 V c).owesAt () t.castSucc from rfl]
  rewrite [show (dat1 V c).Φ t.succ = PhiS V c (t.val + 1) t.isLt from rfl, PhiS_succ, PhiS_castSucc]
  rewrite [show (dat1 V c).leavesExact 0 t = owns (c : Thread nD τ) (ms1_0 t) fullShare ((dat1 V c).after 0 t) from by
    unfold Dat.leavesExact; rw [liveAt1_0 t], after1_0]
  rewrite [show (dat1 V c).leavesExact 1 t = owns (c : Thread nD τ) (ms1_1 t) fullShare ((dat1 V c).after 1 t) from by
    unfold Dat.leavesExact; rw [liveAt1_1 t], after1_1]
  rewrite [show (dat1 V c).leavesExact 2 t = owns (c : Thread nD τ) (ms1_2 t) fullShare ((dat1 V c).after 2 t) from by
    unfold Dat.leavesExact; rw [liveAt1_2 t], after1_2]
  have hN : t.val < 32 := lt_of_lt_of_eq t.isLt (show cfg1.N = 32 from N_1)
  by_cases h0 : t.val % 4 = 0
  · have hc0 : cond1_0 (grid1.coords t) := (hcond1_0 t).mpr h0
    have hc1 : ¬cond1_1 (grid1.coords t) := fun h => by have := (hcond1_1 t).mp h; omega
    rewrite [Dat.leavesExact_idle (dat1 V c) 3 t (idleAt1_3 t hc1) (noFlush1_3 t hc1), stateAt_reset V c t h0]
    by_cases hz : t.val = 0
    · rewrite [PhiS_zero V c _ _ hz, PhiA1_eq]
      unfold PhiAt
      iintro ⟨⟨⟨HR, HS0, HS1, HS2⟩, Hg⟩, Ho, ⟨%d0, H0⟩, ⟨%d1, H1⟩, ⟨%d2, H2⟩, ⟨%d3, H3⟩⟩
      iapply (sound_kernel1_A c (grid1.coords t) (ms1_0 t) (hs1_0 t) (ms1_1 t) (hs1_1 t) (ms1_2 t) (hs1_2 t) (ms1_3 t) (hs1_3 t) scM0 (Memref.isWhole_whole _) scM1 (Memref.isWhole_whole _) scM2 (Memref.isWhole_whole _) hc0 hc1 (qb1 V c t) (kb1 V c t) (vb1 V c t) ((dat1 V c).before 3 t d3) Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, HS0, HS1, HS2⟩
      isplitl [HR HS0 HS1 HS2 Hg]
      · isplitr [Hg]
        · isplitl [HR]; · iexact HR
          isplitl [HS0]; · iexact HS0
          isplitl [HS1]; · iexact HS1
          iexact HS2
        iexact Hg
      isplitl [Ho]; · iexact Ho
      isplitl [H0]; · iexact H0
      isplitl [H1]; · iexact H1
      isplitl [H2]; · iexact H2
      iexists _; iexact H3
    · rewrite [PhiS_pos V c _ _ hz]
      unfold PhiAt
      iintro ⟨⟨⟨HR, HS0, HS1, HS2⟩, Hg⟩, Ho, ⟨%d0, H0⟩, ⟨%d1, H1⟩, ⟨%d2, H2⟩, ⟨%d3, H3⟩⟩
      iapply (sound_kernel1_A c (grid1.coords t) (ms1_0 t) (hs1_0 t) (ms1_1 t) (hs1_1 t) (ms1_2 t) (hs1_2 t) (ms1_3 t) (hs1_3 t) scM0 (Memref.isWhole_whole _) scM1 (Memref.isWhole_whole _) scM2 (Memref.isWhole_whole _) hc0 hc1 (qb1 V c t) (kb1 V c t) (vb1 V c t) ((dat1 V c).before 3 t d3) Set.univ _)
      isplitl [H0]; · iexact H0
      isplitl [H1]; · iexact H1
      isplitl [H2]; · iexact H2
      isplitl [H3]; · iexact H3
      isplitl [HS0]; · iexists _; iexact HS0
      isplitl [HS1]; · iexists _; iexact HS1
      isplitl [HS2]; · iexists _; iexact HS2
      iintro ⟨H0, H1, H2, H3, HS0, HS1, HS2⟩
      isplitl [HR HS0 HS1 HS2 Hg]
      · isplitr [Hg]
        · isplitl [HR]; · iexact HR
          isplitl [HS0]; · iexact HS0
          isplitl [HS1]; · iexact HS1
          iexact HS2
        iexact Hg
      isplitl [Ho]; · iexact Ho
      isplitl [H0]; · iexact H0
      isplitl [H1]; · iexact H1
      isplitl [H2]; · iexact H2
      iexists _; iexact H3
  · have hc0 : ¬cond1_0 (grid1.coords t) := fun h => h0 ((hcond1_0 t).mp h)
    have hz : t.val ≠ 0 := fun h => h0 (by rw [h])
    by_cases h1 : t.val % 4 = 3
    · have hc1 : cond1_1 (grid1.coords t) := (hcond1_1 t).mpr h1
      rewrite [show (dat1 V c).leavesExact 3 t = owns (c : Thread nD τ) (ms1_3 t) fullShare ((dat1 V c).after 3 t) from by
        unfold Dat.leavesExact; rw [liveAt1_3 t hc1], after1_3]
      unfold outAt
      rewrite [stateAt_carry V c t h0, PhiS_pos V c _ _ hz]
      unfold PhiAt
      iintro ⟨⟨⟨HR, HS0, HS1, HS2⟩, Hg⟩, Ho, ⟨%d0, H0⟩, ⟨%d1, H1⟩, ⟨%d2, H2⟩, ⟨%d3, H3⟩⟩
      iapply (sound_kernel1_C c (grid1.coords t) (ms1_0 t) (hs1_0 t) (ms1_1 t) (hs1_1 t) (ms1_2 t) (hs1_2 t) (ms1_3 t) (hs1_3 t) scM0 (Memref.isWhole_whole _) scM1 (Memref.isWhole_whole _) scM2 (Memref.isWhole_whole _) hc0 hc1 (qb1 V c t) (kb1 V c t) (vb1 V c t) (stateAt V c (t.val - 1) (Nat.lt_of_le_of_lt (Nat.sub_le _ _) t.isLt)) Set.univ _)
      isplitl [H0]; · iexact H0
      isplitl [H1]; · iexact H1
      isplitl [H2]; · iexact H2
      isplitl [H3]; · iexists _; iexact H3
      isplitl [HS0]; · iexact HS0
      isplitl [HS1]; · iexact HS1
      isplitl [HS2]; · iexact HS2
      iintro ⟨H0, H1, H2, H3, HS0, HS1, HS2⟩
      isplitl [HR HS0 HS1 HS2 Hg]
      · isplitr [Hg]
        · isplitl [HR]; · iexact HR
          isplitl [HS0]; · iexact HS0
          isplitl [HS1]; · iexact HS1
          iexact HS2
        iexact Hg
      isplitl [Ho]; · iexact Ho
      isplitl [H0]; · iexact H0
      isplitl [H1]; · iexact H1
      isplitl [H2]; · iexact H2
      iexact H3
    · have hc1 : ¬cond1_1 (grid1.coords t) := fun h => h1 ((hcond1_1 t).mp h)
      rewrite [Dat.leavesExact_idle (dat1 V c) 3 t (idleAt1_3 t hc1) (noFlush1_3 t hc1), stateAt_carry V c t h0,
        PhiS_pos V c _ _ hz]
      unfold PhiAt
      iintro ⟨⟨⟨HR, HS0, HS1, HS2⟩, Hg⟩, Ho, ⟨%d0, H0⟩, ⟨%d1, H1⟩, ⟨%d2, H2⟩, ⟨%d3, H3⟩⟩
      iapply (sound_kernel1_B c (grid1.coords t) (ms1_0 t) (hs1_0 t) (ms1_1 t) (hs1_1 t) (ms1_2 t) (hs1_2 t) (ms1_3 t) (hs1_3 t) scM0 (Memref.isWhole_whole _) scM1 (Memref.isWhole_whole _) scM2 (Memref.isWhole_whole _) hc0 hc1 (qb1 V c t) (kb1 V c t) (vb1 V c t) ((dat1 V c).before 3 t d3) (stateAt V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, HS0, HS1, HS2⟩
      isplitl [HR HS0 HS1 HS2 Hg]
      · isplitr [Hg]
        · isplitl [HR]; · iexact HR
          isplitl [HS0]; · iexact HS0
          isplitl [HS1]; · iexact HS1
          iexact HS2
        iexact Hg
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Run.lean ====
/-
  The whole program run: @main as four segments (host lines, the projection call, three reshapes, the attention
  call) over the boundary contents W0 … W4; every weakly fair execution terminates without a fault, the result
  array ends at what the attention call's write-backs leave and every argument array as launched.
-/
import proofs.«425711_j52012053954870_3_alg».proof.Proof.Gen.Kernel.Launch
import proofs.«425711_j52012053954870_3_alg».proof.Proof.Gen.Kernel.Skeleton
import proofs.«425711_j52012053954870_3_alg».proof.Proof.Gen.Kernel.Points
import proofs.«425711_j52012053954870_3_alg».proof.Proof.K.Bounds
import proofs.«425711_j52012053954870_3_alg».proof.Proof.K.R0Body
import proofs.«425711_j52012053954870_3_alg».proof.Proof.K.R1Body
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data of both calls and what every core carries between segments -/

/-- Neither call has a prefetched table, so the admissible table contents are the trivial ones. -/
abbrev admH : (p : Fin 2) → (pcfgs (F := F) p).Adm := fun p => (cfgs p).toPCfg_adm

/-- The proof data of the two calls: the projection call's at the contents after the first host lines, the
    attention call's at the contents after the three reshapes. -/
def pdatsH : (p : Fin 2) → (c : Dev nD) → Dat τ (Elt F) Unit ℕ (UR sig nD τ) ℕ (Pipeline.pin (pcfgs (F := F)) admH p) c
  | ⟨0, _⟩ => fun c => dat0 (Vr1 m) c
  | ⟨1, _⟩ => fun c => dat1 (Vr3 m) c

abbrev 𝒱H : Variants := Variants.none
/-- No core waits on another: no pair carries a level. -/
abbrev LH : GSem nD τ sig → Finset Unit := fun _ => ∅
abbrev lvH : GSem nD τ sig → Unit → ℕ := fun _ _ => 0

/-- Beside the buffers a core carries its generator register at some state and the record that it owes nothing. -/
abbrev RH (c : Dev nD) : sProp 𝕄 :=
  iprop((∃ r, prngReg c r) ∗ ∃ W, owes (c : Thread nD τ) (0 : CellTallies nD τ sig Unit) W)

/-- A stretch of host lines as a segment: from every unscoped buffer at the contents W (and the carried rest) to
    every unscoped buffer at the contents the lines leave. -/
abbrev hsegH (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱H LH lvH :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RH

/-- The seven host lines before the projection call allocate nothing. -/
theorem hostOps0_freshH : (hostOps0 : List (HloOp τ sig (Elt F))).Forall fun op => op.fresh = ∅ := by
  simp only [List.Forall]; repeat' constructor
/-- The three reshapes between the calls allocate nothing. -/
theorem hostOps1_freshH : (hostOps1 : List (HloOp τ sig (Elt F))).Forall fun op => op.fresh = ∅ := by
  simp only [List.Forall]; repeat' constructor

/-- An unscoped reference of the core is one of those the carried state holds. -/
theorem mem_ucH (b : Ref sig .tc) (h : ¬ (Proc.devRef .tc b : DevRef τ sig).isScoped) :
    Proc.devRef .tc b ∈ Pipeline.ucRefs τ sig :=
  Finset.mem_filter.mpr ⟨StableHlo.devRef_mem_tcRefs b, h⟩

/-- The state after the attention call, without the debt record: every unscoped buffer at the last contents and
    the generator register at some state. -/
abbrev TnH (c : Dev nD) : sProp 𝕄 :=
  iprop(StableHlo.held (c : Thread nD τ) (Pipeline.ucRefs τ sig) (W4 m c) ∗ ∃ r, prngReg c r)

/-! ## The two calls as segments -/

set_option backward.isDefEq.respectTransparency.types false in
/-- The projection call: entered with every unscoped buffer at W1, left with them at W2. On entry the ten windows'
    arrays are split off the unscoped buffers and the others bypass the call; the generator register goes into the
    invariant and comes back; on exit the arrays, at what the write-backs left, rejoin the others. -/
def reg0H : Pipeline.RegionSeg (pcfgs (F := F)) admH (pdatsH m) () defs₀ 𝒱H LH lvH 0 where
  win := launch0.win.to₀
  block_pos := launch0.block_pos
  stage_whole := launch0.stage_whole
  K := PEmpty
  osem k := k.elim
  ho := Pipeline.OwnSemFacts.none _
  hbody c := (body_obligation0 (Vr1 m) c).loose
  hwaits := Pipeline.hwaits_of_owed_zero _ _ _ _ LH lvH 0 fun _ _ => rfl
  pre c := iprop(StableHlo.held (c : Thread nD τ) (Pipeline.ucRefs τ sig) (W1 m c) ∗ RH c)
  post c := iprop(StableHlo.held (c : Thread nD τ) (Pipeline.ucRefs τ sig) (W2 m c) ∗ RH c)
  X c := iprop(∃ r, prngReg c r)
  Y c := iprop(∃ r, prngReg c r)
  Z c := Pipeline.unscopedRest (Ix := Unit) (Name := ℕ) (U := UR sig nD τ) (Lvl := ℕ) spec0 c (Vr1 m c)
  hentry c := by
    rw [Pipeline.ownSems0_none]
    have hsplit := Pipeline.arrays_of_unscopedBufs (p := 0) (pcfgs (F := F)) admH (pdatsH m) launch0.win launch0.arr_whole c
      ((pdatsH m 0 c).share_full fun _ => rfl) (Vr1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdatsH m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdatsH m) ((pdatsH m 0 c).share_full fun _ => rfl)
      (Vr1 m c) (Vr2 m c) ((pdatsH m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention call: entered with every unscoped buffer at W3, left with them at W4. Its invariant is not
    constant: before the first point it is the scoped rest at anything with the generator register (Phi1_zero),
    between points it also pins the three scratch buffers, and after the last point it gives the scoped rest at
    anything back (Phi1_last), the scratch contents forgotten. -/
def reg1H : Pipeline.RegionSeg (pcfgs (F := F)) admH (pdatsH m) () defs₀ 𝒱H LH lvH 1 where
  win := launch1.win.to₀
  block_pos := launch1.block_pos
  stage_whole := launch1.stage_whole
  K := PEmpty
  osem k := k.elim
  ho := Pipeline.OwnSemFacts.none _
  hbody c := (body_obligation1 (Vr3 m) c).loose
  hwaits := Pipeline.hwaits_of_owed_zero _ _ _ _ LH lvH 1 fun _ _ => rfl
  pre c := iprop(StableHlo.held (c : Thread nD τ) (Pipeline.ucRefs τ sig) (W3 m c) ∗ RH c)
  post c := iprop(TnH m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Vr3 m c)
  hentry c := by
    rw [Pipeline.ownSems0_none]
    have hsplit := Pipeline.arrays_of_unscopedBufs (p := 1) (pcfgs (F := F)) admH (pdatsH m) launch1.win launch1.arr_whole c
      ((pdatsH m 1 c).share_full fun _ => rfl) (Vr3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m 1 c).Φ 0 = Pipeline.ΦA spec1 c from Phi1_zero (Vr3 m) c]; unfold Pipeline.ΦA
    iintro ⟨Hp, -, Hr⟩
    isplitl [Hr]; · iexact Hr
    iexact Hp
  hout c := by
    rw [Pipeline.ownSems0_none]
    refine (show (pdatsH m 1 c).Φ (Fin.last _) ⊢ Pipeline.ΦA spec1 c from Phi1_last (Vr3 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admH (Ix := Unit) (Name := ℕ) (U := UR sig nD τ) (Lvl := ℕ)
      launch1.win launch1.arr_whole c (pdatsH m) ((pdatsH m 1 c).share_full fun _ => rfl)
      (Vr3 m c) (Vr4 m c) ((pdatsH m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as its four segments, and the launch -/

/-- @main in order: the host lines from the launch contents, the projection call, the three reshapes from the
    contents it leaves, the attention call. -/
abbrev segsH : List (Pipeline.Seg (pcfgs (F := F)) admH (pdatsH m) () defs₀ 𝒱H LH lvH) :=
  [ .host (hsegH hostOps0 hostOps0_sub hostOps0_freshH (W0 m)),
    .region (reg0H m),
    .host (hsegH hostOps1 hostOps1_sub hostOps1_freshH (W2 m)),
    .region (reg1H m) ]

/-- @main is the run of those four segments. -/
theorem main_runH (c : Dev nD) : main (F := F) c = Pipeline.Seg.run (segsH m) := (main_chain c).trans (by chain_rfl)

set_option backward.isDefEq.respectTransparency.types false in
/-- The run, with the result array and the arguments read off the last boundary's contents. -/
theorem run_val : θ_run defs (onTc (τ := τ) (main (F := F))) ⟨m, fun _ => 0, ρ⟩ (fun r => ∀ c : Dev nD,
      r.2.mem ((c.tc : Thread nD τ).loc main_v11) = (dat1 (Vr3 m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) admH (pdatsH m) () cellOf_inj emb₁ defs₀ 𝒱H LH lvH m ρ main (segsH m)
    (fun c Q => by rw [main_runH m c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ RH c)) (Tₙ := TnH m)
    (hch := ⟨fun _ => .rfl, fun _ => .rfl, fun _ => .rfl, fun _ => .rfl, fun _ => .rfl⟩)
    (hinit := by
      refine Pipeline.initEach LH lvH fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c =>
      ⟨(h c _ (mem_ucH main_v11 (by decide))).trans (W4_main_v11 m c),
       (h c _ (mem_ucH main_arg0 (by decide))).trans (W4_main_arg0 m c),
       (h c _ (mem_ucH main_arg1 (by decide))).trans (W4_main_arg1 m c),
       (h c _ (mem_ucH main_arg2 (by decide))).trans (W4_main_arg2 m c),
       (h c _ (mem_ucH main_arg3 (by decide))).trans (W4_main_arg3 m c),
       (h c _ (mem_ucH main_arg4 (by decide))).trans (W4_main_arg4 m c),
       (h c _ (mem_ucH main_arg5 (by decide))).trans (W4_main_arg5 m c),
       (h c _ (mem_ucH main_arg6 (by decide))).trans (W4_main_arg6 m c)⟩)

end Cert.Kernel.Hand

end
-- ==== Proof.KI.R0Defs.lean ====
/-
  The projection call (first pallas_call): a grid of 16 points, point t taking rows 512·t … 512·t+511 of the
  flattened input. Its body loads the row block x, the three weight matrices and the three bias rows, and stores
  three blocks: x·Wq + bq, x·Wk + bk, x·Wv + bv (each narrowed to bf16, the identity on ideal values).
  Here: each window's block at a point, what each of the three stores leaves in its output buffer as a function of
  the loaded blocks, and the pipeline's proof data over them, at ANY contents `V` of the buffers at the call's entry.
-/
import proofs.«425711_j52012053954870_3_alg».proof.Proof.Gen.KernelIdeal.Launch
import proofs.«425711_j52012053954870_3_alg».proof.Proof.Gen.KernelIdeal.Skeleton
import proofs.«425711_j52012053954870_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole-buffer rectangles the body loads and stores through. -/
abbrev rX0 : Rect S512x1024 := Rect.unit (s := S512x1024) ![0, 0] S512x1024.size inb_S512x1024_S512x1024_0_0
abbrev rW0 : Rect S1024x1024 := Rect.unit (s := S1024x1024) ![0, 0] S1024x1024.size inb_S1024x1024_S1024x1024_0_0
abbrev rB0 : Rect S1x1024 := Rect.unit (s := S1x1024) ![0, 0] S1x1024.size inb_S1x1024_S1x1024_0_0

/-- The Q block: the one store into window 7's buffer, over the loaded row block, Wq and bq. -/
def out0_7 (x : Vec F S512x1024 .f32) (w : Vec F S1024x1024 .bf16) (b : Vec F S1x1024 .f32) : Vec F S512x1024 .bf16 :=
  View.canon [⟨rX0, k0_pay2 (View.ld x rX0) (View.ld w rW0) (View.ld b rB0)⟩]
/-- The K block: the one store into window 8's buffer, over the loaded row block, Wk and bk. -/
def out0_8 (x : Vec F S512x1024 .f32) (w : Vec F S1024x1024 .bf16) (b : Vec F S1x1024 .f32) : Vec F S512x1024 .bf16 :=
  View.canon [⟨rX0, k0_pay3 (View.ld x rX0) (View.ld w rW0) (View.ld b rB0)⟩]
/-- The V block: the one store into window 9's buffer, over the loaded row block, Wv and bv. -/
def out0_9 (x : Vec F S512x1024 .f32) (w : Vec F S1024x1024 .bf16) (b : Vec F S1x1024 .f32) : Vec F S512x1024 .bf16 :=
  View.canon [⟨rX0, k0_pay4 (View.ld x rX0) (View.ld w rW0) (View.ld b rB0)⟩]

/-- Each store covers its buffer. -/
theorem cover0 (p : Vec F S512x1024 .bf16) (y : S512x1024.Idx) :
    ∃ pc ∈ ([⟨rX0, p⟩] : List (View.Piece (Elt F) S512x1024 .bf16)), y ∈ pc.1.set :=
  View.cover_of_tiled [⟨rX0, p⟩] S512x1024.size (by rfl) y

/-- The input blocks at a point under their literal types. -/
abbrev xb0 (c : Dev nD) (t : Fin cfg0.N) : Vec F S512x1024 .f32 := iblk0 V c 0 t
abbrev wq0 (c : Dev nD) (t : Fin cfg0.N) : Vec F S1024x1024 .bf16 := iblk0 V c 1 t
abbrev bq0 (c : Dev nD) (t : Fin cfg0.N) : Vec F S1x1024 .f32 := iblk0 V c 2 t
abbrev wk0 (c : Dev nD) (t : Fin cfg0.N) : Vec F S1024x1024 .bf16 := iblk0 V c 3 t
abbrev bk0 (c : Dev nD) (t : Fin cfg0.N) : Vec F S1x1024 .f32 := iblk0 V c 4 t
abbrev wv0 (c : Dev nD) (t : Fin cfg0.N) : Vec F S1024x1024 .bf16 := iblk0 V c 5 t
abbrev bv0 (c : Dev nD) (t : Fin cfg0.N) : Vec F S1x1024 .f32 := iblk0 V c 6 t

/-- The proof data of the projection call on core `c`: the arrays as the call finds them; after the body at point
    `t` each input's buffer at its block and each output's at its store over the input blocks; the invariant the
    scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (xb0 V c t) (wq0 V c t) (bq0 V c t)
    | ⟨8, _⟩ => out0_8 (xb0 V c t) (wk0 V c t) (bk0 V c t)
    | ⟨9, _⟩ => out0_9 (xb0 V c t) (wv0 V c t) (bv0 V c t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = out0_7 (xb0 V c t) (wq0 V c t) (bq0 V c t) := by dsimp only [dat0]
theorem after0_8 (c : Dev nD) (t : Fin cfg0.N) : (dat0 V c).after 8 t = out0_8 (xb0 V c t) (wk0 V c t) (bk0 V c t) := by dsimp only [dat0]
theorem after0_9 (c : Dev nD) (t : Fin cfg0.N) : (dat0 V c).after 9 t = out0_9 (xb0 V c t) (wv0 V c t) (bv0 V c t) := by dsimp only [dat0]

end Cert.KernelIdeal.Hand

end
-- ==== Proof.KI.R1Defs.lean ====
/-
  The attention call (second pallas_call): a grid of 4·2·4 = 32 points (batch b, query tile qi of 1024 rows, key
  tile ki of 512 rows; point t = 8·b + 4·qi + ki). At a point the body loads the query tile, one key tile and one
  value tile and updates three scratch buffers it carries from point to point: the running row maximum m, the
  running normaliser l and the running weighted sum acc (online softmax). At ki = 0 it first resets them to
  (-inf, 0, 0); at ki = 3 it also stores acc / l into the output tile.
  Here: the blocks at a point, ONE update step as a function of the three loaded blocks and the carried triple
  (spelled through the generated payload names), the triple after every point by recursion on the point, the
  output tile, the invariant that holds the three scratch buffers at that triple, and the pipeline's proof data.
  All at ANY contents `V` of the buffers at the call's entry, and at any float instance.
-/
import proofs.«425711_j52012053954870_3_alg».proof.Proof.Gen.KernelIdeal.Launch
import proofs.«425711_j52012053954870_3_alg».proof.Proof.Gen.KernelIdeal.Skeleton
import proofs.«425711_j52012053954870_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The query tile, the key tile and the value tile at a point, under their literal types. -/
abbrev qb1 (c : Dev nD) (t : Fin cfg1.N) : Vec F S1x1024x1024 .bf16 := iblk1 V c 0 t
abbrev kb1 (c : Dev nD) (t : Fin cfg1.N) : Vec F S1x512x1024 .bf16 := iblk1 V c 1 t
abbrev vb1 (c : Dev nD) (t : Fin cfg1.N) : Vec F S1x512x1024 .bf16 := iblk1 V c 2 t

/-- The carried triple: row maxima m [1024,1], normalisers l [1024,1], weighted sums acc [1024,1024]. -/
abbrev St (F : FTy → Type) [FloatOps F] : Type := Vec F S1024x1 .f32 × Vec F S1024x1 .f32 × Vec F S1024x1024 .f32

/-- What the reset at ki = 0 stores: (-inf, 0, 0). -/
def initS : St F := (k1_pay4, k1_pay5, k1_pay6)

/-- One update: from the query tile `q`, key tile `k`, value tile `v` and the carried (m, l, acc), the new triple
    m' = max m (rowmax s), l' = exp(m - m')·l + rowsum exp(s - m'), acc' = exp(m - m')·acc + exp(s - m')·v,
    with s = (q·kᵀ)/32 — exactly the three stores' payloads. -/
def stepS (q : Vec F S1x1024x1024 .bf16) (k v : Vec F S1x512x1024 .bf16) (s : St F) : St F :=
  (k1_pay2 (k1_pay9 q k s.1), k1_pay12 q k s.1 s.1 s.2.1, k1_pay1 (k1_pay7 v) (k1_pay10 q k s.1 s.1) (k1_pay11 q k s.1) s.2.2)

/-- The carried triple after the body at position `n`: one step from the reset values where ki = 0 (n ≡ 0 mod 4),
    else one step from what the point before left. -/
def stateAt (c : Dev nD) : (n : ℕ) → n < cfg1.N → St F
  | 0, hn => stepS (qb1 V c ⟨0, hn⟩) (kb1 V c ⟨0, hn⟩) (vb1 V c ⟨0, hn⟩) initS
  | n + 1, hn => stepS (qb1 V c ⟨n + 1, hn⟩) (kb1 V c ⟨n + 1, hn⟩) (vb1 V c ⟨n + 1, hn⟩)
      (if (n + 1) % 4 = 0 then initS else stateAt c n (Nat.lt_of_succ_lt hn))

theorem stateAt_reset (c : Dev nD) (t : Fin cfg1.N) (h : t.val % 4 = 0) :
    stateAt V c t.val t.isLt = stepS (qb1 V c t) (kb1 V c t) (vb1 V c t) initS := by
  obtain ⟨n, hn⟩ := t
  cases n with
  | zero => rfl
  | succ n => exact congrArg (stepS _ _ _) (if_pos h)

theorem stateAt_carry (c : Dev nD) (t : Fin cfg1.N) (h : ¬ t.val % 4 = 0) :
    stateAt V c t.val t.isLt = stepS (qb1 V c t) (kb1 V c t) (vb1 V c t)
      (stateAt V c (t.val - 1) (Nat.lt_of_le_of_lt (Nat.sub_le _ _) t.isLt)) := by
  obtain ⟨n, hn⟩ := t
  cases n with
  | zero => exact absurd (Nat.zero_mod _) h
  | succ n => exact congrArg (stepS _ _ _) (if_neg h)

/-- The output tile the body stores at ki = 3: acc / l of the triple after that point. -/
def outAt (c : Dev nD) (t : Fin cfg1.N) : Vec F S1x1024x1024 .f32 :=
  k1_pay3 (stateAt V c t.val t.isLt).2.2 (stateAt V c t.val t.isLt).2.1

/-- The three scratch buffers as whole memrefs. -/
abbrev scM0 : Memref sig .tc .vmem S1024x1 .f32 := Memref.whole cc1_scratch0
abbrev scM1 : Memref sig .tc .vmem S1024x1 .f32 := Memref.whole cc1_scratch1
abbrev scM2 : Memref sig .tc .vmem S1024x1024 .f32 := Memref.whole cc1_scratch2

/-- The invariant before position `n`: before the first point the scoped rest at anything and the generator
    register; afterwards the same with the three scratch buffers at the triple the point before left. -/
def PhiS (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg8_1), ((c : Thread nD τ).loc cc0_stg8_1) ↦{fullShare} f) ∗ (∃ f : Buf (Elt F) ((c : Thread nD τ).loc cc0_stg9_0), ((c : Thread nD τ).loc cc0_stg9_0) ↦{fullShare} f) ∗ (∃ f : Buf (Elt F) ((c : Thread nD τ).loc cc0_stg9_1), ((c : Thread nD τ).loc cc0_stg9_1) ↦{fullShare} f)
      ∗ owns (c : Thread nD τ) scM0 fullShare (stateAt V c n hn).1
      ∗ owns (c : Thread nD τ) scM1 fullShare (stateAt V c n hn).2.1
      ∗ owns (c : Thread nD τ) scM2 fullShare (stateAt V c n hn).2.2) ∗ (∃ r, prngReg c r))

/-- The proof data of the attention call on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => outAt V c t
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = outAt V c t := by dsimp only [dat1]

end Cert.KernelIdeal.Hand

end
-- ==== Proof.KI.Bounds.lean ====
/-
  The buffers' contents at the four boundaries of @main: at launch, after the host lines before the projection
  call (the reshape of x, the three weight conversions, the three bias reshapes), after the projection call (its
  three result arrays at what its write-backs leave, everything else as entered), after the three reshapes of
  Q, K, V, and after the attention call (its result array at what its write-backs leave). Each argument array is
  read back through all four to its launch contents: no host line and no call writes one.
-/
import proofs.«425711_j52012053954870_3_alg».proof.Proof.Gen.KernelIdeal.Launch
import proofs.«425711_j52012053954870_3_alg».proof.Proof.Gen.KernelIdeal.Skeleton
import proofs.«425711_j52012053954870_3_alg».proof.Proof.Gen.KernelIdeal.Points
import proofs.«425711_j52012053954870_3_alg».proof.Proof.KI.R0Defs
import proofs.«425711_j52012053954870_3_alg».proof.Proof.KI.R1Defs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-- Core `c`'s buffers at launch. -/
abbrev W0 : Dev nD → Valuation τ sig (Elt F) := fun c b => m (c, b)
/-- After the host lines before the projection call. -/
abbrev W1 : Dev nD → Valuation τ sig (Elt F) := fun c => StableHlo.after hostOps0 (W0 m c)
/-- The same read at the TensorCore's references. -/
abbrev Vr1 : (c : Dev nD) → (b : Ref sig .tc) → Buf (Elt F) ((c : Thread nD τ).loc b) := fun c b => W1 m c b
/-- After the projection call: its arrays at what the pipeline leaves, every other buffer as entered. -/
def W2 (c : Dev nD) : Valuation τ sig (Elt F) :=
  Pipeline.withArrays spec0 c (W1 m c) fun w => (dat0 (Vr1 m) c).arrAt w cfg0.N
theorem W2_arr (c : Dev nD) (w : Fin cfg0.W) :
    W2 m c (Proc.devRef .tc (Pipeline.arrRef spec0 w)) = (dat0 (Vr1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev Vr2 : (c : Dev nD) → (b : Ref sig .tc) → Buf (Elt F) ((c : Thread nD τ).loc b) := fun c b => W2 m c b
theorem hF0 (c : Dev nD) (w : Fin cfg0.W) : (dat0 (Vr1 m) c).arrAt w cfg0.N = Vr2 m c (Pipeline.arrRef spec0 w) :=
  (W2_arr m c w).symm
theorem hrest0 (c : Dev nD) : ∀ b, b ∉ Finset.univ.image (Pipeline.arrRef spec0) → Vr2 m c b = Vr1 m c b :=
  fun b hb => W2_of_ne m c b fun w e => hb (Finset.mem_image.mpr ⟨w, Finset.mem_univ _, e⟩)

/-- After the three reshapes between the calls. -/
abbrev W3 : Dev nD → Valuation τ sig (Elt F) := fun c => StableHlo.after hostOps1 (W2 m c)
abbrev Vr3 : (c : Dev nD) → (b : Ref sig .tc) → Buf (Elt F) ((c : Thread nD τ).loc b) := fun c b => W3 m c b
/-- After the attention call. -/
def W4 (c : Dev nD) : Valuation τ sig (Elt F) :=
  Pipeline.withArrays spec1 c (W3 m c) fun w => (dat1 (Vr3 m) c).arrAt w cfg1.N
theorem W4_arr (c : Dev nD) (w : Fin cfg1.W) :
    W4 m c (Proc.devRef .tc (Pipeline.arrRef spec1 w)) = (dat1 (Vr3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev Vr4 : (c : Dev nD) → (b : Ref sig .tc) → Buf (Elt F) ((c : Thread nD τ).loc b) := fun c b => W4 m c b
theorem hF1 (c : Dev nD) (w : Fin cfg1.W) : (dat1 (Vr3 m) c).arrAt w cfg1.N = Vr4 m c (Pipeline.arrRef spec1 w) :=
  (W4_arr m c w).symm
theorem hrest1 (c : Dev nD) : ∀ b, b ∉ Finset.univ.image (Pipeline.arrRef spec1) → Vr4 m c b = Vr3 m c b :=
  fun b hb => W4_of_ne m c b fun w e => hb (Finset.mem_image.mpr ⟨w, Finset.mem_univ _, e⟩)

/-- A buffer no line of the first host stretch writes is unchanged by it. -/
theorem W1_keep (c : Dev nD) (b : Ref sig .tc)
    (hb : b ≠ main_v0 ∧ b ≠ main_v1 ∧ b ≠ main_v2 ∧ b ≠ main_v3 ∧ b ≠ main_v4 ∧ b ≠ main_v5 ∧ b ≠ main_v6) :
    W1 m c (Proc.devRef .tc b) = W0 m c (Proc.devRef .tc b) :=
  StableHlo.after_of_forall_not_mem (b := Proc.devRef .tc b) _ _ (List.forall_iff_forall_mem.mp (by
    simp only [hostOps0, List.Forall, StableHlo.unary_writes, StableHlo.reshape_writes, Finset.mem_singleton]
    obtain ⟨h0, h1, h2, h3, h4, h5, h6⟩ := hb
    exact ⟨StableHlo.devRef_ne_of_ne h0, StableHlo.devRef_ne_of_ne h1, StableHlo.devRef_ne_of_ne h2, StableHlo.devRef_ne_of_ne h3,
      StableHlo.devRef_ne_of_ne h4, StableHlo.devRef_ne_of_ne h5, StableHlo.devRef_ne_of_ne h6⟩))

/-- A buffer none of the three reshapes between the calls writes is unchanged by them. -/
theorem W3_keep (c : Dev nD) (b : Ref sig .tc) (hb : b ≠ main_v8 ∧ b ≠ main_v9 ∧ b ≠ main_v10) :
    W3 m c (Proc.devRef .tc b) = W2 m c (Proc.devRef .tc b) :=
  StableHlo.after_of_forall_not_mem (b := Proc.devRef .tc b) _ _ (List.forall_iff_forall_mem.mp (by
    simp only [hostOps1, List.Forall, StableHlo.reshape_writes, Finset.mem_singleton]
    obtain ⟨h0, h1, h2⟩ := hb
    exact ⟨StableHlo.devRef_ne_of_ne h0, StableHlo.devRef_ne_of_ne h1, StableHlo.devRef_ne_of_ne h2⟩))

/-- An argument array is no window of either call and no host line's result: it ends as launched. -/
theorem W4_arg (c : Dev nD) (b : Ref sig .tc)
    (h1 : ∀ w, Pipeline.arrRef spec1 w ≠ b) (h3 : b ≠ main_v8 ∧ b ≠ main_v9 ∧ b ≠ main_v10)
    (h0 : ∀ w, Pipeline.arrRef spec0 w ≠ b)
    (hh : b ≠ main_v0 ∧ b ≠ main_v1 ∧ b ≠ main_v2 ∧ b ≠ main_v3 ∧ b ≠ main_v4 ∧ b ≠ main_v5 ∧ b ≠ main_v6) :
    W4 m c (Proc.devRef .tc b) = m ((c : Thread nD τ).loc b) :=
  (W4_of_ne m c b h1).trans ((W3_keep m c b h3).trans ((W2_of_ne m c b h0).trans ((W1_keep m c b hh).trans rfl)))

theorem W4_main_arg0 (c : Dev nD) : W4 m c (Proc.devRef .tc main_arg0) = m ((c : Thread nD τ).loc main_arg0) :=
  W4_arg m c main_arg0 (by decide) (by decide) (by decide) (by decide)
theorem W4_main_arg1 (c : Dev nD) : W4 m c (Proc.devRef .tc main_arg1) = m ((c : Thread nD τ).loc main_arg1) :=
  W4_arg m c main_arg1 (by decide) (by decide) (by decide) (by decide)
theorem W4_main_arg2 (c : Dev nD) : W4 m c (Proc.devRef .tc main_arg2) = m ((c : Thread nD τ).loc main_arg2) :=
  W4_arg m c main_arg2 (by decide) (by decide) (by decide) (by decide)
theorem W4_main_arg3 (c : Dev nD) : W4 m c (Proc.devRef .tc main_arg3) = m ((c : Thread nD τ).loc main_arg3) :=
  W4_arg m c main_arg3 (by decide) (by decide) (by decide) (by decide)
theorem W4_main_arg4 (c : Dev nD) : W4 m c (Proc.devRef .tc main_arg4) = m ((c : Thread nD τ).loc main_arg4) :=
  W4_arg m c main_arg4 (by decide) (by decide) (by decide) (by decide)
theorem W4_main_arg5 (c : Dev nD) : W4 m c (Proc.devRef .tc main_arg5) = m ((c : Thread nD τ).loc main_arg5) :=
  W4_arg m c main_arg5 (by decide) (by decide) (by decide) (by decide)
theorem W4_main_arg6 (c : Dev nD) : W4 m c (Proc.devRef .tc main_arg6) = m ((c : Thread nD τ).loc main_arg6) :=
  W4_arg m c main_arg6 (by decide) (by decide) (by decide) (by decide)

/-- The result array after the run is what the attention call's write-backs leave. -/
theorem W4_main_v11 (c : Dev nD) : W4 m c (Proc.devRef .tc main_v11) = (dat1 (Vr3 m) c).arrAt 3 cfg1.N :=
  W4_arr m c 3

end Cert.KernelIdeal.Hand

end
-- ==== Proof.KI.R0Body.lean ====
/-
  The projection body at any grid point meets the pipeline's obligation: on the staging buffers holding the
  point's blocks it runs to the end leaving each input as it was and each output at its store (`out0_7/8/9`).
-/
import proofs.«425711_j52012053954870_3_alg».proof.Proof.Gen.KernelIdeal.Launch
import proofs.«425711_j52012053954870_3_alg».proof.Proof.Gen.KernelIdeal.Skeleton
import proofs.«425711_j52012053954870_3_alg».proof.Proof.Gen.KernelIdeal.Points
import proofs.«425711_j52012053954870_3_alg».proof.Proof.KI.R0Defs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the body finds in each input window's buffer

An input window's block is left in place by the body, the window is uncut and has no idle point. So at every
point its current buffer holds the block of that point: where the window is fetched, the fetch puts it there;
where it is not, its block index has not moved since the point before, and the buffer still holds that block. -/

theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)

theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)

theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)

theorem before0_3 (c : Dev nD) (t : Fin cfg0.N) (d) : (dat0 V c).before 3 t d = iblk0 V c 3 t :=
  ((dat0 V c).before_in_eq_fetched 3 rfl (fun _ => rfl) (fun _ _ _ => rfl)
    (fun t => by rw [after0_3]; unfold Dat.blockOf iblk0; rw [A_eq0]; try rfl) t d).trans
    (by unfold Dat.fetched Dat.blockOf iblk0; rw [A_eq0]; try rfl)

theorem before0_4 (c : Dev nD) (t : Fin cfg0.N) (d) : (dat0 V c).before 4 t d = iblk0 V c 4 t :=
  ((dat0 V c).before_in_eq_fetched 4 rfl (fun _ => rfl) (fun _ _ _ => rfl)
    (fun t => by rw [after0_4]; unfold Dat.blockOf iblk0; rw [A_eq0]; try rfl) t d).trans
    (by unfold Dat.fetched Dat.blockOf iblk0; rw [A_eq0]; try rfl)

theorem before0_5 (c : Dev nD) (t : Fin cfg0.N) (d) : (dat0 V c).before 5 t d = iblk0 V c 5 t :=
  ((dat0 V c).before_in_eq_fetched 5 rfl (fun _ => rfl) (fun _ _ _ => rfl)
    (fun t => by rw [after0_5]; unfold Dat.blockOf iblk0; rw [A_eq0]; try rfl) t d).trans
    (by unfold Dat.fetched Dat.blockOf iblk0; rw [A_eq0]; try rfl)

theorem before0_6 (c : Dev nD) (t : Fin cfg0.N) (d) : (dat0 V c).before 6 t d = iblk0 V c 6 t :=
  ((dat0 V c).before_in_eq_fetched 6 rfl (fun _ => rfl) (fun _ _ _ => rfl)
    (fun t => by rw [after0_6]; unfold Dat.blockOf iblk0; rw [A_eq0]; try rfl) t d).trans
    (by unfold Dat.fetched Dat.blockOf iblk0; rw [A_eq0]; try rfl)

/-! ## The body's triple -/

set_option maxHeartbeats 1000000 in
/-- The projection body on whole staging memrefs, the seven inputs' at read contents and the three outputs' at
    anything, runs to the continuation holding the inputs' as they were and each output's at its one store over
    the loaded blocks: the store's rectangle is the whole buffer, so what it leaves reads as that one piece
    whatever the buffer held before. -/
theorem sound_kernel0 (c : Dev nD) (E : Set ℕ) (i : grid0.Coords)
    (arg1 : Memref sig .tc .vmem S512x1024 .f32) (harg1 : arg1.IsWhole)
    (arg2 : Memref sig .tc .vmem S1024x1024 .bf16) (harg2 : arg2.IsWhole)
    (arg3 : Memref sig .tc .vmem S1x1024 .f32) (harg3 : arg3.IsWhole)
    (arg4 : Memref sig .tc .vmem S1024x1024 .bf16) (harg4 : arg4.IsWhole)
    (arg5 : Memref sig .tc .vmem S1x1024 .f32) (harg5 : arg5.IsWhole)
    (arg6 : Memref sig .tc .vmem S1024x1024 .bf16) (harg6 : arg6.IsWhole)
    (arg7 : Memref sig .tc .vmem S1x1024 .f32) (harg7 : arg7.IsWhole)
    (arg8 : Memref sig .tc .vmem S512x1024 .bf16) (harg8 : arg8.IsWhole)
    (arg9 : Memref sig .tc .vmem S512x1024 .bf16) (harg9 : arg9.IsWhole)
    (arg10 : Memref sig .tc .vmem S512x1024 .bf16) (harg10 : arg10.IsWhole)
    (x : Vec F S512x1024 .f32) (wq : Vec F S1024x1024 .bf16) (bq : Vec F S1x1024 .f32) (wk : Vec F S1024x1024 .bf16) (bk : Vec F S1x1024 .f32) (wv : Vec F S1024x1024 .bf16) (bv : Vec F S1x1024 .f32) (K : PUnit → sProp 𝕄) :
    iprop(owns (c : Thread nD τ) arg1 fullShare x ∗ owns (c : Thread nD τ) arg2 fullShare wq ∗ owns (c : Thread nD τ) arg3 fullShare bq ∗ owns (c : Thread nD τ) arg4 fullShare wk ∗ owns (c : Thread nD τ) arg5 fullShare bk ∗ owns (c : Thread nD τ) arg6 fullShare wv ∗ owns (c : Thread nD τ) arg7 fullShare bv
        ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg1 fullShare x ∗ owns (c : Thread nD τ) arg2 fullShare wq ∗ owns (c : Thread nD τ) arg3 fullShare bq ∗ owns (c : Thread nD τ) arg4 fullShare wk ∗ owns (c : Thread nD τ) arg5 fullShare bk ∗ owns (c : Thread nD τ) arg6 fullShare wv ∗ owns (c : Thread nD τ) arg7 fullShare bv
            ∗ owns (c : Thread nD τ) arg8 fullShare (out0_7 x wq bq) ∗ owns (c : Thread nD τ) arg9 fullShare (out0_8 x wk bk) ∗ owns (c : Thread nD τ) arg10 fullShare (out0_9 x wv bv)) -∗ K ⟨⟩))
      ⊢ wp frame (wpE (defs₀ (F := F)) Variants.none c none) E (cc0_proj_kernel i arg1 harg1 arg2 harg2 arg3 harg3 arg4 harg4 arg5 harg5 arg6 harg6 arg7 harg7 arg8 harg8 arg9 harg9 arg10 harg10) K := by
  simp only [cc0_proj_kernel_eq_skeleton]; unfold cc0_proj_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, Hk⟩
  subst hf1 hf2 hf3 hf4 hf5 hf6 hf7
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact View.read_writes_eq_canon _ _ _ (cover0 _)
  isplitl [H9]
  · iexists _; isplitr
    swap; · iexact H9
    ipureintro
    exact View.read_writes_eq_canon _ _ _ (cover0 _)
  iexists _; isplitr
  swap; · iexact H10
  ipureintro
  exact View.read_writes_eq_canon _ _ _ (cover0 _)

/-! ## The body obligation, at a generic point -/

/-- What the body is called with at point `t`: the invariant, what the core owes, and each window's current
    buffer at what it then holds. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d)))

/-- and what it returns: each window's current buffer at what the body leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t))

/-- The body at any point: the inputs' buffers hold their blocks, so the body's triple applies at those blocks;
    the invariant and what the core owes pass through unread, and are the same at the next point. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel0 c Set.univ _ _ _ _ _ _ _ _ _ _ _ _ _ _ _ _ _ _ _ _ _ (xb0 V c t) (wq0 V c t) (bq0 V c t) (wk0 V c t) (bk0 V c t) (wv0 V c t) (bv0 V c t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.R1Conds.lean ====
/-
  The attention call's two branch conditions, decided over the grid: the reset branch is taken exactly at the
  points with key tile 0 (t ≡ 0 mod 4), the output branch exactly at key tile 3 (t ≡ 3 mod 4). Where the output
  window is idle and not written back (every point but the last of a group of four), and the staging memrefs the
  pipeline calls the body with.
-/
import proofs.«425711_j52012053954870_3_alg».proof.Proof.Gen.KernelIdeal.Launch
import proofs.«425711_j52012053954870_3_alg».proof.Proof.Gen.KernelIdeal.Skeleton
import proofs.«425711_j52012053954870_3_alg».proof.Proof.Gen.KernelIdeal.Points
import proofs.«425711_j52012053954870_3_alg».proof.Proof.KI.R1Defs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The condition of the reset branch, from the grid coordinates. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)
/-- The condition of the output branch. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Where the output branch is not taken the output window is idle and not written back. -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
theorem liveAt1_3 : ∀ t : Fin cfg1.N, cond1_1 (grid1.coords t) → cfg1.idle 3 (grid1.coords t) = false := by decide +kernel

/-- Each window's current staging memref at point `t`, as the pipeline passes it, and its wholeness. -/
abbrev ms1_0 (t : Fin cfg1.N) : Memref sig .tc .vmem S1x1024x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x512x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x512x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1024x1024 .f32 := win1_3.stage (cfg1.slots t 3)
abbrev hs1_3 (t : Fin cfg1.N) : (ms1_3 t).IsWhole := hstage1_3 ((cfg1.slots t 3).cast nbuf1_3)

end Cert.KernelIdeal.Hand

end
-- ==== Proof.KI.R1Runs.lean ====
/-
  The attention body run once in each of its three control cases, on any whole staging memrefs:
  A (key tile 0: the reset branch taken, the output branch not), B (key tiles 1, 2: neither branch),
  C (key tile 3: the output branch taken). In every case the three scratch buffers end at ONE update step
  (`stepS`) of the loaded tiles — from the reset values in case A, from what they held in cases B and C —;
  in cases A and B the output buffer is handed back untouched, in case C it ends at acc / l of the new triple.
  Every store and load of the body goes through the whole-shape rectangle at zero offsets, so a buffer stored into reads
  its last store's payload, and a load reads the contents (or, after a store, that store's payload).
-/
import proofs.«425711_j52012053954870_3_alg».proof.Proof.Gen.KernelIdeal.Launch
import proofs.«425711_j52012053954870_3_alg».proof.Proof.Gen.KernelIdeal.Skeleton
import proofs.«425711_j52012053954870_3_alg».proof.Proof.Gen.KernelIdeal.Points
import proofs.«425711_j52012053954870_3_alg».proof.Proof.KI.R1Conds
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The zero offsets of a store or load of a whole buffer, of rank two and three. -/
theorem attnZeroOff2 : (![0, 0] : Fin 2 → Nat) = fun _ => 0 := funext fun a => by fin_cases a <;> rfl
theorem attnZeroOff3 : (![0, 0, 0] : Fin 3 → Nat) = fun _ => 0 := funext fun a => by fin_cases a <;> rfl

/-- A store through the whole-shape rectangle at zero offsets, made last, covers the buffer: whatever the buffer
    held and whatever was stored before, the memref then reads the stored vector. -/
theorem attnReadLastWholeStore {sp : Space} {S : Shape} {e : EltTy} (m : Memref sig .tc sp S e) (f : m.view.ty.Contents (Elt F))
    {off : Fin S.rank → Nat} (hz : off = fun _ => 0) (inb : ∀ a, off a + S.size a ≤ S.size a) (w : S.Idx → Elt F e)
    (L : List (View.Piece (Elt F) S e)) :
    m.view.read (Elt F) (m.view.writes (Elt F) f ((⟨Rect.unit off S.size inb, w⟩ : View.Piece (Elt F) S e) :: L)) = w := by
  rw [View.read_writes_eq_canon _ _ _ (fun y => ⟨_, List.mem_cons_self, View.mem_set_unit_zero hz inb y⟩),
    View.canon_cons_unit_zero hz]

/-- Case A: the reset branch taken, the output branch not. -/
theorem sound_kernel1_A (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : cond1_0 i) (hc1 : ¬cond1_1 i)
    (q : Vec F S1x1024x1024 .bf16) (k v : Vec F S1x512x1024 .bf16) (xi : Vec F S1x1024x1024 .f32) (E : Set ℕ) (K : PUnit → sProp 𝕄) :
    iprop(owns (c : Thread nD τ) arg3 fullShare q ∗ owns (c : Thread nD τ) arg4 fullShare k ∗ owns (c : Thread nD τ) arg5 fullShare v ∗ owns (c : Thread nD τ) arg6 fullShare xi
        ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg3 fullShare q ∗ owns (c : Thread nD τ) arg4 fullShare k ∗ owns (c : Thread nD τ) arg5 fullShare v ∗ owns (c : Thread nD τ) arg6 fullShare xi ∗ owns (c : Thread nD τ) arg7 fullShare (stepS q k v initS).1 ∗ owns (c : Thread nD τ) arg8 fullShare (stepS q k v initS).2.1 ∗ owns (c : Thread nD τ) arg9 fullShare (stepS q k v initS).2.2) -∗ K ⟨⟩))
      ⊢ wp frame (wpE (defs₀ (F := F)) Variants.none c none) E (cc1_attn_kernel i arg3 harg3 arg4 harg4 arg5 harg5 arg6 harg6 arg7 harg7 arg8 harg8 arg9 harg9) K := by

  simp only [cc1_attn_kernel_eq_skeleton]; unfold cc1_attn_kernel_skel
  unfold owns
  iintro ⟨⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
  obtain rfl := harg3.eq_unread hf3; obtain rfl := harg4.eq_unread hf4; obtain rfl := harg5.eq_unread hf5
  obtain rfl := harg6.eq_unread hf6
  -- the reset branch is taken, the output branch is not
  sl_exec (disch := first | exact hc0 | exact hc1)
  sl_step
  iapply Hk
  -- the three tiles and the output buffer are only read or untouched
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  -- each scratch buffer was stored whole twice, the reset value then the update: it reads the update's payload,
  -- whose loads of m, l, acc read the reset values back (a whole-buffer load after a whole-buffer store)
  isplitl [H7]
  · iexists _; isplitr
    on_goal 2 => iexact H7
    ipureintro
    sl_unfold_words
    refine (attnReadLastWholeStore arg7 _ attnZeroOff2 _ _ _).trans ?_
    simp only [View.readAt_eq_ld, harg3.read_unread, harg4.read_unread, harg5.read_unread, harg7.read_unread, harg8.read_unread, harg9.read_unread,
        View.ld_unit_zero (S := S1x1024x1024) attnZeroOff3, View.ld_unit_zero (S := S1x512x1024) attnZeroOff3, View.ld_unit_zero (S := S1024x1) attnZeroOff2, View.ld_unit_zero (S := S1024x1024) attnZeroOff2, View.readCov_unit_zero (S := S1024x1) _ attnZeroOff2, View.readCov_unit_zero (S := S1024x1024) _ attnZeroOff2]
    rfl
  isplitl [H8]
  · iexists _; isplitr
    on_goal 2 => iexact H8
    ipureintro
    sl_unfold_words
    refine (attnReadLastWholeStore arg8 _ attnZeroOff2 _ _ _).trans ?_
    simp only [View.readAt_eq_ld, harg3.read_unread, harg4.read_unread, harg5.read_unread, harg7.read_unread, harg8.read_unread, harg9.read_unread,
        View.ld_unit_zero (S := S1x1024x1024) attnZeroOff3, View.ld_unit_zero (S := S1x512x1024) attnZeroOff3, View.ld_unit_zero (S := S1024x1) attnZeroOff2, View.ld_unit_zero (S := S1024x1024) attnZeroOff2, View.readCov_unit_zero (S := S1024x1) _ attnZeroOff2, View.readCov_unit_zero (S := S1024x1024) _ attnZeroOff2]
    rfl
  iexists _; isplitr
  on_goal 2 => iexact H9
  ipureintro
  sl_unfold_words
  refine (attnReadLastWholeStore arg9 _ attnZeroOff2 _ _ _).trans ?_
  simp only [View.readAt_eq_ld, harg3.read_unread, harg4.read_unread, harg5.read_unread, harg7.read_unread, harg8.read_unread, harg9.read_unread,
        View.ld_unit_zero (S := S1x1024x1024) attnZeroOff3, View.ld_unit_zero (S := S1x512x1024) attnZeroOff3, View.ld_unit_zero (S := S1024x1) attnZeroOff2, View.ld_unit_zero (S := S1024x1024) attnZeroOff2, View.readCov_unit_zero (S := S1024x1) _ attnZeroOff2, View.readCov_unit_zero (S := S1024x1024) _ attnZeroOff2]
  rfl

/-- Case B: neither branch taken. -/
theorem sound_kernel1_B (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : ¬cond1_1 i)
    (q : Vec F S1x1024x1024 .bf16) (k v : Vec F S1x512x1024 .bf16) (xi : Vec F S1x1024x1024 .f32) (s : St F) (E : Set ℕ) (K : PUnit → sProp 𝕄) :
    iprop(owns (c : Thread nD τ) arg3 fullShare q ∗ owns (c : Thread nD τ) arg4 fullShare k ∗ owns (c : Thread nD τ) arg5 fullShare v ∗ owns (c : Thread nD τ) arg6 fullShare xi
        ∗ owns (c : Thread nD τ) arg7 fullShare s.1 ∗ owns (c : Thread nD τ) arg8 fullShare s.2.1 ∗ owns (c : Thread nD τ) arg9 fullShare s.2.2
        ∗ (iprop(owns (c : Thread nD τ) arg3 fullShare q ∗ owns (c : Thread nD τ) arg4 fullShare k ∗ owns (c : Thread nD τ) arg5 fullShare v ∗ owns (c : Thread nD τ) arg6 fullShare xi ∗ owns (c : Thread nD τ) arg7 fullShare (stepS q k v s).1 ∗ owns (c : Thread nD τ) arg8 fullShare (stepS q k v s).2.1 ∗ owns (c : Thread nD τ) arg9 fullShare (stepS q k v s).2.2) -∗ K ⟨⟩))
      ⊢ wp frame (wpE (defs₀ (F := F)) Variants.none c none) E (cc1_attn_kernel i arg3 harg3 arg4 harg4 arg5 harg5 arg6 harg6 arg7 harg7 arg8 harg8 arg9 harg9) K := by

  simp only [cc1_attn_kernel_eq_skeleton]; unfold cc1_attn_kernel_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := harg3.eq_unread hf3; obtain rfl := harg4.eq_unread hf4; obtain rfl := harg5.eq_unread hf5
  obtain rfl := harg6.eq_unread hf6; obtain rfl := harg7.eq_unread hf7; obtain rfl := harg8.eq_unread hf8
  obtain rfl := harg9.eq_unread hf9
  -- neither branch is taken
  sl_exec (disch := first | exact hc0 | exact hc1)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  -- each scratch buffer was stored whole once: it reads that store's payload, whose whole-buffer loads read q, k, v
  -- and the carried m, l, acc
  isplitl [H7]
  · iexists _; isplitr
    on_goal 2 => iexact H7
    ipureintro
    sl_unfold_words
    refine (attnReadLastWholeStore arg7 _ attnZeroOff2 _ _ _).trans ?_
    simp only [View.readAt_eq_ld, harg3.read_unread, harg4.read_unread, harg5.read_unread, harg7.read_unread, harg8.read_unread, harg9.read_unread,
        View.ld_unit_zero (S := S1x1024x1024) attnZeroOff3, View.ld_unit_zero (S := S1x512x1024) attnZeroOff3, View.ld_unit_zero (S := S1024x1) attnZeroOff2, View.ld_unit_zero (S := S1024x1024) attnZeroOff2, View.readCov_unit_zero (S := S1024x1) _ attnZeroOff2, View.readCov_unit_zero (S := S1024x1024) _ attnZeroOff2]
    rfl
  isplitl [H8]
  · iexists _; isplitr
    on_goal 2 => iexact H8
    ipureintro
    sl_unfold_words
    refine (attnReadLastWholeStore arg8 _ attnZeroOff2 _ _ _).trans ?_
    simp only [View.readAt_eq_ld, harg3.read_unread, harg4.read_unread, harg5.read_unread, harg7.read_unread, harg8.read_unread, harg9.read_unread,
        View.ld_unit_zero (S := S1x1024x1024) attnZeroOff3, View.ld_unit_zero (S := S1x512x1024) attnZeroOff3, View.ld_unit_zero (S := S1024x1) attnZeroOff2, View.ld_unit_zero (S := S1024x1024) attnZeroOff2, View.readCov_unit_zero (S := S1024x1) _ attnZeroOff2, View.readCov_unit_zero (S := S1024x1024) _ attnZeroOff2]
    rfl
  iexists _; isplitr
  on_goal 2 => iexact H9
  ipureintro
  sl_unfold_words
  refine (attnReadLastWholeStore arg9 _ attnZeroOff2 _ _ _).trans ?_
  simp only [View.readAt_eq_ld, harg3.read_unread, harg4.read_unread, harg5.read_unread, harg7.read_unread, harg8.read_unread, harg9.read_unread,
        View.ld_unit_zero (S := S1x1024x1024) attnZeroOff3, View.ld_unit_zero (S := S1x512x1024) attnZeroOff3, View.ld_unit_zero (S := S1024x1) attnZeroOff2, View.ld_unit_zero (S := S1024x1024) attnZeroOff2, View.readCov_unit_zero (S := S1024x1) _ attnZeroOff2, View.readCov_unit_zero (S := S1024x1024) _ attnZeroOff2]
  rfl

/-- Case C: the output branch taken, the reset branch not. -/
theorem sound_kernel1_C (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i)
    (q : Vec F S1x1024x1024 .bf16) (k v : Vec F S1x512x1024 .bf16) (s : St F) (E : Set ℕ) (K : PUnit → sProp 𝕄) :
    iprop(owns (c : Thread nD τ) arg3 fullShare q ∗ owns (c : Thread nD τ) arg4 fullShare k ∗ owns (c : Thread nD τ) arg5 fullShare v ∗ (∃ d, owns (c : Thread nD τ) arg6 fullShare d)
        ∗ owns (c : Thread nD τ) arg7 fullShare s.1 ∗ owns (c : Thread nD τ) arg8 fullShare s.2.1 ∗ owns (c : Thread nD τ) arg9 fullShare s.2.2
        ∗ (iprop(owns (c : Thread nD τ) arg3 fullShare q ∗ owns (c : Thread nD τ) arg4 fullShare k ∗ owns (c : Thread nD τ) arg5 fullShare v ∗ owns (c : Thread nD τ) arg6 fullShare (k1_pay3 (stepS q k v s).2.2 (stepS q k v s).2.1) ∗ owns (c : Thread nD τ) arg7 fullShare (stepS q k v s).1 ∗ owns (c : Thread nD τ) arg8 fullShare (stepS q k v s).2.1 ∗ owns (c : Thread nD τ) arg9 fullShare (stepS q k v s).2.2) -∗ K ⟨⟩))
      ⊢ wp frame (wpE (defs₀ (F := F)) Variants.none c none) E (cc1_attn_kernel i arg3 harg3 arg4 harg4 arg5 harg5 arg6 harg6 arg7 harg7 arg8 harg8 arg9 harg9) K := by

  simp only [cc1_attn_kernel_eq_skeleton]; unfold cc1_attn_kernel_skel
  unfold owns
  iintro ⟨⟨%f3, %hf3, H3⟩, ⟨%f4, %hf4, H4⟩, ⟨%f5, %hf5, H5⟩, ⟨%d6, %f6, -, H6⟩, ⟨%f7, %hf7, H7⟩, ⟨%f8, %hf8, H8⟩, ⟨%f9, %hf9, H9⟩, Hk⟩
  obtain rfl := harg3.eq_unread hf3; obtain rfl := harg4.eq_unread hf4; obtain rfl := harg5.eq_unread hf5
  obtain rfl := harg7.eq_unread hf7; obtain rfl := harg8.eq_unread hf8
  obtain rfl := harg9.eq_unread hf9
  -- the output branch is taken, the reset branch is not
  sl_exec (disch := first | exact hc0 | exact hc1)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  -- the output buffer was stored whole once, acc / l of the new triple: the branch's loads of acc and l come after the
  -- update's whole-buffer stores and read their payloads back
  isplitl [H6]
  · iexists _; isplitr
    on_goal 2 => iexact H6
    ipureintro
    sl_unfold_words
    refine (attnReadLastWholeStore arg6 _ attnZeroOff3 _ _ _).trans ?_
    simp only [View.readAt_eq_ld, harg3.read_unread, harg4.read_unread, harg5.read_unread, harg7.read_unread, harg8.read_unread, harg9.read_unread,
        View.ld_unit_zero (S := S1x1024x1024) attnZeroOff3, View.ld_unit_zero (S := S1x512x1024) attnZeroOff3, View.ld_unit_zero (S := S1024x1) attnZeroOff2, View.ld_unit_zero (S := S1024x1024) attnZeroOff2, View.readCov_unit_zero (S := S1024x1) _ attnZeroOff2, View.readCov_unit_zero (S := S1024x1024) _ attnZeroOff2]
    rfl
  -- each scratch buffer was stored whole once: it reads that store's payload
  isplitl [H7]
  · iexists _; isplitr
    on_goal 2 => iexact H7
    ipureintro
    sl_unfold_words
    refine (attnReadLastWholeStore arg7 _ attnZeroOff2 _ _ _).trans ?_
    simp only [View.readAt_eq_ld, harg3.read_unread, harg4.read_unread, harg5.read_unread, harg7.read_unread, harg8.read_unread, harg9.read_unread,
        View.ld_unit_zero (S := S1x1024x1024) attnZeroOff3, View.ld_unit_zero (S := S1x512x1024) attnZeroOff3, View.ld_unit_zero (S := S1024x1) attnZeroOff2, View.ld_unit_zero (S := S1024x1024) attnZeroOff2, View.readCov_unit_zero (S := S1024x1) _ attnZeroOff2, View.readCov_unit_zero (S := S1024x1024) _ attnZeroOff2]
    rfl
  isplitl [H8]
  · iexists _; isplitr
    on_goal 2 => iexact H8
    ipureintro
    sl_unfold_words
    refine (attnReadLastWholeStore arg8 _ attnZeroOff2 _ _ _).trans ?_
    simp only [View.readAt_eq_ld, harg3.read_unread, harg4.read_unread, harg5.read_unread, harg7.read_unread, harg8.read_unread, harg9.read_unread,
        View.ld_unit_zero (S := S1x1024x1024) attnZeroOff3, View.ld_unit_zero (S := S1x512x1024) attnZeroOff3, View.ld_unit_zero (S := S1024x1) attnZeroOff2, View.ld_unit_zero (S := S1024x1024) attnZeroOff2, View.readCov_unit_zero (S := S1024x1) _ attnZeroOff2, View.readCov_unit_zero (S := S1024x1024) _ attnZeroOff2]
    rfl
  iexists _; isplitr
  on_goal 2 => iexact H9
  ipureintro
  sl_unfold_words
  refine (attnReadLastWholeStore arg9 _ attnZeroOff2 _ _ _).trans ?_
  simp only [View.readAt_eq_ld, harg3.read_unread, harg4.read_unread, harg5.read_unread, harg7.read_unread, harg8.read_unread, harg9.read_unread,
        View.ld_unit_zero (S := S1x1024x1024) attnZeroOff3, View.ld_unit_zero (S := S1x512x1024) attnZeroOff3, View.ld_unit_zero (S := S1024x1) attnZeroOff2, View.ld_unit_zero (S := S1024x1024) attnZeroOff2, View.readCov_unit_zero (S := S1024x1) _ attnZeroOff2, View.readCov_unit_zero (S := S1024x1024) _ attnZeroOff2]
  rfl

end Cert.KernelIdeal.Hand

end
-- ==== Proof.KI.R1Body.lean ====
/-
  The attention body at any grid point meets the pipeline's obligation, the three scratch buffers carried in the
  invariant from point to point at the triple `stateAt`; the invariant before the first point and after the last
  is the scoped rest at anything with the generator register.
-/
import proofs.«425711_j52012053954870_3_alg».proof.Proof.Gen.KernelIdeal.Launch
import proofs.«425711_j52012053954870_3_alg».proof.Proof.Gen.KernelIdeal.Skeleton
import proofs.«425711_j52012053954870_3_alg».proof.Proof.Gen.KernelIdeal.Points
import proofs.«425711_j52012053954870_3_alg».proof.Proof.KI.R1Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The invariant, point by point -/

/-- The fourteen scoped buffers that are the projection call's staging, each at some contents. -/
def scopedOthers1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg8_1), ((c : Thread nD τ).loc cc0_stg8_1) ↦{fullShare} f) ∗ (∃ f : Buf (Elt F) ((c : Thread nD τ).loc cc0_stg9_0), ((c : Thread nD τ).loc cc0_stg9_0) ↦{fullShare} f) ∗ (∃ f : Buf (Elt F) ((c : Thread nD τ).loc cc0_stg9_1), ((c : Thread nD τ).loc cc0_stg9_1) ↦{fullShare} f))

/-- Two assertions that entail each other are equal. -/
private theorem eq_of_entails {P Q : sProp 𝕄} (h1 : P ⊢ Q) (h2 : Q ⊢ P) : P = Q := Entails.antisymm h1 h2

/-- The chain of the fourteen before a tail is the fourteen, bundled, and the tail (associativity of ∗). -/
theorem scopedOthers1_chain (c : Dev nD) (T : sProp 𝕄) :
    iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg8_1), ((c : Thread nD τ).loc cc0_stg8_1) ↦{fullShare} f) ∗ (∃ f : Buf (Elt F) ((c : Thread nD τ).loc cc0_stg9_0), ((c : Thread nD τ).loc cc0_stg9_0) ↦{fullShare} f) ∗ (∃ f : Buf (Elt F) ((c : Thread nD τ).loc cc0_stg9_1), ((c : Thread nD τ).loc cc0_stg9_1) ↦{fullShare} f) ∗ T) = iprop(scopedOthers1 (F := F) c ∗ T) := by
  unfold scopedOthers1
  refine eq_of_entails ?_ ?_
  · iintro ⟨H1, H2, H3, H4, H5, H6, H7, H8, H9, H10, H11, H12, H13, H14, HT⟩
    isplitr [HT]
    · isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      iexact H14
    iexact HT
  · iintro ⟨⟨H1, H2, H3, H4, H5, H6, H7, H8, H9, H10, H11, H12, H13, H14⟩, HT⟩
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact HT

/-- The invariant with the three scratch buffers at a triple `s`. -/
def PhiAt (c : Dev nD) (s : St F) : sProp 𝕄 :=
  iprop(iprop(scopedOthers1 c ∗ owns (c : Thread nD τ) scM0 fullShare s.1 ∗ owns (c : Thread nD τ) scM1 fullShare s.2.1
      ∗ owns (c : Thread nD τ) scM2 fullShare s.2.2) ∗ (∃ r, prngReg c r))

theorem PhiS_zero (c : Dev nD) (n : ℕ) (h : n ≤ cfg1.N) (hz : n = 0) : PhiS V c n h = Pipeline.ΦA spec1 c := by
  subst hz; rfl

/-- After point `n` (before point `n + 1`): the scratch buffers at that point's triple. -/
theorem PhiS_succ (c : Dev nD) (n : ℕ) (hn : n < cfg1.N) : PhiS V c (n + 1) hn = PhiAt c (stateAt V c n hn) := by
  unfold PhiAt; rw [← scopedOthers1_chain]; rfl

/-- Before a point that is not the first: the scratch buffers at what the point before left. -/
theorem PhiS_pos (c : Dev nD) (n : ℕ) (h : n ≤ cfg1.N) (hz : n ≠ 0) :
    PhiS V c n h = PhiAt c (stateAt V c (n - 1) (by omega)) := by
  cases n with
  | zero => exact absurd rfl hz
  | succ n => exact PhiS_succ V c n h

/-- The class's invariant with the three scratch buffers as memrefs owned at some contents. -/
theorem PhiA1_eq (c : Dev nD) :
    (Pipeline.ΦA spec1 c : sProp 𝕄)
      = iprop(iprop(scopedOthers1 c ∗ (∃ d, owns (c : Thread nD τ) scM0 fullShare d) ∗ (∃ d, owns (c : Thread nD τ) scM1 fullShare d)
          ∗ (∃ d, owns (c : Thread nD τ) scM2 fullShare d)) ∗ (∃ r, prngReg c r)) := by
  unfold Pipeline.ΦA; rw [scopedRest1_eq, scopedOthers1_chain]; simp only [scM0, scM1, scM2, owns_whole]; try rfl

/-- A triple held is a triple at some contents. -/
theorem PhiAt_forget (c : Dev nD) (s : St F) : PhiAt c s ⊢ Pipeline.ΦA spec1 c := by
  rw [PhiA1_eq]; unfold PhiAt
  iintro ⟨⟨HR, HS0, HS1, HS2⟩, Hg⟩
  isplitr [Hg]
  · isplitl [HR]; · iexact HR
    isplitl [HS0]; · iexists _; iexact HS0
    isplitl [HS1]; · iexists _; iexact HS1
    iexists _; iexact HS2
  iexact Hg

/-- Before the first point the invariant is the class's. -/
theorem Phi1_zero (c : Dev nD) : (dat1 V c).Φ 0 = Pipeline.ΦA spec1 c := by
  rw [show (dat1 V c).Φ 0 = PhiS V c 0 (Nat.zero_le _) from rfl, PhiS_zero V c 0 _ rfl]

/-- After the last point the invariant gives the class's back: the scratch contents are forgotten. -/
theorem Phi1_last (c : Dev nD) : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl,
    PhiS_pos V c _ _ (by rw [Fin.val_last]; have : cfg1.N = 32 := N_1; omega)]
  exact PhiAt_forget c _

/-! ## What the staging buffers hold when the body runs -/

/-- Each input's current staging buffer holds its block at every point, fetched there or not: unfetched, the
    block index has not moved. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)

/-- The invariant at a point's start, restated at the point's position. -/
theorem PhiS_castSucc (c : Dev nD) (t : Fin cfg1.N) :
    (dat1 V c).Φ t.castSucc = PhiS V c t.val (Nat.le_of_lt t.isLt) := by
  dsimp only [dat1]; simp only [Fin.coe_castSucc]

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point. The three inputs' buffers hold their blocks. At a point with key tile 0 the reset case
    runs from the scratch buffers at anything (the class's invariant at the first point, the previous triple
    forgotten later) and leaves one step from the reset values; elsewhere the carry cases run from the triple the
    point before left and leave one step from it; the output buffer is handed back as found except at key tile 3,
    where it ends at acc / l of the new triple. The core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rewrite [show (dat1 V c).owesAt () t.succ = (dat1 V c).owesAt () t.castSucc from rfl]
  rewrite [show (dat1 V c).Φ t.succ = PhiS V c (t.val + 1) t.isLt from rfl, PhiS_succ, PhiS_castSucc]
  rewrite [show (dat1 V c).leavesExact 0 t = owns (c : Thread nD τ) (ms1_0 t) fullShare ((dat1 V c).after 0 t) from by
    unfold Dat.leavesExact; rw [liveAt1_0 t], after1_0]
  rewrite [show (dat1 V c).leavesExact 1 t = owns (c : Thread nD τ) (ms1_1 t) fullShare ((dat1 V c).after 1 t) from by
    unfold Dat.leavesExact; rw [liveAt1_1 t], after1_1]
  rewrite [show (dat1 V c).leavesExact 2 t = owns (c : Thread nD τ) (ms1_2 t) fullShare ((dat1 V c).after 2 t) from by
    unfold Dat.leavesExact; rw [liveAt1_2 t], after1_2]
  have hN : t.val < 32 := lt_of_lt_of_eq t.isLt (show cfg1.N = 32 from N_1)
  by_cases h0 : t.val % 4 = 0
  · have hc0 : cond1_0 (grid1.coords t) := (hcond1_0 t).mpr h0
    have hc1 : ¬cond1_1 (grid1.coords t) := fun h => by have := (hcond1_1 t).mp h; omega
    rewrite [Dat.leavesExact_idle (dat1 V c) 3 t (idleAt1_3 t hc1) (noFlush1_3 t hc1), stateAt_reset V c t h0]
    by_cases hz : t.val = 0
    · rewrite [PhiS_zero V c _ _ hz, PhiA1_eq]
      unfold PhiAt
      iintro ⟨⟨⟨HR, HS0, HS1, HS2⟩, Hg⟩, Ho, ⟨%d0, H0⟩, ⟨%d1, H1⟩, ⟨%d2, H2⟩, ⟨%d3, H3⟩⟩
      iapply (sound_kernel1_A c (grid1.coords t) (ms1_0 t) (hs1_0 t) (ms1_1 t) (hs1_1 t) (ms1_2 t) (hs1_2 t) (ms1_3 t) (hs1_3 t) scM0 (Memref.isWhole_whole _) scM1 (Memref.isWhole_whole _) scM2 (Memref.isWhole_whole _) hc0 hc1 (qb1 V c t) (kb1 V c t) (vb1 V c t) ((dat1 V c).before 3 t d3) Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, HS0, HS1, HS2⟩
      isplitl [HR HS0 HS1 HS2 Hg]
      · isplitr [Hg]
        · isplitl [HR]; · iexact HR
          isplitl [HS0]; · iexact HS0
          isplitl [HS1]; · iexact HS1
          iexact HS2
        iexact Hg
      isplitl [Ho]; · iexact Ho
      isplitl [H0]; · iexact H0
      isplitl [H1]; · iexact H1
      isplitl [H2]; · iexact H2
      iexists _; iexact H3
    · rewrite [PhiS_pos V c _ _ hz]
      unfold PhiAt
      iintro ⟨⟨⟨HR, HS0, HS1, HS2⟩, Hg⟩, Ho, ⟨%d0, H0⟩, ⟨%d1, H1⟩, ⟨%d2, H2⟩, ⟨%d3, H3⟩⟩
      iapply (sound_kernel1_A c (grid1.coords t) (ms1_0 t) (hs1_0 t) (ms1_1 t) (hs1_1 t) (ms1_2 t) (hs1_2 t) (ms1_3 t) (hs1_3 t) scM0 (Memref.isWhole_whole _) scM1 (Memref.isWhole_whole _) scM2 (Memref.isWhole_whole _) hc0 hc1 (qb1 V c t) (kb1 V c t) (vb1 V c t) ((dat1 V c).before 3 t d3) Set.univ _)
      isplitl [H0]; · iexact H0
      isplitl [H1]; · iexact H1
      isplitl [H2]; · iexact H2
      isplitl [H3]; · iexact H3
      isplitl [HS0]; · iexists _; iexact HS0
      isplitl [HS1]; · iexists _; iexact HS1
      isplitl [HS2]; · iexists _; iexact HS2
      iintro ⟨H0, H1, H2, H3, HS0, HS1, HS2⟩
      isplitl [HR HS0 HS1 HS2 Hg]
      · isplitr [Hg]
        · isplitl [HR]; · iexact HR
          isplitl [HS0]; · iexact HS0
          isplitl [HS1]; · iexact HS1
          iexact HS2
        iexact Hg
      isplitl [Ho]; · iexact Ho
      isplitl [H0]; · iexact H0
      isplitl [H1]; · iexact H1
      isplitl [H2]; · iexact H2
      iexists _; iexact H3
  · have hc0 : ¬cond1_0 (grid1.coords t) := fun h => h0 ((hcond1_0 t).mp h)
    have hz : t.val ≠ 0 := fun h => h0 (by rw [h])
    by_cases h1 : t.val % 4 = 3
    · have hc1 : cond1_1 (grid1.coords t) := (hcond1_1 t).mpr h1
      rewrite [show (dat1 V c).leavesExact 3 t = owns (c : Thread nD τ) (ms1_3 t) fullShare ((dat1 V c).after 3 t) from by
        unfold Dat.leavesExact; rw [liveAt1_3 t hc1], after1_3]
      unfold outAt
      rewrite [stateAt_carry V c t h0, PhiS_pos V c _ _ hz]
      unfold PhiAt
      iintro ⟨⟨⟨HR, HS0, HS1, HS2⟩, Hg⟩, Ho, ⟨%d0, H0⟩, ⟨%d1, H1⟩, ⟨%d2, H2⟩, ⟨%d3, H3⟩⟩
      iapply (sound_kernel1_C c (grid1.coords t) (ms1_0 t) (hs1_0 t) (ms1_1 t) (hs1_1 t) (ms1_2 t) (hs1_2 t) (ms1_3 t) (hs1_3 t) scM0 (Memref.isWhole_whole _) scM1 (Memref.isWhole_whole _) scM2 (Memref.isWhole_whole _) hc0 hc1 (qb1 V c t) (kb1 V c t) (vb1 V c t) (stateAt V c (t.val - 1) (Nat.lt_of_le_of_lt (Nat.sub_le _ _) t.isLt)) Set.univ _)
      isplitl [H0]; · iexact H0
      isplitl [H1]; · iexact H1
      isplitl [H2]; · iexact H2
      isplitl [H3]; · iexists _; iexact H3
      isplitl [HS0]; · iexact HS0
      isplitl [HS1]; · iexact HS1
      isplitl [HS2]; · iexact HS2
      iintro ⟨H0, H1, H2, H3, HS0, HS1, HS2⟩
      isplitl [HR HS0 HS1 HS2 Hg]
      · isplitr [Hg]
        · isplitl [HR]; · iexact HR
          isplitl [HS0]; · iexact HS0
          isplitl [HS1]; · iexact HS1
          iexact HS2
        iexact Hg
      isplitl [Ho]; · iexact Ho
      isplitl [H0]; · iexact H0
      isplitl [H1]; · iexact H1
      isplitl [H2]; · iexact H2
      iexact H3
    · have hc1 : ¬cond1_1 (grid1.coords t) := fun h => h1 ((hcond1_1 t).mp h)
      rewrite [Dat.leavesExact_idle (dat1 V c) 3 t (idleAt1_3 t hc1) (noFlush1_3 t hc1), stateAt_carry V c t h0,
        PhiS_pos V c _ _ hz]
      unfold PhiAt
      iintro ⟨⟨⟨HR, HS0, HS1, HS2⟩, Hg⟩, Ho, ⟨%d0, H0⟩, ⟨%d1, H1⟩, ⟨%d2, H2⟩, ⟨%d3, H3⟩⟩
      iapply (sound_kernel1_B c (grid1.coords t) (ms1_0 t) (hs1_0 t) (ms1_1 t) (hs1_1 t) (ms1_2 t) (hs1_2 t) (ms1_3 t) (hs1_3 t) scM0 (Memref.isWhole_whole _) scM1 (Memref.isWhole_whole _) scM2 (Memref.isWhole_whole _) hc0 hc1 (qb1 V c t) (kb1 V c t) (vb1 V c t) ((dat1 V c).before 3 t d3) (stateAt V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, HS0, HS1, HS2⟩
      isplitl [HR HS0 HS1 HS2 Hg]
      · isplitr [Hg]
        · isplitl [HR]; · iexact HR
          isplitl [HS0]; · iexact HS0
          isplitl [HS1]; · iexact HS1
          iexact HS2
        iexact Hg
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Run.lean ====
/-
  The whole program run: @main as four segments (host lines, the projection call, three reshapes, the attention
  call) over the boundary contents W0 … W4; every weakly fair execution terminates without a fault, the result
  array ends at what the attention call's write-backs leave and every argument array as launched.
-/
import proofs.«425711_j52012053954870_3_alg».proof.Proof.Gen.KernelIdeal.Launch
import proofs.«425711_j52012053954870_3_alg».proof.Proof.Gen.KernelIdeal.Skeleton
import proofs.«425711_j52012053954870_3_alg».proof.Proof.Gen.KernelIdeal.Points
import proofs.«425711_j52012053954870_3_alg».proof.Proof.KI.Bounds
import proofs.«425711_j52012053954870_3_alg».proof.Proof.KI.R0Body
import proofs.«425711_j52012053954870_3_alg».proof.Proof.KI.R1Body
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data of both calls and what every core carries between segments -/

/-- Neither call has a prefetched table, so the admissible table contents are the trivial ones. -/
abbrev admH : (p : Fin 2) → (pcfgs (F := F) p).Adm := fun p => (cfgs p).toPCfg_adm

/-- The proof data of the two calls: the projection call's at the contents after the first host lines, the
    attention call's at the contents after the three reshapes. -/
def pdatsH : (p : Fin 2) → (c : Dev nD) → Dat τ (Elt F) Unit ℕ (UR sig nD τ) ℕ (Pipeline.pin (pcfgs (F := F)) admH p) c
  | ⟨0, _⟩ => fun c => dat0 (Vr1 m) c
  | ⟨1, _⟩ => fun c => dat1 (Vr3 m) c

abbrev 𝒱H : Variants := Variants.none
/-- No core waits on another: no pair carries a level. -/
abbrev LH : GSem nD τ sig → Finset Unit := fun _ => ∅
abbrev lvH : GSem nD τ sig → Unit → ℕ := fun _ _ => 0

/-- Beside the buffers a core carries its generator register at some state and the record that it owes nothing. -/
abbrev RH (c : Dev nD) : sProp 𝕄 :=
  iprop((∃ r, prngReg c r) ∗ ∃ W, owes (c : Thread nD τ) (0 : CellTallies nD τ sig Unit) W)

/-- A stretch of host lines as a segment: from every unscoped buffer at the contents W (and the carried rest) to
    every unscoped buffer at the contents the lines leave. -/
abbrev hsegH (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱H LH lvH :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RH

/-- The seven host lines before the projection call allocate nothing. -/
theorem hostOps0_freshH : (hostOps0 : List (HloOp τ sig (Elt F))).Forall fun op => op.fresh = ∅ := by
  simp only [List.Forall]; repeat' constructor
/-- The three reshapes between the calls allocate nothing. -/
theorem hostOps1_freshH : (hostOps1 : List (HloOp τ sig (Elt F))).Forall fun op => op.fresh = ∅ := by
  simp only [List.Forall]; repeat' constructor

/-- An unscoped reference of the core is one of those the carried state holds. -/
theorem mem_ucH (b : Ref sig .tc) (h : ¬ (Proc.devRef .tc b : DevRef τ sig).isScoped) :
    Proc.devRef .tc b ∈ Pipeline.ucRefs τ sig :=
  Finset.mem_filter.mpr ⟨StableHlo.devRef_mem_tcRefs b, h⟩

/-- The state after the attention call, without the debt record: every unscoped buffer at the last contents and
    the generator register at some state. -/
abbrev TnH (c : Dev nD) : sProp 𝕄 :=
  iprop(StableHlo.held (c : Thread nD τ) (Pipeline.ucRefs τ sig) (W4 m c) ∗ ∃ r, prngReg c r)

/-! ## The two calls as segments -/

set_option backward.isDefEq.respectTransparency.types false in
/-- The projection call: entered with every unscoped buffer at W1, left with them at W2. On entry the ten windows'
    arrays are split off the unscoped buffers and the others bypass the call; the generator register goes into the
    invariant and comes back; on exit the arrays, at what the write-backs left, rejoin the others. -/
def reg0H : Pipeline.RegionSeg (pcfgs (F := F)) admH (pdatsH m) () defs₀ 𝒱H LH lvH 0 where
  win := launch0.win.to₀
  block_pos := launch0.block_pos
  stage_whole := launch0.stage_whole
  K := PEmpty
  osem k := k.elim
  ho := Pipeline.OwnSemFacts.none _
  hbody c := (body_obligation0 (Vr1 m) c).loose
  hwaits := Pipeline.hwaits_of_owed_zero _ _ _ _ LH lvH 0 fun _ _ => rfl
  pre c := iprop(StableHlo.held (c : Thread nD τ) (Pipeline.ucRefs τ sig) (W1 m c) ∗ RH c)
  post c := iprop(StableHlo.held (c : Thread nD τ) (Pipeline.ucRefs τ sig) (W2 m c) ∗ RH c)
  X c := iprop(∃ r, prngReg c r)
  Y c := iprop(∃ r, prngReg c r)
  Z c := Pipeline.unscopedRest (Ix := Unit) (Name := ℕ) (U := UR sig nD τ) (Lvl := ℕ) spec0 c (Vr1 m c)
  hentry c := by
    rw [Pipeline.ownSems0_none]
    have hsplit := Pipeline.arrays_of_unscopedBufs (p := 0) (pcfgs (F := F)) admH (pdatsH m) launch0.win launch0.arr_whole c
      ((pdatsH m 0 c).share_full fun _ => rfl) (Vr1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdatsH m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdatsH m) ((pdatsH m 0 c).share_full fun _ => rfl)
      (Vr1 m c) (Vr2 m c) ((pdatsH m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention call: entered with every unscoped buffer at W3, left with them at W4. Its invariant is not
    constant: before the first point it is the scoped rest at anything with the generator register (Phi1_zero),
    between points it also pins the three scratch buffers, and after the last point it gives the scoped rest at
    anything back (Phi1_last), the scratch contents forgotten. -/
def reg1H : Pipeline.RegionSeg (pcfgs (F := F)) admH (pdatsH m) () defs₀ 𝒱H LH lvH 1 where
  win := launch1.win.to₀
  block_pos := launch1.block_pos
  stage_whole := launch1.stage_whole
  K := PEmpty
  osem k := k.elim
  ho := Pipeline.OwnSemFacts.none _
  hbody c := (body_obligation1 (Vr3 m) c).loose
  hwaits := Pipeline.hwaits_of_owed_zero _ _ _ _ LH lvH 1 fun _ _ => rfl
  pre c := iprop(StableHlo.held (c : Thread nD τ) (Pipeline.ucRefs τ sig) (W3 m c) ∗ RH c)
  post c := iprop(TnH m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Vr3 m c)
  hentry c := by
    rw [Pipeline.ownSems0_none]
    have hsplit := Pipeline.arrays_of_unscopedBufs (p := 1) (pcfgs (F := F)) admH (pdatsH m) launch1.win launch1.arr_whole c
      ((pdatsH m 1 c).share_full fun _ => rfl) (Vr3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m 1 c).Φ 0 = Pipeline.ΦA spec1 c from Phi1_zero (Vr3 m) c]; unfold Pipeline.ΦA
    iintro ⟨Hp, -, Hr⟩
    isplitl [Hr]; · iexact Hr
    iexact Hp
  hout c := by
    rw [Pipeline.ownSems0_none]
    refine (show (pdatsH m 1 c).Φ (Fin.last _) ⊢ Pipeline.ΦA spec1 c from Phi1_last (Vr3 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admH (Ix := Unit) (Name := ℕ) (U := UR sig nD τ) (Lvl := ℕ)
      launch1.win launch1.arr_whole c (pdatsH m) ((pdatsH m 1 c).share_full fun _ => rfl)
      (Vr3 m c) (Vr4 m c) ((pdatsH m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as its four segments, and the launch -/

/-- @main in order: the host lines from the launch contents, the projection call, the three reshapes from the
    contents it leaves, the attention call. -/
abbrev segsH : List (Pipeline.Seg (pcfgs (F := F)) admH (pdatsH m) () defs₀ 𝒱H LH lvH) :=
  [ .host (hsegH hostOps0 hostOps0_sub hostOps0_freshH (W0 m)),
    .region (reg0H m),
    .host (hsegH hostOps1 hostOps1_sub hostOps1_freshH (W2 m)),
    .region (reg1H m) ]

/-- @main is the run of those four segments. -/
theorem main_runH (c : Dev nD) : main (F := F) c = Pipeline.Seg.run (segsH m) := (main_chain c).trans (by chain_rfl)

set_option backward.isDefEq.respectTransparency.types false in
/-- The run, with the result array and the arguments read off the last boundary's contents. -/
theorem run_val : θ_run defs (onTc (τ := τ) (main (F := F))) ⟨m, fun _ => 0, ρ⟩ (fun r => ∀ c : Dev nD,
      r.2.mem ((c.tc : Thread nD τ).loc main_v11) = (dat1 (Vr3 m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) admH (pdatsH m) () cellOf_inj emb₁ defs₀ 𝒱H LH lvH m ρ main (segsH m)
    (fun c Q => by rw [main_runH m c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ RH c)) (Tₙ := TnH m)
    (hch := ⟨fun _ => .rfl, fun _ => .rfl, fun _ => .rfl, fun _ => .rfl, fun _ => .rfl⟩)
    (hinit := by
      refine Pipeline.initEach LH lvH fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c =>
      ⟨(h c _ (mem_ucH main_v11 (by decide))).trans (W4_main_v11 m c),
       (h c _ (mem_ucH main_arg0 (by decide))).trans (W4_main_arg0 m c),
       (h c _ (mem_ucH main_arg1 (by decide))).trans (W4_main_arg1 m c),
       (h c _ (mem_ucH main_arg2 (by decide))).trans (W4_main_arg2 m c),
       (h c _ (mem_ucH main_arg3 (by decide))).trans (W4_main_arg3 m c),
       (h c _ (mem_ucH main_arg4 (by decide))).trans (W4_main_arg4 m c),
       (h c _ (mem_ucH main_arg5 (by decide))).trans (W4_main_arg5 m c),
       (h c _ (mem_ucH main_arg6 (by decide))).trans (W4_main_arg6 m c)⟩)

end Cert.KernelIdeal.Hand

end
-- ==== Proof.Spec.lean ====
/-
  Scaled dot-product attention over B = 4, S = 2048, D = 1024, written as functions of coordinates on the extended
  reals, with no program in sight. Two spellings of one result:
  * `softOut`: per query row, the weights exp(s - M) / L with M the row's maximum score and L the sum of the
    exponentials, then the weighted sum of the value rows;
  * `flashOut`: the key axis cut into four tiles of 512; a running (m, l, acc) per row updated tile by tile
    (`rowStep`), the result acc / l after the fourth tile.
  The literals are kept as their words: the scale 1/32 and the -inf the maxima start from.
-/
import Idealize.ShloMosaic.PureOps.Ideal
import Idealize.ShloMosaic.Lib.ValueIdx

noncomputable section

namespace Attn

open Idealize.ShloMosaic

/-- The score scale 1/sqrt(1024) = 1/32 and the starting value -inf of a running maximum, as printed words. -/
abbrev scaleW : EReal := Ideal.ofBits .f32 0x3D000000#32
abbrev negInfW : EReal := Ideal.ofBits .f32 0xFF800000#32

/-- An entry of a projection: the dot product of an input row with a weight column, plus the bias entry. -/
def proj (x w : Fin 1024 → EReal) (b : EReal) : EReal := (∑ k : Fin 1024, x k * w k) + b

/-- An activation array [4, 2048, 1024], a weight matrix [1024, 1024], a bias [1024], by coordinates. -/
abbrev A3 : Type := Fin 4 → Fin 2048 → Fin 1024 → EReal
abbrev M2 : Type := Fin 1024 → Fin 1024 → EReal
abbrev B1 : Type := Fin 1024 → EReal

/-- Q, K or V: `x · W + bias` at (b, r, d). -/
def qkv (x : A3) (W : M2) (bias : B1) : A3 := fun b r d => proj (fun k => x b r k) (fun k => W k d) (bias d)

/-- The scaled score of query row `r` against key row `s` in batch `b`. -/
def score (Q K : A3) (b : Fin 4) (r s : Fin 2048) : EReal := (∑ d : Fin 1024, Q b r d * K b s d) * scaleW

/-- The running maximum after a tile of scores `s`, from the running maximum `m`. -/
def newMax (m : EReal) (s : Fin 512 → EReal) : EReal := max m (Finset.univ.fold max negInfW s)

/-- A row's running triple: maximum, normaliser, weighted sums. -/
abbrev RowSt : Type := EReal × EReal × (Fin 1024 → EReal)

/-- Before the first tile: (-inf, 0, 0). -/
def rowInit : RowSt := (negInfW, 0, fun _ => 0)

/-- One tile: scores `s` of the row against the tile's 512 keys, the tile's value rows `v`. -/
def rowStep (s : Fin 512 → EReal) (v : Fin 512 → Fin 1024 → EReal) (st : RowSt) : RowSt :=
  (newMax st.1 s,
   Ideal.exp (st.1 - newMax st.1 s) * st.2.1 + ∑ k : Fin 512, Ideal.exp (s k - newMax st.1 s),
   fun j => Ideal.exp (st.1 - newMax st.1 s) * st.2.2 j + ∑ k : Fin 512, Ideal.exp (s k - newMax st.1 s) * v k j)

/-- The triple after the four tiles. -/
def rowFinal (s : Fin 4 → Fin 512 → EReal) (v : Fin 4 → Fin 512 → Fin 1024 → EReal) : RowSt :=
  rowStep (s 3) (v 3) (rowStep (s 2) (v 2) (rowStep (s 1) (v 1) (rowStep (s 0) (v 0) rowInit)))

/-- The tiled result at column `j`: acc / l. -/
def flashRow (s : Fin 4 → Fin 512 → EReal) (v : Fin 4 → Fin 512 → Fin 1024 → EReal) (j : Fin 1024) : EReal :=
  Ideal.div ((rowFinal s v).2.2 j) (rowFinal s v).2.1

/-- Key row 512·kb + k of tile `kb`. -/
def kidx (kb : Fin 4) (k : Fin 512) : Fin 2048 := ⟨512 * kb.val + k.val, by omega⟩

/-- The tiled attention at (b, r, j). -/
def flashOut (Q K Vp : A3) (b : Fin 4) (r : Fin 2048) (j : Fin 1024) : EReal :=
  flashRow (fun kb k => score Q K b r (kidx kb k)) (fun kb k j' => Vp b (kidx kb k) j') j

/-- A row's maximum as the reference takes it: max(-inf, fold of max from -inf). -/
def rowMax (S : Fin 2048 → EReal) : EReal := max negInfW (Finset.univ.fold max negInfW S)

/-- A row's normaliser as the reference takes it: 0 + the sum of the exponentials. -/
def rowSum (S : Fin 2048 → EReal) : EReal := 0 + ∑ s : Fin 2048, Ideal.exp (S s - rowMax S)

/-- The softmax-weighted sum of the value rows at column `j`. -/
def softRow (S : Fin 2048 → EReal) (Vv : Fin 2048 → Fin 1024 → EReal) (j : Fin 1024) : EReal :=
  ∑ s : Fin 2048, Ideal.div (Ideal.exp (S s - rowMax S)) (rowSum S) * Vv s j

/-- The attention at (b, r, j), the reference's spelling. -/
def softOut (Q K Vp : A3) (b : Fin 4) (r : Fin 2048) (j : Fin 1024) : EReal :=
  softRow (fun s => score Q K b r s) (fun s j' => Vp b s j') j

/-- Every entry a real number. -/
def Real3 (x : A3) : Prop := ∀ b r d, ∃ a : ℝ, x b r d = (a : EReal)
def Real2 (W : M2) : Prop := ∀ k d, ∃ a : ℝ, W k d = (a : EReal)
def Real1 (b : B1) : Prop := ∀ d, ∃ a : ℝ, b d = (a : EReal)

end Attn

end
-- ==== Proof.KI.Val0.lean ====
/-
  What the projection call leaves in its three result arrays, at the ideal values: entry (r, j) of each is the dot
  product of row r of the flattened input with column j of the weight matrix, plus entry j of the bias row —
  the 16 row blocks of 512 written back cover the 8192 rows.
  Here: the stored block read at an index (the matrix product into the zero accumulator as a sum over the
  contraction axis, the bias row spread over the rows, the format changes the identity); each window's block as rows
  of its array (the input's row block moves with the point, the weights and bias rows are whole); what a point
  writes back as its block of the projected array; the cover of the rows by the points; the three arrays.
-/
import proofs.«425711_j52012053954870_3_alg».proof.Proof.Gen.KernelIdeal.Launch
import proofs.«425711_j52012053954870_3_alg».proof.Proof.Gen.KernelIdeal.Skeleton
import proofs.«425711_j52012053954870_3_alg».proof.Proof.Gen.KernelIdeal.Points
import proofs.«425711_j52012053954870_3_alg».proof.Proof.KI.R0Defs
import proofs.«425711_j52012053954870_3_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ
open Idealize.ShloMosaic.ValueIdx

/-! ## The payload at an index -/

/-- The two zero offsets, however spelt. -/
theorem zeroOff2 : (![0, 0] : Fin 2 → Nat) = fun _ => 0 := funext fun a => by fin_cases a <;> rfl

/-- The left operand of the [512,1024] × [1024,1024] product is read at the output's row … -/
theorem lhs_proj_0 (i : S512x1024.Idx) (q : dot_S512x1024_S1024x1024_S512x1024_1_0_0_1_n_n.contr.Idx) :
    (dot_S512x1024_S1024x1024_S512x1024_1_0_0_1_n_n.lhsIdx i q 0).val = (i 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl
/-- … and at the contraction index on its column axis; -/
theorem lhs_proj_1 (i : S512x1024.Idx) (q : dot_S512x1024_S1024x1024_S512x1024_1_0_0_1_n_n.contr.Idx) :
    (dot_S512x1024_S1024x1024_S512x1024_1_0_0_1_n_n.lhsIdx i q 1).val = (q ⟨0, by decide⟩).val :=
  dot_S512x1024_S1024x1024_S512x1024_1_0_0_1_n_n.lhsIdx_val_of_single rfl i q
/-- the right operand at the contraction index on its row axis … -/
theorem rhs_proj_0 (i : S512x1024.Idx) (q : dot_S512x1024_S1024x1024_S512x1024_1_0_0_1_n_n.contr.Idx) :
    (dot_S512x1024_S1024x1024_S512x1024_1_0_0_1_n_n.rhsIdx i q 0).val = (q ⟨0, by decide⟩).val :=
  dot_S512x1024_S1024x1024_S512x1024_1_0_0_1_n_n.rhsIdx_val_of_single rfl i q
/-- … and at the output's column. -/
theorem rhs_proj_1 (i : S512x1024.Idx) (q : dot_S512x1024_S1024x1024_S512x1024_1_0_0_1_n_n.contr.Idx) :
    (dot_S512x1024_S1024x1024_S512x1024_1_0_0_1_n_n.rhsIdx i q 1).val = (i 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl

/-- The product into the zero accumulator at (p, j): the sum over k of a(p, k) · w(k, j). -/
theorem matmul_proj_apply (a : FVec Ideal S512x1024 .bf16) (w : FVec Ideal S1024x1024 .bf16) (p : Fin 512) (j : Fin 1024) :
    matmul (F := Ideal) dot_S512x1024_S1024x1024_S512x1024_1_0_0_1_n_n none a w (constant S512x1024 .f32 0x00000000#32) (ix2 p j)
      = ∑ k : Fin 1024, a (ix2 p k) * w (ix2 k j) := by
  simp only [matmul]
  rw [Ideal.matmul_constant_zero_apply, ← Equiv.sum_comp (contrEquiv1 dot_S512x1024_S1024x1024_S512x1024_1_0_0_1_n_n 1024 rfl rfl).symm]
  refine Finset.sum_congr rfl fun k _ => ?_
  have hk := contrEquiv1_symm_val dot_S512x1024_S1024x1024_S512x1024_1_0_0_1_n_n 1024 rfl rfl k
  have el : dot_S512x1024_S1024x1024_S512x1024_1_0_0_1_n_n.lhsIdx (ix2 p j) ((contrEquiv1 dot_S512x1024_S1024x1024_S512x1024_1_0_0_1_n_n 1024 rfl rfl).symm k) = ix2 p k := funext fun a => Fin.ext (by
    match a with
    | ⟨0, _⟩ => exact lhs_proj_0 _ _
    | ⟨1, _⟩ => exact (lhs_proj_1 _ _).trans hk)
  have er : dot_S512x1024_S1024x1024_S512x1024_1_0_0_1_n_n.rhsIdx (ix2 p j) ((contrEquiv1 dot_S512x1024_S1024x1024_S512x1024_1_0_0_1_n_n 1024 rfl rfl).symm k) = ix2 k j := funext fun a => Fin.ext (by
    match a with
    | ⟨0, _⟩ => exact (rhs_proj_0 _ _).trans hk
    | ⟨1, _⟩ => exact rhs_proj_1 _ _)
  rw [el, er]

/-- The bias row spread over the 512 rows reads its entry of the column. -/
theorem bias_apply (b : FVec Ideal S1x1024 .f32) (p : Fin 512) (j : Fin 1024) :
    broadcastTo S512x1024 b broadcasts_S1x1024_S512x1024 (ix2 p j) = b (ix2 0 j) := by
  refine broadcastTo_apply b broadcasts_S1x1024_S512x1024 (ix2 p j) (ix2 0 j) fun a => ?_
  match a with
  | ⟨0, _⟩ => rfl
  | ⟨1, _⟩ => rfl

/-- The Q payload at (p, j): row p of the block against column j of the weights, plus the bias entry. -/
theorem pay2_apply (x : Vec Ideal S512x1024 .f32) (w : Vec Ideal S1024x1024 .bf16) (b : Vec Ideal S1x1024 .f32) (p : Fin 512) (j : Fin 1024) :
    k0_pay2 (F := Ideal) x w b (ix2 p j) = (∑ k : Fin 1024, x (ix2 p k) * w (ix2 k j)) + b (ix2 0 j) := by
  unfold k0_pay2 k0_pay1
  simp only [shapeCast_self]
  refine (truncf_apply (φ := .f32) (ψ := .bf16) _ bitsLt_bf16_f32 (ix2 p j)).trans ?_
  refine (addf_apply _ _ (ix2 p j)).trans ?_
  refine congrArg₂ (· + ·) ?_ (bias_apply b p j)
  exact matmul_proj_apply (truncf .bf16 x bitsLt_bf16_f32) w p j

/-! ## The target array and the blocks -/

/-- The projection of the array `A0` by the weights `W` and the bias row `B`, entry by entry. -/
abbrev projArr (A0 : S8192x1024.Idx → EReal) (W : S1024x1024.Idx → EReal) (B : S1x1024.Idx → EReal) : S8192x1024.Idx → EReal :=
  fun i => Attn.proj (fun k => A0 (ix2 (i 0) k)) (fun k => W (ix2 k (i 1))) (B (ix2 0 (i 1)))

/-- A payload over a row block that is rows 512·T … of `A0`, at block index `y`, is the projection of `A0` at the
    array index `i` = (512·T + y₀, y₁). -/
theorem pay2_at (A0 : S8192x1024.Idx → EReal) (W : S1024x1024.Idx → EReal) (B : S1x1024.Idx → EReal)
    (x : Vec Ideal S512x1024 .f32) (w : Vec Ideal S1024x1024 .bf16) (b : Vec Ideal S1x1024 .f32) (T : Nat)
    (hx : ∀ (y : S512x1024.Idx) (k : S8192x1024.Idx), (k 0).val = 512 * T + (y 0).val → (k 1).val = (y 1).val → x y = A0 k)
    (hw : w = W) (hb : b = B)
    (y : S512x1024.Idx) (i : S8192x1024.Idx) (hi0 : (i 0).val = 512 * T + (y 0).val) (hi1 : (i 1).val = (y 1).val) :
    k0_pay2 (F := Ideal) x w b y = projArr A0 W B i := by
  subst hw hb
  obtain ⟨p, j, rfl⟩ : ∃ (p : Fin 512) (j : Fin 1024), y = ix2 p j := ⟨y 0, y 1, eq_ix2 y⟩
  obtain ⟨r, j', rfl⟩ : ∃ (r : Fin 8192) (j' : Fin 1024), i = ix2 r j' := ⟨i 0, i 1, eq_ix2 i⟩
  obtain rfl : j' = j := Fin.ext hi1
  rw [pay2_apply]
  show _ = (∑ k : Fin 1024, A0 (ix2 r k) * w (ix2 k j')) + b (ix2 0 j')
  refine congrArg (· + b (ix2 0 j')) (Finset.sum_congr rfl fun k _ => ?_)
  rw [hx (ix2 p k) (ix2 r k) hi0 rfl]

variable (V : (c : Dev nD) → (b : Ref sig .tc) → Buf (Elt Ideal) ((c : Thread nD τ).loc b))

/-- The windows' index maps over the 16 points: the input's row block is block (t, 0) … -/
theorem idx_in0 : ∀ t : Fin cfg0.N, win0_0.index t (0 : Fin 2) = t.val ∧ win0_0.index t (1 : Fin 2) = 0 :=
  (by decide +kernel : ∀ t : Fin grid0.N, _)
/-- … each weight matrix and each bias row is block (0, 0) at every point … -/
theorem idx_par0 : ∀ t : Fin cfg0.N,
    win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)
/-- … and each result's row block is block (t, 0). -/
theorem idx_out0 : ∀ t : Fin cfg0.N,
    win0_7.index t (0 : Fin 2) = t.val ∧ win0_7.index t (1 : Fin 2) = 0
    ∧ win0_8.index t (0 : Fin 2) = t.val ∧ win0_8.index t (1 : Fin 2) = 0
    ∧ win0_9.index t (0 : Fin 2) = t.val ∧ win0_9.index t (1 : Fin 2) = 0 :=
  (by decide +kernel : ∀ t : Fin grid0.N, _)

/-- The input window's block at point `t` is rows 512·t … 512·t + 511 of the input array. -/
theorem xb0_apply (c : Dev nD) (t : Fin cfg0.N) (y : S512x1024.Idx) (k : S8192x1024.Idx)
    (hk0 : (k 0).val = 512 * t.val + (y 0).val) (hk1 : (k 1).val = (y 1).val) :
    (xb0 V c t) y = (V c main_v0 : S8192x1024.Idx → EReal) k := by
  have hi := idx_in0 t
  unfold xb0 iblk0
  rw [View.read_apply]
  show V c main_v0 _ = V c main_v0 _
  congr 1
  funext a
  apply Fin.ext
  match a with
  | ⟨0, _⟩ => show win0_0.index t 0 * 512 + 1 * (y 0).val = (k 0).val; rw [hi.1, hk0]; omega
  | ⟨1, _⟩ => show win0_0.index t 1 * 1024 + 1 * (y 1).val = (k 1).val; rw [hi.2, hk1]; omega

/-- The weight windows' blocks are the whole weight arrays … -/
theorem wq0_eq (c : Dev nD) (t : Fin cfg0.N) : (wq0 V c t) = (V c main_v1 : S1024x1024.Idx → EReal) := by
  obtain ⟨e0, e1, -⟩ := idx_par0 t
  funext y
  unfold wq0 iblk0
  rw [View.read_apply]
  show V c main_v1 _ = V c main_v1 _
  congr 1
  funext a
  apply Fin.ext
  match a with
  | ⟨0, _⟩ => show win0_1.index t 0 * 1024 + 1 * (y 0).val = (y 0).val; rw [e0]; omega
  | ⟨1, _⟩ => show win0_1.index t 1 * 1024 + 1 * (y 1).val = (y 1).val; rw [e1]; omega
theorem wk0_eq (c : Dev nD) (t : Fin cfg0.N) : (wk0 V c t) = (V c main_v2 : S1024x1024.Idx → EReal) := by
  obtain ⟨-, -, -, -, e0, e1, -⟩ := idx_par0 t
  funext y
  unfold wk0 iblk0
  rw [View.read_apply]
  show V c main_v2 _ = V c main_v2 _
  congr 1
  funext a
  apply Fin.ext
  match a with
  | ⟨0, _⟩ => show win0_3.index t 0 * 1024 + 1 * (y 0).val = (y 0).val; rw [e0]; omega
  | ⟨1, _⟩ => show win0_3.index t 1 * 1024 + 1 * (y 1).val = (y 1).val; rw [e1]; omega
theorem wv0_eq (c : Dev nD) (t : Fin cfg0.N) : (wv0 V c t) = (V c main_v3 : S1024x1024.Idx → EReal) := by
  obtain ⟨-, -, -, -, -, -, -, -, e0, e1, -⟩ := idx_par0 t
  funext y
  unfold wv0 iblk0
  rw [View.read_apply]
  show V c main_v3 _ = V c main_v3 _
  congr 1
  funext a
  apply Fin.ext
  match a with
  | ⟨0, _⟩ => show win0_5.index t 0 * 1024 + 1 * (y 0).val = (y 0).val; rw [e0]; omega
  | ⟨1, _⟩ => show win0_5.index t 1 * 1024 + 1 * (y 1).val = (y 1).val; rw [e1]; omega

/-- … and the bias windows' blocks the whole bias rows. -/
theorem bq0_eq (c : Dev nD) (t : Fin cfg0.N) : (bq0 V c t) = (V c main_v4 : S1x1024.Idx → EReal) := by
  obtain ⟨-, -, e0, e1, -⟩ := idx_par0 t
  funext y
  unfold bq0 iblk0
  rw [View.read_apply]
  show V c main_v4 _ = V c main_v4 _
  congr 1
  funext a
  apply Fin.ext
  match a with
  | ⟨0, _⟩ => show win0_2.index t 0 * 1 + 1 * (y 0).val = (y 0).val; rw [e0]; omega
  | ⟨1, _⟩ => show win0_2.index t 1 * 1024 + 1 * (y 1).val = (y 1).val; rw [e1]; omega
theorem bk0_eq (c : Dev nD) (t : Fin cfg0.N) : (bk0 V c t) = (V c main_v5 : S1x1024.Idx → EReal) := by
  obtain ⟨-, -, -, -, -, -, e0, e1, -⟩ := idx_par0 t
  funext y
  unfold bk0 iblk0
  rw [View.read_apply]
  show V c main_v5 _ = V c main_v5 _
  congr 1
  funext a
  apply Fin.ext
  match a with
  | ⟨0, _⟩ => show win0_4.index t 0 * 1 + 1 * (y 0).val = (y 0).val; rw [e0]; omega
  | ⟨1, _⟩ => show win0_4.index t 1 * 1024 + 1 * (y 1).val = (y 1).val; rw [e1]; omega
theorem bv0_eq (c : Dev nD) (t : Fin cfg0.N) : (bv0 V c t) = (V c main_v6 : S1x1024.Idx → EReal) := by
  obtain ⟨-, -, -, -, -, -, -, -, -, -, e0, e1⟩ := idx_par0 t
  funext y
  unfold bv0 iblk0
  rw [View.read_apply]
  show V c main_v6 _ = V c main_v6 _
  congr 1
  funext a
  apply Fin.ext
  match a with
  | ⟨0, _⟩ => show win0_6.index t 0 * 1 + 1 * (y 0).val = (y 0).val; rw [e0]; omega
  | ⟨1, _⟩ => show win0_6.index t 1 * 1024 + 1 * (y 1).val = (y 1).val; rw [e1]; omega

/-! ## What each point writes back, the cover, the arrays -/

/-- The K and V payloads are the same operations as the Q payload, over their own weights and bias. -/
theorem pay3_eq (x : Vec Ideal S512x1024 .f32) (w : Vec Ideal S1024x1024 .bf16) (b : Vec Ideal S1x1024 .f32) :
    k0_pay3 (F := Ideal) x w b = k0_pay2 (F := Ideal) x w b := rfl
theorem pay4_eq (x : Vec Ideal S512x1024 .f32) (w : Vec Ideal S1024x1024 .bf16) (b : Vec Ideal S1x1024 .f32) :
    k0_pay4 (F := Ideal) x w b = k0_pay2 (F := Ideal) x w b := rfl

/-- What point `t` writes back into the Q array is block `t` of the projection by Wq and bq. -/
theorem flushed7_eq (c : Dev nD) (t : Fin cfg0.N) :
    (dat0 (F := Ideal) V c).flushed 7 t
      = ((cfg0.win 7).blk t).view.read (Elt Ideal) (projArr (V c main_v0) (V c main_v1) (V c main_v4)) := by
  show (cfg0.win 7).cut (grid0.coords t) ((dat0 (F := Ideal) V c).after 7 t) = _
  rw [after0_7]
  unfold out0_7
  rw [View.canon_unit_zero zeroOff2]
  simp only [View.ld_unit_zero (S := S512x1024) zeroOff2, View.ld_unit_zero (S := S1024x1024) zeroOff2, View.ld_unit_zero (S := S1x1024) zeroOff2]
  obtain ⟨e0, e1, -⟩ := idx_out0 t
  funext y
  show k0_pay2 (xb0 V c t) (wq0 V c t) (bq0 V c t) y = projArr (V c main_v0) (V c main_v1) (V c main_v4) (((cfg0.win 7).blk t).view.emb y)
  refine pay2_at (V c main_v0) (V c main_v1) (V c main_v4) (xb0 V c t) (wq0 V c t) (bq0 V c t) t.val (fun y k h0 h1 => xb0_apply V c t y k h0 h1) (wq0_eq V c t) (bq0_eq V c t) y _ ?_ ?_
  · show win0_7.index t 0 * 512 + 1 * (y 0).val = 512 * t.val + (y 0).val
    rw [e0]; omega
  · show win0_7.index t 1 * 1024 + 1 * (y 1).val = (y 1).val
    rw [e1]; omega

/-- An index of the Q array is in point `t`'s block iff each coordinate is in the block's range on its axis. -/
theorem mem_blk7 (t : Fin cfg0.N) (i : S8192x1024.Idx) :
    i ∈ ((cfg0.win 7).blk t).view.set ↔ ∀ a : Fin 2, win0_7.index t a * S512x1024.size a ≤ (i a).val ∧ (i a).val < win0_7.index t a * S512x1024.size a + S512x1024.size a := by
  show i ∈ ((View.whole main_v7_0).slice (win0_7.rect t)).set ↔ _
  rw [View.set_slice_whole, Rect.mem_set_unit]
  exact Iff.rfl

/-- Row r of the Q array is in the block of point r / 512, which writes it back. -/
theorem cover7 (i : S8192x1024.Idx) : ∃ t : Fin cfg0.N, (cfg0.win 7).flush t = true ∧ i ∈ ((cfg0.win 7).blk t).view.set := by
  have hi0 : (i 0).val < 8192 := (i 0).isLt
  have hi1 : (i 1).val < 1024 := (i 1).isLt
  have hN : cfg0.N = 16 := N_0
  have hq : (i 0).val / 512 < cfg0.N := by rw [hN]; omega
  obtain ⟨e0, e1, -⟩ := idx_out0 ⟨(i 0).val / 512, hq⟩
  have e0' : win0_7.index ⟨(i 0).val / 512, hq⟩ (0 : Fin 2) = (i 0).val / 512 := e0
  refine ⟨⟨(i 0).val / 512, hq⟩, flush0_7 _, ?_⟩
  rw [mem_blk7]
  intro a
  match a with
  | ⟨0, _⟩ =>
    show win0_7.index ⟨(i 0).val / 512, hq⟩ (0 : Fin 2) * 512 ≤ (i 0).val ∧ (i 0).val < win0_7.index ⟨(i 0).val / 512, hq⟩ (0 : Fin 2) * 512 + 512
    rw [e0']; omega
  | ⟨1, _⟩ =>
    show win0_7.index ⟨(i 0).val / 512, hq⟩ (1 : Fin 2) * 1024 ≤ (i 1).val ∧ (i 1).val < win0_7.index ⟨(i 0).val / 512, hq⟩ (1 : Fin 2) * 1024 + 1024
    rw [e1]; omega

/-- Q: the input against Wq (array main_v1) and bq (array main_v4). -/
theorem arr7 (c : Dev nD) : ((dat0 (F := Ideal) V c).arrAt 7 cfg0.N : S8192x1024.Idx → EReal)
    = fun i => Attn.proj (fun k => (V c main_v0 : S8192x1024.Idx → EReal) (ix2 (i 0) k)) (fun k => (V c main_v1 : S1024x1024.Idx → EReal) (ix2 k (i 1))) ((V c main_v4 : S1x1024.Idx → EReal) (ix2 0 (i 1))) :=
  (dat0 (F := Ideal) V c).arrAt_eq_of_cover 7 (projArr (V c main_v0) (V c main_v1) (V c main_v4)) (fun t _ => flushed7_eq V c t) cover7

/-- What point `t` writes back into the K array is block `t` of the projection by Wk and bk. -/
theorem flushed8_eq (c : Dev nD) (t : Fin cfg0.N) :
    (dat0 (F := Ideal) V c).flushed 8 t
      = ((cfg0.win 8).blk t).view.read (Elt Ideal) (projArr (V c main_v0) (V c main_v2) (V c main_v5)) := by
  show (cfg0.win 8).cut (grid0.coords t) ((dat0 (F := Ideal) V c).after 8 t) = _
  rw [after0_8]
  unfold out0_8
  rw [View.canon_unit_zero zeroOff2]
  simp only [View.ld_unit_zero (S := S512x1024) zeroOff2, View.ld_unit_zero (S := S1024x1024) zeroOff2, View.ld_unit_zero (S := S1x1024) zeroOff2]
  obtain ⟨-, -, e0, e1, -⟩ := idx_out0 t
  funext y
  show k0_pay3 (xb0 V c t) (wk0 V c t) (bk0 V c t) y = projArr (V c main_v0) (V c main_v2) (V c main_v5) (((cfg0.win 8).blk t).view.emb y)
  refine (congrFun (pay3_eq (xb0 V c t) (wk0 V c t) (bk0 V c t)) y).trans ?_
  refine pay2_at (V c main_v0) (V c main_v2) (V c main_v5) (xb0 V c t) (wk0 V c t) (bk0 V c t) t.val (fun y k h0 h1 => xb0_apply V c t y k h0 h1) (wk0_eq V c t) (bk0_eq V c t) y _ ?_ ?_
  · show win0_8.index t 0 * 512 + 1 * (y 0).val = 512 * t.val + (y 0).val
    rw [e0]; omega
  · show win0_8.index t 1 * 1024 + 1 * (y 1).val = (y 1).val
    rw [e1]; omega

/-- An index of the K array is in point `t`'s block iff each coordinate is in the block's range on its axis. -/
theorem mem_blk8 (t : Fin cfg0.N) (i : S8192x1024.Idx) :
    i ∈ ((cfg0.win 8).blk t).view.set ↔ ∀ a : Fin 2, win0_8.index t a * S512x1024.size a ≤ (i a).val ∧ (i a).val < win0_8.index t a * S512x1024.size a + S512x1024.size a := by
  show i ∈ ((View.whole main_v7_1).slice (win0_8.rect t)).set ↔ _
  rw [View.set_slice_whole, Rect.mem_set_unit]
  exact Iff.rfl

/-- Row r of the K array is in the block of point r / 512, which writes it back. -/
theorem cover8 (i : S8192x1024.Idx) : ∃ t : Fin cfg0.N, (cfg0.win 8).flush t = true ∧ i ∈ ((cfg0.win 8).blk t).view.set := by
  have hi0 : (i 0).val < 8192 := (i 0).isLt
  have hi1 : (i 1).val < 1024 := (i 1).isLt
  have hN : cfg0.N = 16 := N_0
  have hq : (i 0).val / 512 < cfg0.N := by rw [hN]; omega
  obtain ⟨-, -, e0, e1, -⟩ := idx_out0 ⟨(i 0).val / 512, hq⟩
  have e0' : win0_8.index ⟨(i 0).val / 512, hq⟩ (0 : Fin 2) = (i 0).val / 512 := e0
  refine ⟨⟨(i 0).val / 512, hq⟩, flush0_8 _, ?_⟩
  rw [mem_blk8]
  intro a
  match a with
  | ⟨0, _⟩ =>
    show win0_8.index ⟨(i 0).val / 512, hq⟩ (0 : Fin 2) * 512 ≤ (i 0).val ∧ (i 0).val < win0_8.index ⟨(i 0).val / 512, hq⟩ (0 : Fin 2) * 512 + 512
    rw [e0']; omega
  | ⟨1, _⟩ =>
    show win0_8.index ⟨(i 0).val / 512, hq⟩ (1 : Fin 2) * 1024 ≤ (i 1).val ∧ (i 1).val < win0_8.index ⟨(i 0).val / 512, hq⟩ (1 : Fin 2) * 1024 + 1024
    rw [e1]; omega

/-- K: the input against Wk (array main_v2) and bk (array main_v5). -/
theorem arr8 (c : Dev nD) : ((dat0 (F := Ideal) V c).arrAt 8 cfg0.N : S8192x1024.Idx → EReal)
    = fun i => Attn.proj (fun k => (V c main_v0 : S8192x1024.Idx → EReal) (ix2 (i 0) k)) (fun k => (V c main_v2 : S1024x1024.Idx → EReal) (ix2 k (i 1))) ((V c main_v5 : S1x1024.Idx → EReal) (ix2 0 (i 1))) :=
  (dat0 (F := Ideal) V c).arrAt_eq_of_cover 8 (projArr (V c main_v0) (V c main_v2) (V c main_v5)) (fun t _ => flushed8_eq V c t) cover8

/-- What point `t` writes back into the V array is block `t` of the projection by Wv and bv. -/
theorem flushed9_eq (c : Dev nD) (t : Fin cfg0.N) :
    (dat0 (F := Ideal) V c).flushed 9 t
      = ((cfg0.win 9).blk t).view.read (Elt Ideal) (projArr (V c main_v0) (V c main_v3) (V c main_v6)) := by
  show (cfg0.win 9).cut (grid0.coords t) ((dat0 (F := Ideal) V c).after 9 t) = _
  rw [after0_9]
  unfold out0_9
  rw [View.canon_unit_zero zeroOff2]
  simp only [View.ld_unit_zero (S := S512x1024) zeroOff2, View.ld_unit_zero (S := S1024x1024) zeroOff2, View.ld_unit_zero (S := S1x1024) zeroOff2]
  obtain ⟨-, -, -, -, e0, e1⟩ := idx_out0 t
  funext y
  show k0_pay4 (xb0 V c t) (wv0 V c t) (bv0 V c t) y = projArr (V c main_v0) (V c main_v3) (V c main_v6) (((cfg0.win 9).blk t).view.emb y)
  refine (congrFun (pay4_eq (xb0 V c t) (wv0 V c t) (bv0 V c t)) y).trans ?_
  refine pay2_at (V c main_v0) (V c main_v3) (V c main_v6) (xb0 V c t) (wv0 V c t) (bv0 V c t) t.val (fun y k h0 h1 => xb0_apply V c t y k h0 h1) (wv0_eq V c t) (bv0_eq V c t) y _ ?_ ?_
  · show win0_9.index t 0 * 512 + 1 * (y 0).val = 512 * t.val + (y 0).val
    rw [e0]; omega
  · show win0_9.index t 1 * 1024 + 1 * (y 1).val = (y 1).val
    rw [e1]; omega

/-- An index of the V array is in point `t`'s block iff each coordinate is in the block's range on its axis. -/
theorem mem_blk9 (t : Fin cfg0.N) (i : S8192x1024.Idx) :
    i ∈ ((cfg0.win 9).blk t).view.set ↔ ∀ a : Fin 2, win0_9.index t a * S512x1024.size a ≤ (i a).val ∧ (i a).val < win0_9.index t a * S512x1024.size a + S512x1024.size a := by
  show i ∈ ((View.whole main_v7_2).slice (win0_9.rect t)).set ↔ _
  rw [View.set_slice_whole, Rect.mem_set_unit]
  exact Iff.rfl

/-- Row r of the V array is in the block of point r / 512, which writes it back. -/
theorem cover9 (i : S8192x1024.Idx) : ∃ t : Fin cfg0.N, (cfg0.win 9).flush t = true ∧ i ∈ ((cfg0.win 9).blk t).view.set := by
  have hi0 : (i 0).val < 8192 := (i 0).isLt
  have hi1 : (i 1).val < 1024 := (i 1).isLt
  have hN : cfg0.N = 16 := N_0
  have hq : (i 0).val / 512 < cfg0.N := by rw [hN]; omega
  obtain ⟨-, -, -, -, e0, e1⟩ := idx_out0 ⟨(i 0).val / 512, hq⟩
  have e0' : win0_9.index ⟨(i 0).val / 512, hq⟩ (0 : Fin 2) = (i 0).val / 512 := e0
  refine ⟨⟨(i 0).val / 512, hq⟩, flush0_9 _, ?_⟩
  rw [mem_blk9]
  intro a
  match a with
  | ⟨0, _⟩ =>
    show win0_9.index ⟨(i 0).val / 512, hq⟩ (0 : Fin 2) * 512 ≤ (i 0).val ∧ (i 0).val < win0_9.index ⟨(i 0).val / 512, hq⟩ (0 : Fin 2) * 512 + 512
    rw [e0']; omega
  | ⟨1, _⟩ =>
    show win0_9.index ⟨(i 0).val / 512, hq⟩ (1 : Fin 2) * 1024 ≤ (i 1).val ∧ (i 1).val < win0_9.index ⟨(i 0).val / 512, hq⟩ (1 : Fin 2) * 1024 + 1024
    rw [e1]; omega

/-- V: the input against Wv (array main_v3) and bv (array main_v6). -/
theorem arr9 (c : Dev nD) : ((dat0 (F := Ideal) V c).arrAt 9 cfg0.N : S8192x1024.Idx → EReal)
    = fun i => Attn.proj (fun k => (V c main_v0 : S8192x1024.Idx → EReal) (ix2 (i 0) k)) (fun k => (V c main_v3 : S1024x1024.Idx → EReal) (ix2 k (i 1))) ((V c main_v6 : S1x1024.Idx → EReal) (ix2 0 (i 1))) :=
  (dat0 (F := Ideal) V c).arrAt_eq_of_cover 9 (projArr (V c main_v0) (V c main_v3) (V c main_v6)) (fun t _ => flushed9_eq V c t) cover9

end Cert.KernelIdeal.Hand

end
-- ==== Proof.KI.Val1Step.lean ====
/-
  One update step of the attention body read row by row at the ideal values: row p of the new triple
  (m', l', acc') is the specification's `rowStep` of row p of the old one, over the row's 512 scaled scores
  against the key tile and the value tile's rows; the reset values are `rowInit` on every row; and the output
  store is acc / l entry by entry.
-/
import proofs.«425711_j52012053954870_3_alg».proof.Proof.Gen.KernelIdeal.Launch
import proofs.«425711_j52012053954870_3_alg».proof.Proof.Gen.KernelIdeal.Skeleton
import proofs.«425711_j52012053954870_3_alg».proof.Proof.Gen.KernelIdeal.Points
import proofs.«425711_j52012053954870_3_alg».proof.Proof.KI.R1Defs
import proofs.«425711_j52012053954870_3_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ
open Idealize.ShloMosaic.ValueIdx

/-- Row `p` of a carried triple. -/
def rowOf (s : St Ideal) (p : Fin 1024) : Attn.RowSt :=
  ((s.1 : S1024x1.Idx → EReal) (ix2 p 0), (s.2.1 : S1024x1.Idx → EReal) (ix2 p 0), fun j => (s.2.2 : S1024x1024.Idx → EReal) (ix2 p j))

/-- The scaled scores of query row `p` of the tile `q` against the 512 key rows of the tile `k`. -/
def tileScore (q : Vec Ideal S1x1024x1024 .bf16) (k : Vec Ideal S1x512x1024 .bf16) (p : Fin 1024) (kk : Fin 512) : EReal :=
  (∑ d : Fin 1024, (q : S1x1024x1024.Idx → EReal) (ix3 0 p d) * (k : S1x512x1024.Idx → EReal) (ix3 0 kk d)) * Attn.scaleW

/-! ## The two column forms of a layout change -/

/-- A vector [a] cast to the column [a, 1] reads, at (i, u), the vector at i. -/
theorem colCast_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column [a, 1] broadcast to [a, b] reads, at (i, c), the column's entry of row i. -/
theorem colBroadcast_apply {α : Type} {a b : ℕ} (x : (⟨2, ![a, 1]⟩ : Shape).Idx → α)
    (h : (⟨2, ![a, 1]⟩ : Shape).Broadcasts ⟨2, ![a, b]⟩) (i : Fin a) (c : Fin b) :
    broadcastTo ⟨2, ![a, b]⟩ x h (ix2 i c) = x (ix2 i (0 : Fin 1)) := by
  refine broadcastTo_apply x h (ix2 i c) (ix2 i (0 : Fin 1)) fun ax => ?_
  match ax with
  | ⟨0, _⟩ =>
    show i.val = if a = 1 then 0 else i.val
    split
    · have := i.isLt; omega
    · rfl
  | ⟨1, _⟩ => rfl

/-! ## The lane reductions of a [1024, 512] block, read at a row -/

/-- The source index the reduction over the lanes puts over row p at lane kk is (p, kk). -/
theorem lift_row (h : S1024x512.Reduces [1] S1024) (p : Fin 1024) (kk : Fin 512) :
    h.lift (ix1 p) kk = ix2 p kk := by
  funext c
  refine Fin.ext ?_
  match c with
  | ⟨0, _⟩ => rfl
  | ⟨1, _⟩ => rfl

/-- The lane maximum at row p: the fold of max from -inf over the row's 512 entries. -/
theorem rowMax_apply (src : FVec Ideal S1024x512 .f32) (h : S1024x512.Reduces [1] S1024) (hφ : FKind.Formats .f32)
    (hacc : (0xFF800000#32 : BitVec FTy.f32.bits) = FKind.maximumf.neutral .f32 hφ) (p : Fin 1024) :
    multiReduction (F := Ideal) .maximumf [1] S1024 src 0xFF800000#32 h hφ hacc (ix1 p)
      = (Finset.univ : Finset (Fin 512)).fold max Attn.negInfW (fun kk => src (ix2 p kk)) := by
  refine (Ideal.multiReduction_maximumf_single src 0xFF800000#32 h hφ hacc (ix1 p)).trans ?_
  show (Finset.univ : Finset (Fin 512)).fold max Attn.negInfW (fun kk => src (h.lift (ix1 p) kk)) = _
  exact congrArg (fun f => (Finset.univ : Finset (Fin 512)).fold max Attn.negInfW f) (funext fun kk => congrArg src (lift_row h p kk))

/-- The lane sum at row p: the sum of the row's 512 entries. -/
theorem rowSum_apply (src : FVec Ideal S1024x512 .f32) (h : S1024x512.Reduces [1] S1024) (hφ : FKind.Formats .f32)
    (hacc : (0x00000000#32 : BitVec FTy.f32.bits) = FKind.add.neutral .f32 hφ) (p : Fin 1024) :
    multiReduction (F := Ideal) .add [1] S1024 src 0x00000000#32 h hφ hacc (ix1 p) = ∑ kk : Fin 512, src (ix2 p kk) := by
  refine (Ideal.multiReduction_add_single src 0x00000000#32 h hφ hacc (ix1 p)).trans ?_
  show ∑ kk : Fin 512, src (h.lift (ix1 p) kk) = _
  exact Finset.sum_congr rfl fun kk _ => congrArg src (lift_row h p kk)

/-! ## The two matrix products read at an index

q·kᵀ contracts the second axis of both operands; p·v is the plain product. Each operand index of the dot is read
axis by axis, then the contraction's sum is re-indexed by its one coordinate. -/

theorem qk_lhs_0 (i : S1024x512.Idx) (c : dot_S1024x1024_S512x1024_S1024x512_1_1_0_0_n_n.contr.Idx) :
    (dot_S1024x1024_S512x1024_S1024x512_1_1_0_0_n_n.lhsIdx i c 0).val = (i 0).val := by
  unfold DotDims.lhsIdx
  rw [dif_neg (show ¬(0 : Fin S1024x1024.rank) ∈ dot_S1024x1024_S512x1024_S1024x512_1_1_0_0_n_n.lhsBatch by decide), dif_pos (show (0 : Fin S1024x1024.rank) ∈ dot_S1024x1024_S512x1024_S1024x512_1_1_0_0_n_n.lhsNonContracting by decide)]
  rfl
theorem qk_lhs_1 (i : S1024x512.Idx) (c : dot_S1024x1024_S512x1024_S1024x512_1_1_0_0_n_n.contr.Idx) :
    (dot_S1024x1024_S512x1024_S1024x512_1_1_0_0_n_n.lhsIdx i c 1).val = (c ⟨0, by decide⟩).val :=
  dot_S1024x1024_S512x1024_S1024x512_1_1_0_0_n_n.lhsIdx_val_of_single rfl i c
theorem qk_rhs_0 (i : S1024x512.Idx) (c : dot_S1024x1024_S512x1024_S1024x512_1_1_0_0_n_n.contr.Idx) :
    (dot_S1024x1024_S512x1024_S1024x512_1_1_0_0_n_n.rhsIdx i c 0).val = (i 1).val := by
  unfold DotDims.rhsIdx
  rw [dif_neg (show ¬(0 : Fin S512x1024.rank) ∈ dot_S1024x1024_S512x1024_S1024x512_1_1_0_0_n_n.rhsBatch by decide), dif_pos (show (0 : Fin S512x1024.rank) ∈ dot_S1024x1024_S512x1024_S1024x512_1_1_0_0_n_n.rhsNonContracting by decide)]
  rfl
theorem qk_rhs_1 (i : S1024x512.Idx) (c : dot_S1024x1024_S512x1024_S1024x512_1_1_0_0_n_n.contr.Idx) :
    (dot_S1024x1024_S512x1024_S1024x512_1_1_0_0_n_n.rhsIdx i c 1).val = (c ⟨0, by decide⟩).val :=
  dot_S1024x1024_S512x1024_S1024x512_1_1_0_0_n_n.rhsIdx_val_of_single rfl i c

/-- q·kᵀ into the zero block, at (p, kk): the dot product of row p of the left operand with row kk of the right. -/
theorem qk_apply (a : FVec Ideal S1024x1024 .bf16) (b : FVec Ideal S512x1024 .bf16) (p : Fin 1024) (kk : Fin 512) :
    matmul dot_S1024x1024_S512x1024_S1024x512_1_1_0_0_n_n none a b (constant (F := Ideal) S1024x512 .f32 0x00000000#32) (ix2 p kk)
      = ∑ d : Fin 1024, a (ix2 p d) * b (ix2 kk d) := by
  refine (Ideal.matmul_constant_zero_apply dot_S1024x1024_S512x1024_S1024x512_1_1_0_0_n_n none a b (ix2 p kk)).trans ?_
  rw [← Equiv.sum_comp (contrEquiv1 dot_S1024x1024_S512x1024_S1024x512_1_1_0_0_n_n 1024 rfl rfl).symm]
  refine Finset.sum_congr rfl fun d _ => ?_
  have hd := contrEquiv1_symm_val dot_S1024x1024_S512x1024_S1024x512_1_1_0_0_n_n 1024 rfl rfl d
  have el : dot_S1024x1024_S512x1024_S1024x512_1_1_0_0_n_n.lhsIdx (ix2 p kk) ((contrEquiv1 dot_S1024x1024_S512x1024_S1024x512_1_1_0_0_n_n 1024 rfl rfl).symm d) = ix2 p d := funext fun ax => Fin.ext (by
    match ax with
    | ⟨0, _⟩ => exact qk_lhs_0 _ _
    | ⟨1, _⟩ => exact (qk_lhs_1 _ _).trans hd)
  have er : dot_S1024x1024_S512x1024_S1024x512_1_1_0_0_n_n.rhsIdx (ix2 p kk) ((contrEquiv1 dot_S1024x1024_S512x1024_S1024x512_1_1_0_0_n_n 1024 rfl rfl).symm d) = ix2 kk d := funext fun ax => Fin.ext (by
    match ax with
    | ⟨0, _⟩ => exact qk_rhs_0 _ _
    | ⟨1, _⟩ => exact (qk_rhs_1 _ _).trans hd)
  rw [el, er]

theorem pv_lhs_0 (i : S1024x1024.Idx) (c : dot_S1024x512_S512x1024_S1024x1024_1_0_0_1_n_n.contr.Idx) :
    (dot_S1024x512_S512x1024_S1024x1024_1_0_0_1_n_n.lhsIdx i c 0).val = (i 0).val := by
  unfold DotDims.lhsIdx
  rw [dif_neg (show ¬(0 : Fin S1024x512.rank) ∈ dot_S1024x512_S512x1024_S1024x1024_1_0_0_1_n_n.lhsBatch by decide), dif_pos (show (0 : Fin S1024x512.rank) ∈ dot_S1024x512_S512x1024_S1024x1024_1_0_0_1_n_n.lhsNonContracting by decide)]
  rfl
theorem pv_lhs_1 (i : S1024x1024.Idx) (c : dot_S1024x512_S512x1024_S1024x1024_1_0_0_1_n_n.contr.Idx) :
    (dot_S1024x512_S512x1024_S1024x1024_1_0_0_1_n_n.lhsIdx i c 1).val = (c ⟨0, by decide⟩).val :=
  dot_S1024x512_S512x1024_S1024x1024_1_0_0_1_n_n.lhsIdx_val_of_single rfl i c
theorem pv_rhs_0 (i : S1024x1024.Idx) (c : dot_S1024x512_S512x1024_S1024x1024_1_0_0_1_n_n.contr.Idx) :
    (dot_S1024x512_S512x1024_S1024x1024_1_0_0_1_n_n.rhsIdx i c 0).val = (c ⟨0, by decide⟩).val :=
  dot_S1024x512_S512x1024_S1024x1024_1_0_0_1_n_n.rhsIdx_val_of_single rfl i c
theorem pv_rhs_1 (i : S1024x1024.Idx) (c : dot_S1024x512_S512x1024_S1024x1024_1_0_0_1_n_n.contr.Idx) :
    (dot_S1024x512_S512x1024_S1024x1024_1_0_0_1_n_n.rhsIdx i c 1).val = (i 1).val := by
  unfold DotDims.rhsIdx
  rw [dif_neg (show ¬(1 : Fin S512x1024.rank) ∈ dot_S1024x512_S512x1024_S1024x1024_1_0_0_1_n_n.rhsBatch by decide), dif_pos (show (1 : Fin S512x1024.rank) ∈ dot_S1024x512_S512x1024_S1024x1024_1_0_0_1_n_n.rhsNonContracting by decide)]
  rfl

/-- p·v into the zero block, at (p, j): the sum over the 512 keys of the weight times the value entry. -/
theorem pv_apply (a : FVec Ideal S1024x512 .bf16) (b : FVec Ideal S512x1024 .bf16) (p j : Fin 1024) :
    matmul dot_S1024x512_S512x1024_S1024x1024_1_0_0_1_n_n none a b (constant (F := Ideal) S1024x1024 .f32 0x00000000#32) (ix2 p j)
      = ∑ kk : Fin 512, a (ix2 p kk) * b (ix2 kk j) := by
  refine (Ideal.matmul_constant_zero_apply dot_S1024x512_S512x1024_S1024x1024_1_0_0_1_n_n none a b (ix2 p j)).trans ?_
  rw [← Equiv.sum_comp (contrEquiv1 dot_S1024x512_S512x1024_S1024x1024_1_0_0_1_n_n 512 rfl rfl).symm]
  refine Finset.sum_congr rfl fun kk _ => ?_
  have hk := contrEquiv1_symm_val dot_S1024x512_S512x1024_S1024x1024_1_0_0_1_n_n 512 rfl rfl kk
  have el : dot_S1024x512_S512x1024_S1024x1024_1_0_0_1_n_n.lhsIdx (ix2 p j) ((contrEquiv1 dot_S1024x512_S512x1024_S1024x1024_1_0_0_1_n_n 512 rfl rfl).symm kk) = ix2 p kk := funext fun ax => Fin.ext (by
    match ax with
    | ⟨0, _⟩ => exact pv_lhs_0 _ _
    | ⟨1, _⟩ => exact (pv_lhs_1 _ _).trans hk)
  have er : dot_S1024x512_S512x1024_S1024x1024_1_0_0_1_n_n.rhsIdx (ix2 p j) ((contrEquiv1 dot_S1024x512_S512x1024_S1024x1024_1_0_0_1_n_n 512 rfl rfl).symm kk) = ix2 kk j := funext fun ax => Fin.ext (by
    match ax with
    | ⟨0, _⟩ => exact (pv_rhs_0 _ _).trans hk
    | ⟨1, _⟩ => exact pv_rhs_1 _ _)
  rw [el, er]

/-! ## The body's payloads read at an index -/

/-- The scaled score block at (p, kk). -/
theorem pay8_apply (q : Vec Ideal S1x1024x1024 .bf16) (k : Vec Ideal S1x512x1024 .bf16) (p : Fin 1024) (kk : Fin 512) :
    (k1_pay8 (F := Ideal) q k : S1024x512.Idx → EReal) (ix2 p kk) = tileScore q k p kk := by
  unfold k1_pay8 tileScore
  refine (mulf_apply _ _ _).trans ?_
  refine congrArg (fun x : EReal => x * Attn.scaleW) ?_
  refine (qk_apply _ _ p kk).trans ?_
  exact Finset.sum_congr rfl fun d _ =>
    congrArg₂ (fun x y : EReal => x * y) (shapeCast_1ab_ab_apply q _ p d) (shapeCast_1ab_ab_apply k _ kk d)

/-- The new running maximum of row p. -/
theorem pay9_apply (q : Vec Ideal S1x1024x1024 .bf16) (k : Vec Ideal S1x512x1024 .bf16) (m : Vec Ideal S1024x1 .f32) (p : Fin 1024) :
    (k1_pay9 (F := Ideal) q k m : S1024x1.Idx → EReal) (ix2 p 0)
      = Attn.newMax ((m : S1024x1.Idx → EReal) (ix2 p 0)) (tileScore q k p) := by
  unfold k1_pay9 Attn.newMax
  refine (maximumf_apply _ _ _).trans ?_
  refine congrArg (fun x : EReal => max ((m : S1024x1.Idx → EReal) (ix2 p 0)) x) ?_
  refine (colCast_apply _ _ p 0).trans ?_
  refine (rowMax_apply (k1_pay8 (F := Ideal) q k) _ _ _ p).trans ?_
  exact congrArg (fun f => (Finset.univ : Finset (Fin 512)).fold max Attn.negInfW f) (funext fun kk => pay8_apply q k p kk)

/-- The factor that rescales what row p carried: exp (old maximum - new maximum). -/
theorem pay10_apply (q : Vec Ideal S1x1024x1024 .bf16) (k : Vec Ideal S1x512x1024 .bf16) (m m' : Vec Ideal S1024x1 .f32) (p : Fin 1024) :
    (k1_pay10 (F := Ideal) q k m m' : S1024x1.Idx → EReal) (ix2 p 0)
      = Ideal.exp ((m' : S1024x1.Idx → EReal) (ix2 p 0) - Attn.newMax ((m : S1024x1.Idx → EReal) (ix2 p 0)) (tileScore q k p)) := by
  unfold k1_pay10
  show Ideal.exp ((m' : S1024x1.Idx → EReal) (ix2 p 0) - (k1_pay9 (F := Ideal) q k m : S1024x1.Idx → EReal) (ix2 p 0)) = _
  exact congrArg (fun x : EReal => Ideal.exp ((m' : S1024x1.Idx → EReal) (ix2 p 0) - x)) (pay9_apply q k m p)

/-- The weight of key kk for row p: exp (score - new maximum). -/
theorem pay11_apply (q : Vec Ideal S1x1024x1024 .bf16) (k : Vec Ideal S1x512x1024 .bf16) (m : Vec Ideal S1024x1 .f32) (p : Fin 1024) (kk : Fin 512) :
    (k1_pay11 (F := Ideal) q k m : S1024x512.Idx → EReal) (ix2 p kk)
      = Ideal.exp (tileScore q k p kk - Attn.newMax ((m : S1024x1.Idx → EReal) (ix2 p 0)) (tileScore q k p)) := by
  unfold k1_pay11
  show Ideal.exp ((k1_pay8 (F := Ideal) q k : S1024x512.Idx → EReal) (ix2 p kk)
      - broadcastTo S1024x512 (k1_pay9 (F := Ideal) q k m) broadcasts_S1024x1_S1024x512 (ix2 p kk)) = _
  exact congrArg Ideal.exp (congrArg₂ (fun x y : EReal => x - y) (pay8_apply q k p kk)
    ((colBroadcast_apply _ _ p kk).trans (pay9_apply q k m p)))

/-- The new normaliser of row p. -/
theorem pay12_apply (q : Vec Ideal S1x1024x1024 .bf16) (k : Vec Ideal S1x512x1024 .bf16) (m m' l : Vec Ideal S1024x1 .f32) (p : Fin 1024) :
    (k1_pay12 (F := Ideal) q k m m' l : S1024x1.Idx → EReal) (ix2 p 0)
      = Ideal.exp ((m' : S1024x1.Idx → EReal) (ix2 p 0) - Attn.newMax ((m : S1024x1.Idx → EReal) (ix2 p 0)) (tileScore q k p))
          * (l : S1024x1.Idx → EReal) (ix2 p 0)
        + ∑ kk : Fin 512, Ideal.exp (tileScore q k p kk - Attn.newMax ((m : S1024x1.Idx → EReal) (ix2 p 0)) (tileScore q k p)) := by
  unfold k1_pay12
  refine (congrFun (shapeCast_self _ _) _).trans ?_
  refine (addf_apply _ _ _).trans ?_
  refine congrArg₂ (fun x y : EReal => x + y) ?_ ?_
  · refine (mulf_apply _ _ _).trans ?_
    exact congrArg (fun x : EReal => x * (l : S1024x1.Idx → EReal) (ix2 p 0)) (pay10_apply q k m m' p)
  · refine (colCast_apply _ _ p 0).trans ?_
    refine (rowSum_apply (k1_pay11 (F := Ideal) q k m) _ _ _ p).trans ?_
    exact Finset.sum_congr rfl fun kk _ => pay11_apply q k m p kk

/-- The new weighted sums at (p, j), over any rescaling column, weight block and value tile. -/
theorem pay1_apply (v8 : FVec Ideal S512x1024 .bf16) (v18 : FVec Ideal S1024x1 .f32) (v21 : FVec Ideal S1024x512 .f32)
    (acc : Vec Ideal S1024x1024 .f32) (p j : Fin 1024) :
    (k1_pay1 (F := Ideal) v8 v18 v21 acc : S1024x1024.Idx → EReal) (ix2 p j)
      = (v18 : S1024x1.Idx → EReal) (ix2 p 0) * (acc : S1024x1024.Idx → EReal) (ix2 p j)
        + ∑ kk : Fin 512, (v21 : S1024x512.Idx → EReal) (ix2 p kk) * (v8 : S512x1024.Idx → EReal) (ix2 kk j) := by
  unfold k1_pay1
  refine (congrFun (shapeCast_self _ _) _).trans ?_
  refine (addf_apply _ _ _).trans ?_
  refine congrArg₂ (fun x y : EReal => x + y) ?_ ?_
  · refine (mulf_apply _ _ _).trans ?_
    exact congrArg (fun x : EReal => x * (acc : S1024x1024.Idx → EReal) (ix2 p j)) (colBroadcast_apply _ _ p j)
  · exact pv_apply _ _ p j

theorem rowOf_initS (p : Fin 1024) : rowOf (initS (F := Ideal)) p = Attn.rowInit := by
  unfold rowOf initS Attn.rowInit
  refine Prod.ext ?_ (Prod.ext ?_ (funext fun j => ?_))
  · show (k1_pay4 (F := Ideal) : S1024x1.Idx → EReal) (ix2 p 0) = Attn.negInfW
    unfold k1_pay4
    exact congrFun (shapeCast_self _ _) _
  · show (k1_pay5 (F := Ideal) : S1024x1.Idx → EReal) (ix2 p 0) = 0
    unfold k1_pay5
    exact (congrFun (shapeCast_self _ _) _).trans Ideal.ofBits_zero_f32
  · show (k1_pay6 (F := Ideal) : S1024x1024.Idx → EReal) (ix2 p j) = 0
    unfold k1_pay6
    exact (congrFun (shapeCast_self _ _) _).trans Ideal.ofBits_zero_f32

theorem rowOf_stepS (q : Vec Ideal S1x1024x1024 .bf16) (k v : Vec Ideal S1x512x1024 .bf16) (s : St Ideal) (p : Fin 1024) :
    rowOf (stepS q k v s) p
      = Attn.rowStep (tileScore q k p) (fun kk j => (v : S1x512x1024.Idx → EReal) (ix3 0 kk j)) (rowOf s p) := by
  unfold rowOf stepS Attn.rowStep
  refine Prod.ext ?_ (Prod.ext ?_ (funext fun j => ?_))
  · show (k1_pay2 (F := Ideal) (k1_pay9 q k s.1) : S1024x1.Idx → EReal) (ix2 p 0) = _
    unfold k1_pay2
    exact (congrFun (shapeCast_self _ _) _).trans (pay9_apply q k s.1 p)
  · show (k1_pay12 (F := Ideal) q k s.1 s.1 s.2.1 : S1024x1.Idx → EReal) (ix2 p 0) = _
    exact pay12_apply q k s.1 s.1 s.2.1 p
  · show (k1_pay1 (F := Ideal) (k1_pay7 v) (k1_pay10 q k s.1 s.1) (k1_pay11 q k s.1) s.2.2 : S1024x1024.Idx → EReal) (ix2 p j) = _
    refine (pay1_apply _ _ _ _ p j).trans ?_
    refine congrArg₂ (fun x y : EReal => x + y) ?_ ?_
    · exact congrArg (fun x : EReal => x * (s.2.2 : S1024x1024.Idx → EReal) (ix2 p j)) (pay10_apply q k s.1 s.1 p)
    · refine Finset.sum_congr rfl fun kk _ => ?_
      refine congrArg₂ (fun x y : EReal => x * y) (pay11_apply q k s.1 p kk) ?_
      unfold k1_pay7
      exact shapeCast_1ab_ab_apply v _ kk j

theorem pay3_apply (acc : Vec Ideal S1024x1024 .f32) (l : Vec Ideal S1024x1 .f32) (p j : Fin 1024) :
    (k1_pay3 (F := Ideal) acc l : S1x1024x1024.Idx → EReal) (ix3 0 p j)
      = Ideal.div ((acc : S1024x1024.Idx → EReal) (ix2 p j)) ((l : S1024x1.Idx → EReal) (ix2 p 0)) := by
  unfold k1_pay3
  refine (shapeCast_ab_1ab_apply _ _ 0 p j).trans ?_
  refine (divf_apply _ _ _).trans ?_
  exact congrArg (fun x : EReal => Ideal.div ((acc : S1024x1024.Idx → EReal) (ix2 p j)) x) (colBroadcast_apply _ _ p j)

end Cert.KernelIdeal.Hand

end
-- ==== Proof.KI.Val1Blocks.lean ====
/-
  The attention call's grid arithmetic and block reads at the ideal values. Point t of the 32 has batch t / 8, query
  tile (t / 4) % 2 and key tile t % 4. The query tile's row p is row 1024·qi + p of Q in batch b; the key and value
  tiles' row kk is row 512·ki + kk of K and V; the output tile's row p is row 1024·qi + p of the result array; and the
  output tiles written back at key tile 3 cover the result array.
-/
import proofs.«425711_j52012053954870_3_alg».proof.Proof.Gen.KernelIdeal.Launch
import proofs.«425711_j52012053954870_3_alg».proof.Proof.Gen.KernelIdeal.Skeleton
import proofs.«425711_j52012053954870_3_alg».proof.Proof.Gen.KernelIdeal.Points
import proofs.«425711_j52012053954870_3_alg».proof.Proof.KI.R1Conds
import proofs.«425711_j52012053954870_3_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ
open Idealize.ShloMosaic.ValueIdx

variable (V : (c : Dev nD) → (b : Ref sig .tc) → Buf (Elt Ideal) ((c : Thread nD τ).loc b))

/-- A point's batch, query tile and key tile. -/
def bOf (t : Fin cfg1.N) : Fin 4 := ⟨t.val / 8, by have := t.isLt; have h : cfg1.N = 32 := N_1; omega⟩
def qiOf (t : Fin cfg1.N) : Fin 2 := ⟨(t.val / 4) % 2, by omega⟩
def kiOf (t : Fin cfg1.N) : Fin 4 := ⟨t.val % 4, by omega⟩
/-- Row p of query tile qi; row kk of key tile ki. -/
def qRow (t : Fin cfg1.N) (p : Fin 1024) : Fin 2048 := ⟨1024 * (qiOf t).val + p.val, by have := (qiOf t).isLt; omega⟩
def kRow (t : Fin cfg1.N) (kk : Fin 512) : Fin 2048 := ⟨512 * (kiOf t).val + kk.val, by have := (kiOf t).isLt; omega⟩

/-- The block indices decided once over the 32 points: at point t the batch is t / 8, the query tile t / 4 mod 2 and
    the key tile t mod 4; the query and output windows sit at block (batch, query tile, 0), the key and value windows
    at block (batch, key tile, 0). -/
theorem tileIdx1 : ∀ t : Fin cfg1.N,
    win1_0.index t (0 : Fin 3) = t.val / 8 ∧ win1_0.index t (1 : Fin 3) = t.val / 4 % 2 ∧ win1_0.index t (2 : Fin 3) = 0
    ∧ win1_1.index t (0 : Fin 3) = t.val / 8 ∧ win1_1.index t (1 : Fin 3) = t.val % 4 ∧ win1_1.index t (2 : Fin 3) = 0
    ∧ win1_2.index t (0 : Fin 3) = t.val / 8 ∧ win1_2.index t (1 : Fin 3) = t.val % 4 ∧ win1_2.index t (2 : Fin 3) = 0
    ∧ win1_3.index t (0 : Fin 3) = t.val / 8 ∧ win1_3.index t (1 : Fin 3) = t.val / 4 % 2 ∧ win1_3.index t (2 : Fin 3) = 0 :=
  (by decide +kernel : ∀ t : Fin grid1.N, _)

theorem qb1_apply (c : Dev nD) (t : Fin cfg1.N) (p d : Fin 1024) :
    (qb1 V c t : S1x1024x1024.Idx → EReal) (ix3 0 p d) = (V c main_v8 : S4x2048x1024.Idx → EReal) (ix3 (bOf t) (qRow t p) d) := by
  obtain ⟨e0, e1, e2, -⟩ := tileIdx1 t
  show ((cfg1.win 0).blk t).view.read (Elt Ideal) (V c (Pipeline.arrRef spec1 0)) (ix3 0 p d) = _
  rw [View.read_apply]
  show V c main_v8 _ = V c main_v8 _
  congr 1
  funext a
  apply Fin.ext
  -- axis by axis: block index × block size + the coordinate inside the block
  match a with
  | ⟨0, _⟩ => show win1_0.index t (0 : Fin 3) * 1 + 1 * 0 = t.val / 8; omega
  | ⟨1, _⟩ => show win1_0.index t (1 : Fin 3) * 1024 + 1 * p.val = 1024 * (t.val / 4 % 2) + p.val; omega
  | ⟨2, _⟩ => show win1_0.index t (2 : Fin 3) * 1024 + 1 * d.val = d.val; omega

theorem kb1_apply (c : Dev nD) (t : Fin cfg1.N) (kk : Fin 512) (d : Fin 1024) :
    (kb1 V c t : S1x512x1024.Idx → EReal) (ix3 0 kk d) = (V c main_v9 : S4x2048x1024.Idx → EReal) (ix3 (bOf t) (kRow t kk) d) := by
  obtain ⟨-, -, -, e0, e1, e2, -⟩ := tileIdx1 t
  show ((cfg1.win 1).blk t).view.read (Elt Ideal) (V c (Pipeline.arrRef spec1 1)) (ix3 0 kk d) = _
  rw [View.read_apply]
  show V c main_v9 _ = V c main_v9 _
  congr 1
  funext a
  apply Fin.ext
  match a with
  | ⟨0, _⟩ => show win1_1.index t (0 : Fin 3) * 1 + 1 * 0 = t.val / 8; omega
  | ⟨1, _⟩ => show win1_1.index t (1 : Fin 3) * 512 + 1 * kk.val = 512 * (t.val % 4) + kk.val; omega
  | ⟨2, _⟩ => show win1_1.index t (2 : Fin 3) * 1024 + 1 * d.val = d.val; omega

theorem vb1_apply (c : Dev nD) (t : Fin cfg1.N) (kk : Fin 512) (d : Fin 1024) :
    (vb1 V c t : S1x512x1024.Idx → EReal) (ix3 0 kk d) = (V c main_v10 : S4x2048x1024.Idx → EReal) (ix3 (bOf t) (kRow t kk) d) := by
  obtain ⟨-, -, -, -, -, -, e0, e1, e2, -⟩ := tileIdx1 t
  show ((cfg1.win 2).blk t).view.read (Elt Ideal) (V c (Pipeline.arrRef spec1 2)) (ix3 0 kk d) = _
  rw [View.read_apply]
  show V c main_v10 _ = V c main_v10 _
  congr 1
  funext a
  apply Fin.ext
  match a with
  | ⟨0, _⟩ => show win1_2.index t (0 : Fin 3) * 1 + 1 * 0 = t.val / 8; omega
  | ⟨1, _⟩ => show win1_2.index t (1 : Fin 3) * 512 + 1 * kk.val = 512 * (t.val % 4) + kk.val; omega
  | ⟨2, _⟩ => show win1_2.index t (2 : Fin 3) * 1024 + 1 * d.val = d.val; omega

/-- The output window's block at point t, read off any array G. -/
theorem outblk_apply (c : Dev nD) (G : S4x2048x1024.Idx → EReal) (t : Fin cfg1.N) (p j : Fin 1024) :
    (((cfg1.win 3).blk t).view.read (Elt Ideal) (G : Buf (Elt Ideal) ((cfg1.win 3).arr.view.loc (c.tc : Thread nD τ))) : S1x1024x1024.Idx → EReal) (ix3 0 p j)
      = G (ix3 (bOf t) (qRow t p) j) := by
  obtain ⟨-, -, -, -, -, -, -, -, -, e0, e1, e2⟩ := tileIdx1 t
  rw [View.read_apply]
  show G _ = G _
  congr 1
  funext a
  apply Fin.ext
  match a with
  | ⟨0, _⟩ => show win1_3.index t (0 : Fin 3) * 1 + 1 * 0 = t.val / 8; omega
  | ⟨1, _⟩ => show win1_3.index t (1 : Fin 3) * 1024 + 1 * p.val = 1024 * (t.val / 4 % 2) + p.val; omega
  | ⟨2, _⟩ => show win1_3.index t (2 : Fin 3) * 1024 + 1 * j.val = j.val; omega

/-- An entry of the result array is in point t's output tile exactly when, on each axis, its coordinate lies in the
    tile's range: from block index × tile size, for tile size many. -/
theorem mem_blk3 (t : Fin cfg1.N) (i : S4x2048x1024.Idx) :
    i ∈ ((cfg1.win 3).blk t).view.set ↔ ∀ a : Fin 3, win1_3.index t a * S1x1024x1024.size a ≤ (i a).val ∧ (i a).val < win1_3.index t a * S1x1024x1024.size a + S1x1024x1024.size a := by
  show i ∈ ((View.whole main_v11).slice (win1_3.rect t)).set ↔ _
  rw [View.set_slice_whole, Rect.mem_set_unit]
  exact Iff.rfl

/-- Entry (b, r, j) lies in the output tile of point 8·b + 4·(r / 1024) + 3: that point has batch b, query tile
    r / 1024 and key tile 3, the key tile at which the output tile is written back. -/
theorem cover3_at (i : S4x2048x1024.Idx) :
    ∃ t : Fin cfg1.N, (cfg1.win 3).flush t = true ∧ i ∈ ((cfg1.win 3).blk t).view.set := by
  have hi0 : (i 0).val < 4 := (i 0).isLt
  have hi1 : (i 1).val < 2048 := (i 1).isLt
  have hi2 : (i 2).val < 1024 := (i 2).isLt
  have hN : cfg1.N = 32 := N_1
  have hlt : 8 * (i 0).val + 4 * ((i 1).val / 1024) + 3 < cfg1.N := by rw [hN]; omega
  obtain ⟨t, ht⟩ : ∃ t : Fin cfg1.N, t.val = 8 * (i 0).val + 4 * ((i 1).val / 1024) + 3 := ⟨⟨_, hlt⟩, rfl⟩
  obtain ⟨-, -, -, -, -, -, -, -, -, e0, e1, e2⟩ := tileIdx1 t
  refine ⟨t, (flush1_3 t).2 (by omega), ?_⟩
  rw [mem_blk3]
  intro a
  match a with
  | ⟨0, _⟩ => show win1_3.index t (0 : Fin 3) * 1 ≤ (i 0).val ∧ (i 0).val < win1_3.index t (0 : Fin 3) * 1 + 1; omega
  | ⟨1, _⟩ => show win1_3.index t (1 : Fin 3) * 1024 ≤ (i 1).val ∧ (i 1).val < win1_3.index t (1 : Fin 3) * 1024 + 1024; omega
  | ⟨2, _⟩ => show win1_3.index t (2 : Fin 3) * 1024 ≤ (i 2).val ∧ (i 2).val < win1_3.index t (2 : Fin 3) * 1024 + 1024; omega

/-- Every entry of the result array lies in the output tile of a point that writes it back. -/
theorem cover3 (c : Dev nD) (i : ((cfg1.win 3).arr.view.loc (c.tc : Thread nD τ)).2.ty.Idx) :
    ∃ t : Fin cfg1.N, (cfg1.win 3).flush t = true ∧ i ∈ ((cfg1.win 3).blk t).view.set := by
  exact cover3_at i

end Cert.KernelIdeal.Hand

end
-- ==== Proof.KI.Val1.lean ====
/-
  What the attention call leaves in its result array, at the ideal values: entry (b, r, j) is the tiled attention
  `flashOut` of the arrays Q, K, V the call finds (main_v8, main_v9, main_v10) — the triple after the fourth key
  tile of a (batch, query tile) group is four steps from the reset values, and the eight output tiles written
  back at key tile 3 cover the array.
-/
import proofs.«425711_j52012053954870_3_alg».proof.Proof.Gen.KernelIdeal.Launch
import proofs.«425711_j52012053954870_3_alg».proof.Proof.Gen.KernelIdeal.Skeleton
import proofs.«425711_j52012053954870_3_alg».proof.Proof.Gen.KernelIdeal.Points
import proofs.«425711_j52012053954870_3_alg».proof.Proof.KI.R1Conds
import proofs.«425711_j52012053954870_3_alg».proof.Proof.KI.Val1Step
import proofs.«425711_j52012053954870_3_alg».proof.Proof.KI.Val1Blocks
import proofs.«425711_j52012053954870_3_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ
open Idealize.ShloMosaic.ValueIdx

variable (V : (c : Dev nD) → (b : Ref sig .tc) → Buf (Elt Ideal) ((c : Thread nD τ).loc b))

/-- The three arrays the call reads, by coordinates. -/
abbrev arr3Q (c : Dev nD) : Attn.A3 := fun b r d => (V c main_v8 : S4x2048x1024.Idx → EReal) (ix3 b r d)
abbrev arr3K (c : Dev nD) : Attn.A3 := fun b r d => (V c main_v9 : S4x2048x1024.Idx → EReal) (ix3 b r d)
abbrev arr3V (c : Dev nD) : Attn.A3 := fun b r d => (V c main_v10 : S4x2048x1024.Idx → EReal) (ix3 b r d)

/-- The scores of row p of the query tile at point t against its key tile are the scores of row 1024·qi + p of Q
    against rows 512·ki … 512·ki + 511 of K, in batch b. -/
theorem tileScore_at (c : Dev nD) (t : Fin cfg1.N) (p : Fin 1024) :
    tileScore (qb1 V c t) (kb1 V c t) p = fun kk => Attn.score (arr3Q V c) (arr3K V c) (bOf t) (qRow t p) (kRow t kk) := by
  funext kk
  unfold tileScore Attn.score
  congr 1
  refine Finset.sum_congr rfl fun d _ => ?_
  rw [qb1_apply V c t p d, kb1_apply V c t kk d]

/-- The value tile's rows at point t are rows 512·ki … 512·ki + 511 of V in batch b. -/
theorem vrows_at (c : Dev nD) (t : Fin cfg1.N) :
    (fun (kk : Fin 512) (j : Fin 1024) => (vb1 V c t : S1x512x1024.Idx → EReal) (ix3 0 kk j))
      = fun kk j => arr3V V c (bOf t) (kRow t kk) j := by
  funext kk j
  exact vb1_apply V c t kk j

/-- The carried triple one point on, where the key tile is not the first. -/
theorem stateAt_succ (c : Dev nD) (n : ℕ) (hn : n + 1 < cfg1.N) (h : ¬(n + 1) % 4 = 0) :
    stateAt V c (n + 1) hn = stepS (qb1 V c ⟨n + 1, hn⟩) (kb1 V c ⟨n + 1, hn⟩) (vb1 V c ⟨n + 1, hn⟩)
      (stateAt V c n (Nat.lt_of_succ_lt hn)) :=
  congrArg (stepS _ _ _) (if_neg h)

/-- Row p of the triple after the body at point t, from row p of the triple the body found: the specification's step
    over the scores and value rows of the point's key tile. -/
theorem rowOf_step_at (c : Dev nD) (t : Fin cfg1.N) (s : St Ideal) (p : Fin 1024) :
    rowOf (stepS (qb1 V c t) (kb1 V c t) (vb1 V c t) s) p
      = Attn.rowStep (fun kk => Attn.score (arr3Q V c) (arr3K V c) (bOf t) (qRow t p) (kRow t kk))
          (fun kk j => arr3V V c (bOf t) (kRow t kk) j) (rowOf s p) := by
  rw [rowOf_stepS, tileScore_at V c t p, vrows_at V c t]

/-- Within a group of four points n, n + 1, n + 2, n + 3 (n a multiple of 4) the batch and the query tile are those
    of the last point and the key tile is the offset. -/
theorem group_facts (n k : ℕ) (hn : n + 3 < cfg1.N) (h0 : n % 4 = 0) (hk4 : k < 4) (hk : n + k < cfg1.N) :
    bOf ⟨n + k, hk⟩ = bOf ⟨n + 3, hn⟩ ∧ (∀ p, qRow ⟨n + k, hk⟩ p = qRow ⟨n + 3, hn⟩ p)
      ∧ kRow ⟨n + k, hk⟩ = Attn.kidx ⟨k, hk4⟩ := by
  refine ⟨Fin.ext ?_, fun p => Fin.ext ?_, funext fun kk => Fin.ext ?_⟩
  · show (n + k) / 8 = (n + 3) / 8; omega
  · show 1024 * ((n + k) / 4 % 2) + p.val = 1024 * ((n + 3) / 4 % 2) + p.val; omega
  · show 512 * ((n + k) % 4) + kk.val = 512 * k + kk.val; omega

/-- The step at the k-th point of a group, written over the group's batch and query rows and the k-th key tile. -/
theorem rowOf_step_group (c : Dev nD) (n k : ℕ) (hn : n + 3 < cfg1.N) (h0 : n % 4 = 0) (hk4 : k < 4)
    (hk : n + k < cfg1.N) (s : St Ideal) (p : Fin 1024) :
    rowOf (stepS (qb1 V c ⟨n + k, hk⟩) (kb1 V c ⟨n + k, hk⟩) (vb1 V c ⟨n + k, hk⟩) s) p
      = Attn.rowStep (fun kk => Attn.score (arr3Q V c) (arr3K V c) (bOf ⟨n + 3, hn⟩) (qRow ⟨n + 3, hn⟩ p) (Attn.kidx ⟨k, hk4⟩ kk))
          (fun kk j => arr3V V c (bOf ⟨n + 3, hn⟩) (Attn.kidx ⟨k, hk4⟩ kk) j) (rowOf s p) := by
  obtain ⟨hb, hq, hkr⟩ := group_facts n k hn h0 hk4 hk
  rw [rowOf_step_at, hb, hq p, hkr]

/-- Row p of the triple after the fourth key tile of a group: the specification's four steps from (-inf, 0, 0), over
    the scores of row 1024·qi + p of Q against the four key tiles and the four value tiles' rows. -/
theorem rowOf_group (c : Dev nD) (n : ℕ) (hn : n + 3 < cfg1.N) (h0 : n % 4 = 0) (p : Fin 1024) :
    rowOf (stateAt V c (n + 3) hn) p
      = Attn.rowFinal (fun kb k => Attn.score (arr3Q V c) (arr3K V c) (bOf ⟨n + 3, hn⟩) (qRow ⟨n + 3, hn⟩ p) (Attn.kidx kb k))
          (fun kb k j' => arr3V V c (bOf ⟨n + 3, hn⟩) (Attn.kidx kb k) j') := by
  have h2 : n + 2 < cfg1.N := by omega
  have h1 : n + 1 < cfg1.N := by omega
  have hz : n + 0 < cfg1.N := by omega
  have e3 : stateAt V c (n + 3) hn = stepS (qb1 V c ⟨n + 3, hn⟩) (kb1 V c ⟨n + 3, hn⟩) (vb1 V c ⟨n + 3, hn⟩)
      (stateAt V c (n + 2) h2) := stateAt_succ V c (n + 2) hn (by omega)
  have e2 : stateAt V c (n + 2) h2 = stepS (qb1 V c ⟨n + 2, h2⟩) (kb1 V c ⟨n + 2, h2⟩) (vb1 V c ⟨n + 2, h2⟩)
      (stateAt V c (n + 1) h1) := stateAt_succ V c (n + 1) h2 (by omega)
  have e1 : stateAt V c (n + 1) h1 = stepS (qb1 V c ⟨n + 1, h1⟩) (kb1 V c ⟨n + 1, h1⟩) (vb1 V c ⟨n + 1, h1⟩)
      (stateAt V c (n + 0) hz) := stateAt_succ V c n h1 (by omega)
  have e0 : stateAt V c (n + 0) hz = stepS (qb1 V c ⟨n + 0, hz⟩) (kb1 V c ⟨n + 0, hz⟩) (vb1 V c ⟨n + 0, hz⟩) initS :=
    stateAt_reset V c ⟨n + 0, hz⟩ h0
  rw [e3, rowOf_step_group V c n 3 hn h0 (by omega) hn, e2, rowOf_step_group V c n 2 hn h0 (by omega) h2,
    e1, rowOf_step_group V c n 1 hn h0 (by omega) h1, e0, rowOf_step_group V c n 0 hn h0 (by omega) hz, rowOf_initS]
  rfl

/-- The output tile stored at key tile 3: entry (p, j) is the tiled attention at (b, 1024·qi + p, j). -/
theorem outAt_apply (c : Dev nD) (t : Fin cfg1.N) (h3 : t.val % 4 = 3) (p j : Fin 1024) :
    (outAt V c t : S1x1024x1024.Idx → EReal) (ix3 0 p j)
      = Attn.flashOut (arr3Q V c) (arr3K V c) (arr3V V c) (bOf t) (qRow t p) j := by
  obtain ⟨tv, ht⟩ := t
  obtain ⟨n, rfl⟩ : ∃ n, tv = n + 3 := ⟨tv - 3, by have : tv % 4 = 3 := h3; omega⟩
  have h0 : n % 4 = 0 := by have : (n + 3) % 4 = 3 := h3; omega
  have hrow := rowOf_group V c n ht h0 p
  unfold outAt
  rw [pay3_apply]
  exact congrArg₂ Ideal.div (congrArg (fun x : Attn.RowSt => x.2.2 j) hrow) (congrArg (fun x : Attn.RowSt => x.2.1) hrow)

/-- The tiled attention of the three arrays, as contents of the result array. -/
abbrev arr3G (c : Dev nD) : S4x2048x1024.Idx → EReal :=
  fun i => Attn.flashOut (arr3Q V c) (arr3K V c) (arr3V V c) (i 0) (i 1) (i 2)

/-- What a point with key tile 3 writes back is its block of the tiled attention. -/
theorem flushed3_eq (c : Dev nD) (t : Fin cfg1.N) (hf : (cfg1.win 3).flush t = true) :
    (dat1 (F := Ideal) V c).flushed 3 t
      = ((cfg1.win 3).blk t).view.read (Elt Ideal) (arr3G V c : Buf (Elt Ideal) ((cfg1.win 3).arr.view.loc (c.tc : Thread nD τ))) := by
  have h3 : t.val % 4 = 3 := (flush1_3 t).mp hf
  show (cfg1.win 3).cut (grid1.coords t) ((dat1 (F := Ideal) V c).after 3 t) = _
  rw [after1_3]
  refine funext fun (y : S1x1024x1024.Idx) => ?_
  obtain ⟨p, j, rfl⟩ : ∃ p j : Fin 1024, y = ix3 0 p j := ⟨y 1, y 2, funext fun a => by
    match a with
    | ⟨0, _⟩ => exact Fin.ext (by have h : (y 0).val < 1 := (y 0).isLt; show (y 0).val = 0; omega)
    | ⟨1, _⟩ => rfl
    | ⟨2, _⟩ => rfl⟩
  rw [outblk_apply c (arr3G V c) t p j]
  exact outAt_apply V c t h3 p j

theorem arr3 (c : Dev nD) : ((dat1 (F := Ideal) V c).arrAt 3 cfg1.N : S4x2048x1024.Idx → EReal)
    = fun i => Attn.flashOut (fun b r d => (V c main_v8 : S4x2048x1024.Idx → EReal) (ix3 b r d))
        (fun b r d => (V c main_v9 : S4x2048x1024.Idx → EReal) (ix3 b r d))
        (fun b r d => (V c main_v10 : S4x2048x1024.Idx → EReal) (ix3 b r d)) (i 0) (i 1) (i 2) :=
  (dat1 (F := Ideal) V c).arrAt_eq_of_cover 3 (arr3G V c) (fun t hf => flushed3_eq V c t hf) (cover3 c)

end Cert.KernelIdeal.Hand

end
-- ==== Proof.KI.KVal.lean ====
/-
  From the boundary contents to the specification. The host lines around the calls are reshapes and format changes:
  the flattened input's row 2048·b + r is row (b, r) of x; a weight matrix converted to bf16 is itself at the ideal
  values; a bias row [1, 1024] at (0, d) is the bias at d; Q, K, V reshaped back to [4, 2048, 1024] at (b, r, d) are
  the projection arrays at (2048·b + r, d). So the arrays the attention call finds are the specification's projections
  `qkv` of the launch arrays, and the result array after the run is the tiled attention `flashOut` of them.
-/
import proofs.«425711_j52012053954870_3_alg».proof.Proof.Gen.KernelIdeal.Launch
import proofs.«425711_j52012053954870_3_alg».proof.Proof.Gen.KernelIdeal.Skeleton
import proofs.«425711_j52012053954870_3_alg».proof.Proof.Gen.KernelIdeal.Points
import proofs.«425711_j52012053954870_3_alg».proof.Proof.KI.Bounds
import proofs.«425711_j52012053954870_3_alg».proof.Proof.KI.Val0
import proofs.«425711_j52012053954870_3_alg».proof.Proof.KI.Val1
import proofs.«425711_j52012053954870_3_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ
open Idealize.ShloMosaic.ValueIdx

variable (m : (ℓ : Loc nD τ sig) → Buf (Elt Ideal) ℓ)

/-- The launch arrays by coordinates. -/
abbrev aX (c : Dev nD) : Attn.A3 := fun b r k => (m ((c.tc : Thread nD τ).loc main_arg0) : S4x2048x1024.Idx → EReal) (ix3 b r k)
abbrev aWq (c : Dev nD) : Attn.M2 := fun k d => (m ((c.tc : Thread nD τ).loc main_arg1) : S1024x1024.Idx → EReal) (ix2 k d)
abbrev aBq (c : Dev nD) : Attn.B1 := fun d => (m ((c.tc : Thread nD τ).loc main_arg2) : S1024.Idx → EReal) (ix1 d)
abbrev aWk (c : Dev nD) : Attn.M2 := fun k d => (m ((c.tc : Thread nD τ).loc main_arg3) : S1024x1024.Idx → EReal) (ix2 k d)
abbrev aBk (c : Dev nD) : Attn.B1 := fun d => (m ((c.tc : Thread nD τ).loc main_arg4) : S1024.Idx → EReal) (ix1 d)
abbrev aWv (c : Dev nD) : Attn.M2 := fun k d => (m ((c.tc : Thread nD τ).loc main_arg5) : S1024x1024.Idx → EReal) (ix2 k d)
abbrev aBv (c : Dev nD) : Attn.B1 := fun d => (m ((c.tc : Thread nD τ).loc main_arg6) : S1024.Idx → EReal) (ix1 d)

/-- The common result: the tiled attention of the three projections of the launch arrays. -/
def Gk (c : Dev nD) : S4x2048x1024.Idx → EReal := fun i =>
  Attn.flashOut (Attn.qkv (aX m c) (aWq m c) (aBq m c)) (Attn.qkv (aX m c) (aWk m c) (aBk m c)) (Attn.qkv (aX m c) (aWv m c) (aBv m c)) (i 0) (i 1) (i 2)

/-! ## The host lines' results -/

theorem W1_v0 (c : Dev nD) : (W1 m c (Proc.devRef .tc main_v0) : S8192x1024.Idx → EReal)
    = shapeCast S8192x1024 (m ((c : Thread nD τ).loc main_arg0)) shapeCasts_S4x2048x1024_S8192x1024 := by
  show StableHlo.after hostOps0 (W0 m c) (Proc.devRef .tc main_v0) = _
  after_results; rfl
theorem W1_v1 (c : Dev nD) : (W1 m c (Proc.devRef .tc main_v1) : S1024x1024.Idx → EReal) = m ((c : Thread nD τ).loc main_arg1) := by
  show StableHlo.after hostOps0 (W0 m c) (Proc.devRef .tc main_v1) = _
  after_results; rfl
theorem W1_v2 (c : Dev nD) : (W1 m c (Proc.devRef .tc main_v2) : S1024x1024.Idx → EReal) = m ((c : Thread nD τ).loc main_arg3) := by
  show StableHlo.after hostOps0 (W0 m c) (Proc.devRef .tc main_v2) = _
  after_results; rfl
theorem W1_v3 (c : Dev nD) : (W1 m c (Proc.devRef .tc main_v3) : S1024x1024.Idx → EReal) = m ((c : Thread nD τ).loc main_arg5) := by
  show StableHlo.after hostOps0 (W0 m c) (Proc.devRef .tc main_v3) = _
  after_results; rfl
theorem W1_v4 (c : Dev nD) : (W1 m c (Proc.devRef .tc main_v4) : S1x1024.Idx → EReal)
    = shapeCast S1x1024 (m ((c : Thread nD τ).loc main_arg2)) shapeCasts_S1024_S1x1024 := by
  show StableHlo.after hostOps0 (W0 m c) (Proc.devRef .tc main_v4) = _
  after_results; rfl
theorem W1_v5 (c : Dev nD) : (W1 m c (Proc.devRef .tc main_v5) : S1x1024.Idx → EReal)
    = shapeCast S1x1024 (m ((c : Thread nD τ).loc main_arg4)) shapeCasts_S1024_S1x1024 := by
  show StableHlo.after hostOps0 (W0 m c) (Proc.devRef .tc main_v5) = _
  after_results; rfl
theorem W1_v6 (c : Dev nD) : (W1 m c (Proc.devRef .tc main_v6) : S1x1024.Idx → EReal)
    = shapeCast S1x1024 (m ((c : Thread nD τ).loc main_arg6)) shapeCasts_S1024_S1x1024 := by
  show StableHlo.after hostOps0 (W0 m c) (Proc.devRef .tc main_v6) = _
  after_results; rfl
theorem W3_v8 (c : Dev nD) : (W3 m c (Proc.devRef .tc main_v8) : S4x2048x1024.Idx → EReal)
    = shapeCast S4x2048x1024 (W2 m c (Proc.devRef .tc main_v7_0) : S8192x1024.Idx → EReal) shapeCasts_S8192x1024_S4x2048x1024 := by
  show StableHlo.after hostOps1 (W2 m c) (Proc.devRef .tc main_v8) = _
  after_results; rfl
theorem W3_v9 (c : Dev nD) : (W3 m c (Proc.devRef .tc main_v9) : S4x2048x1024.Idx → EReal)
    = shapeCast S4x2048x1024 (W2 m c (Proc.devRef .tc main_v7_1) : S8192x1024.Idx → EReal) shapeCasts_S8192x1024_S4x2048x1024 := by
  show StableHlo.after hostOps1 (W2 m c) (Proc.devRef .tc main_v9) = _
  after_results; rfl
theorem W3_v10 (c : Dev nD) : (W3 m c (Proc.devRef .tc main_v10) : S4x2048x1024.Idx → EReal)
    = shapeCast S4x2048x1024 (W2 m c (Proc.devRef .tc main_v7_2) : S8192x1024.Idx → EReal) shapeCasts_S8192x1024_S4x2048x1024 := by
  show StableHlo.after hostOps1 (W2 m c) (Proc.devRef .tc main_v10) = _
  after_results; rfl

/-! ## The reshapes read at an index -/

/-- Row 2048·b + r of the flattened [8192, 1024] array is row (b, r) of the [4, 2048, 1024] one. -/
def flatRow (b : Fin 4) (r : Fin 2048) : Fin 8192 := ⟨2048 * b.val + r.val, by omega⟩

theorem flatten_apply (x : S4x2048x1024.Idx → EReal) (b : Fin 4) (r : Fin 2048) (k : Fin 1024) :
    shapeCast S8192x1024 x shapeCasts_S4x2048x1024_S8192x1024 (ix2 (flatRow b r) k) = x (ix3 b r k) :=
  shapeCast_apply x _ (ix2 (flatRow b r) k) (ix3 b r k) (by
    rw [Shape.rowMajor_val_three, Shape.rowMajor_val_two]
    show (b.val * 2048 + r.val) * 1024 + k.val = (2048 * b.val + r.val) * 1024 + k.val
    omega)

theorem unflatten_apply (y : S8192x1024.Idx → EReal) (b : Fin 4) (r : Fin 2048) (d : Fin 1024) :
    shapeCast S4x2048x1024 y shapeCasts_S8192x1024_S4x2048x1024 (ix3 b r d) = y (ix2 (flatRow b r) d) :=
  shapeCast_apply y _ (ix3 b r d) (ix2 (flatRow b r) d) (by
    rw [Shape.rowMajor_val_three, Shape.rowMajor_val_two]
    show (2048 * b.val + r.val) * 1024 + d.val = (b.val * 2048 + r.val) * 1024 + d.val
    omega)

theorem biasRow_apply (v : S1024.Idx → EReal) (d : Fin 1024) :
    shapeCast S1x1024 v shapeCasts_S1024_S1x1024 (ix2 0 d) = v (ix1 d) :=
  (shapeCast_addUnit_apply ![1024] v shapeCasts_S1024_S1x1024 (ix2 0 d)).trans
    (congrArg v (funext fun a => by match a with | ⟨0, _⟩ => rfl))

/-! ## The arrays the attention call finds, and the result -/

theorem Q_at (c : Dev nD) (b : Fin 4) (r : Fin 2048) (d : Fin 1024) :
    (Vr3 m c main_v8 : S4x2048x1024.Idx → EReal) (ix3 b r d) = Attn.qkv (aX m c) (aWq m c) (aBq m c) b r d := by
  show (W3 m c (Proc.devRef .tc main_v8) : S4x2048x1024.Idx → EReal) (ix3 b r d) = _
  rw [W3_v8, unflatten_apply]
  have h2 : (W2 m c (Proc.devRef .tc main_v7_0) : S8192x1024.Idx → EReal) = ((dat0 (Vr1 m) c).arrAt 7 cfg0.N : S8192x1024.Idx → EReal) := W2_arr m c 7
  rw [h2, arr7 (Vr1 m) c]
  show Attn.proj (fun k => (W1 m c (Proc.devRef .tc main_v0) : S8192x1024.Idx → EReal) (ix2 (flatRow b r) k))
      (fun k => (W1 m c (Proc.devRef .tc main_v1) : S1024x1024.Idx → EReal) (ix2 k d))
      ((W1 m c (Proc.devRef .tc main_v4) : S1x1024.Idx → EReal) (ix2 0 d))
    = Attn.proj (fun k => aX m c b r k) (fun k => aWq m c k d) (aBq m c d)
  rw [W1_v0, W1_v1, W1_v4]
  have e1 : ∀ k, shapeCast S8192x1024 (m ((c : Thread nD τ).loc main_arg0)) shapeCasts_S4x2048x1024_S8192x1024 (ix2 (flatRow b r) k) = aX m c b r k :=
    fun k => flatten_apply _ b r k
  have e2 : shapeCast S1x1024 (m ((c : Thread nD τ).loc main_arg2)) shapeCasts_S1024_S1x1024 (ix2 0 d) = aBq m c d := biasRow_apply _ d
  simp only [e1, e2]

theorem K_at (c : Dev nD) (b : Fin 4) (r : Fin 2048) (d : Fin 1024) :
    (Vr3 m c main_v9 : S4x2048x1024.Idx → EReal) (ix3 b r d) = Attn.qkv (aX m c) (aWk m c) (aBk m c) b r d := by
  show (W3 m c (Proc.devRef .tc main_v9) : S4x2048x1024.Idx → EReal) (ix3 b r d) = _
  rw [W3_v9, unflatten_apply]
  have h2 : (W2 m c (Proc.devRef .tc main_v7_1) : S8192x1024.Idx → EReal) = ((dat0 (Vr1 m) c).arrAt 8 cfg0.N : S8192x1024.Idx → EReal) := W2_arr m c 8
  rw [h2, arr8 (Vr1 m) c]
  show Attn.proj (fun k => (W1 m c (Proc.devRef .tc main_v0) : S8192x1024.Idx → EReal) (ix2 (flatRow b r) k))
      (fun k => (W1 m c (Proc.devRef .tc main_v2) : S1024x1024.Idx → EReal) (ix2 k d))
      ((W1 m c (Proc.devRef .tc main_v5) : S1x1024.Idx → EReal) (ix2 0 d))
    = Attn.proj (fun k => aX m c b r k) (fun k => aWk m c k d) (aBk m c d)
  rw [W1_v0, W1_v2, W1_v5]
  have e1 : ∀ k, shapeCast S8192x1024 (m ((c : Thread nD τ).loc main_arg0)) shapeCasts_S4x2048x1024_S8192x1024 (ix2 (flatRow b r) k) = aX m c b r k :=
    fun k => flatten_apply _ b r k
  have e2 : shapeCast S1x1024 (m ((c : Thread nD τ).loc main_arg4)) shapeCasts_S1024_S1x1024 (ix2 0 d) = aBk m c d := biasRow_apply _ d
  simp only [e1, e2]

theorem V_at (c : Dev nD) (b : Fin 4) (r : Fin 2048) (d : Fin 1024) :
    (Vr3 m c main_v10 : S4x2048x1024.Idx → EReal) (ix3 b r d) = Attn.qkv (aX m c) (aWv m c) (aBv m c) b r d := by
  show (W3 m c (Proc.devRef .tc main_v10) : S4x2048x1024.Idx → EReal) (ix3 b r d) = _
  rw [W3_v10, unflatten_apply]
  have h2 : (W2 m c (Proc.devRef .tc main_v7_2) : S8192x1024.Idx → EReal) = ((dat0 (Vr1 m) c).arrAt 9 cfg0.N : S8192x1024.Idx → EReal) := W2_arr m c 9
  rw [h2, arr9 (Vr1 m) c]
  show Attn.proj (fun k => (W1 m c (Proc.devRef .tc main_v0) : S8192x1024.Idx → EReal) (ix2 (flatRow b r) k))
      (fun k => (W1 m c (Proc.devRef .tc main_v3) : S1024x1024.Idx → EReal) (ix2 k d))
      ((W1 m c (Proc.devRef .tc main_v6) : S1x1024.Idx → EReal) (ix2 0 d))
    = Attn.proj (fun k => aX m c b r k) (fun k => aWv m c k d) (aBv m c d)
  rw [W1_v0, W1_v3, W1_v6]
  have e1 : ∀ k, shapeCast S8192x1024 (m ((c : Thread nD τ).loc main_arg0)) shapeCasts_S4x2048x1024_S8192x1024 (ix2 (flatRow b r) k) = aX m c b r k :=
    fun k => flatten_apply _ b r k
  have e2 : shapeCast S1x1024 (m ((c : Thread nD τ).loc main_arg6)) shapeCasts_S1024_S1x1024 (ix2 0 d) = aBv m c d := biasRow_apply _ d
  simp only [e1, e2]

/-- The result array after the run is the tiled attention of the three projections of the launch arrays. -/
theorem kval (c : Dev nD) : ((dat1 (Vr3 m) c).arrAt 3 cfg1.N : S4x2048x1024.Idx → EReal) = Gk m c := by
  rw [arr3 (Vr3 m) c]
  have hQ : (fun b r d => (Vr3 m c main_v8 : S4x2048x1024.Idx → EReal) (ix3 b r d)) = Attn.qkv (aX m c) (aWq m c) (aBq m c) :=
    funext fun b => funext fun r => funext fun d => Q_at m c b r d
  have hK : (fun b r d => (Vr3 m c main_v9 : S4x2048x1024.Idx → EReal) (ix3 b r d)) = Attn.qkv (aX m c) (aWk m c) (aBk m c) :=
    funext fun b => funext fun r => funext fun d => K_at m c b r d
  have hV : (fun b r d => (Vr3 m c main_v10 : S4x2048x1024.Idx → EReal) (ix3 b r d)) = Attn.qkv (aX m c) (aWv m c) (aBv m c) :=
    funext fun b => funext fun r => funext fun d => V_at m c b r d
  rw [hQ, hK, hV]
  rfl

end Cert.KernelIdeal.Hand

end
-- ==== Proof.RefVal.lean ====
/-
  The reference program's result, read index by index at the ideal values: the three projections, the scaled
  scores, the row maximum (max of -inf and the fold of max from -inf), the exponentials, their sum from 0, the
  quotient, and the weighted sum of the value rows — the specification's `softOut` of the projections.
-/
import proofs.«425711_j52012053954870_3_alg».proof.Proof.Gen.ReferenceIdeal.Run
import proofs.«425711_j52012053954870_3_alg».proof.Proof.Gen.ReferenceIdeal.Read
import proofs.«425711_j52012053954870_3_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.ReferenceIdeal.RefValue

open Idealize.ShloMosaic Idealize.ShloMosaic.TcCoe Idealize.SL.Sem Idealize.ShloMosaic.ValueIdx
open Cert.ReferenceIdeal Cert.ReferenceIdeal.Gen

section Stages

variable (x0 : FVec Ideal S4x2048x1024 .f32) (x1 : FVec Ideal S1024x1024 .f32) (x2 : FVec Ideal S1024 .f32)
  (x3 : FVec Ideal S1024x1024 .f32) (x4 : FVec Ideal S1024 .f32) (x5 : FVec Ideal S1024x1024 .f32) (x6 : FVec Ideal S1024 .f32)

/-- The query projection at (b, r, d): the dot product of input row (b, r) with weight column d, plus the bias at d. -/
theorem q_at (b : Fin 4) (r : Fin 2048) (d : Fin 1024) :
    Read.val_main_v3 (F := Ideal) x0 x1 x2 (ix3 b r d)
      = Attn.qkv (fun b r k => x0 (ix3 b r k)) (fun k d => x1 (ix2 k d)) (fun d => x2 (ix1 d)) b r d := by
  have hl : ∀ k : Fin 1024, Read.lidx_main_v0 (ix3 b r d) k = ix3 b r k := fun k =>
    funext fun a => Fin.ext (by match a with | ⟨0, _⟩ => rfl | ⟨1, _⟩ => rfl | ⟨2, _⟩ => rfl)
  have hr : ∀ k : Fin 1024, Read.ridx_main_v0 (ix3 b r d) k = ix2 k d := fun k =>
    funext fun a => Fin.ext (by match a with | ⟨0, _⟩ => rfl | ⟨1, _⟩ => rfl)
  have hb : Read.idx_main_v1 (Read.idx_main_v2 (ix3 b r d)) = ix1 d :=
    funext fun a => Fin.ext (by match a with | ⟨0, _⟩ => rfl)
  rw [Read.val_main_v3_apply, Read.val_main_v0_apply, Read.val_main_v2_apply, Read.val_main_v1_apply, hb,
    Finset.sum_congr rfl fun k _ => by rw [hl k, hr k]]
  rfl

/-- The key projection at (b, s, d). -/
theorem k_at (b : Fin 4) (s : Fin 2048) (d : Fin 1024) :
    Read.val_main_v7 (F := Ideal) x0 x3 x4 (ix3 b s d)
      = Attn.qkv (fun b r k => x0 (ix3 b r k)) (fun k d => x3 (ix2 k d)) (fun d => x4 (ix1 d)) b s d := by
  have hl : ∀ k : Fin 1024, Read.lidx_main_v4 (ix3 b s d) k = ix3 b s k := fun k =>
    funext fun a => Fin.ext (by match a with | ⟨0, _⟩ => rfl | ⟨1, _⟩ => rfl | ⟨2, _⟩ => rfl)
  have hr : ∀ k : Fin 1024, Read.ridx_main_v4 (ix3 b s d) k = ix2 k d := fun k =>
    funext fun a => Fin.ext (by match a with | ⟨0, _⟩ => rfl | ⟨1, _⟩ => rfl)
  have hb : Read.idx_main_v5 (Read.idx_main_v6 (ix3 b s d)) = ix1 d :=
    funext fun a => Fin.ext (by match a with | ⟨0, _⟩ => rfl)
  rw [Read.val_main_v7_apply, Read.val_main_v4_apply, Read.val_main_v6_apply, Read.val_main_v5_apply, hb,
    Finset.sum_congr rfl fun k _ => by rw [hl k, hr k]]
  rfl

/-- The value projection at (b, s, j). -/
theorem v_at (b : Fin 4) (s : Fin 2048) (j : Fin 1024) :
    Read.val_main_v11 (F := Ideal) x0 x5 x6 (ix3 b s j)
      = Attn.qkv (fun b r k => x0 (ix3 b r k)) (fun k d => x5 (ix2 k d)) (fun d => x6 (ix1 d)) b s j := by
  have hl : ∀ k : Fin 1024, Read.lidx_main_v8 (ix3 b s j) k = ix3 b s k := fun k =>
    funext fun a => Fin.ext (by match a with | ⟨0, _⟩ => rfl | ⟨1, _⟩ => rfl | ⟨2, _⟩ => rfl)
  have hr : ∀ k : Fin 1024, Read.ridx_main_v8 (ix3 b s j) k = ix2 k j := fun k =>
    funext fun a => Fin.ext (by match a with | ⟨0, _⟩ => rfl | ⟨1, _⟩ => rfl)
  have hb : Read.idx_main_v9 (Read.idx_main_v10 (ix3 b s j)) = ix1 j :=
    funext fun a => Fin.ext (by match a with | ⟨0, _⟩ => rfl)
  rw [Read.val_main_v11_apply, Read.val_main_v8_apply, Read.val_main_v10_apply, Read.val_main_v9_apply, hb,
    Finset.sum_congr rfl fun k _ => by rw [hl k, hr k]]
  rfl

/-- The scaled score of query row r against key row s in batch b: the dot product over d of Q and K, times 1/32. -/
theorem score_at (b : Fin 4) (r s : Fin 2048) :
    Read.val_main_v14 (F := Ideal) x0 x1 x2 x3 x4 (ix3 b r s)
      = Attn.score (Attn.qkv (fun b r k => x0 (ix3 b r k)) (fun k d => x1 (ix2 k d)) (fun d => x2 (ix1 d)))
          (Attn.qkv (fun b r k => x0 (ix3 b r k)) (fun k d => x3 (ix2 k d)) (fun d => x4 (ix1 d))) b r s := by
  have hl : ∀ k : Fin 1024, Read.lidx_main_v12 (ix3 b r s) k = ix3 b r k := fun k =>
    funext fun a => Fin.ext (by match a with | ⟨0, _⟩ => rfl | ⟨1, _⟩ => rfl | ⟨2, _⟩ => rfl)
  have hr : ∀ k : Fin 1024, Read.ridx_main_v12 (ix3 b r s) k = ix3 b s k := fun k =>
    funext fun a => Fin.ext (by match a with | ⟨0, _⟩ => rfl | ⟨1, _⟩ => rfl | ⟨2, _⟩ => rfl)
  rw [Read.val_main_v14_apply, Read.val_main_v12_apply, Read.val_main_v13_apply, Read.val_main_cst_apply,
    Finset.sum_congr rfl fun k _ => by rw [hl k, hr k, q_at, k_at]]
  rfl

/-- The one-axis reduction of [4, 2048, 2048] over its last axis into [4, 2048]. -/
theorem red2 : S4x2048x2048.Reduces [2] S4x2048 := by decide

/-- The index over (b, r) with s inserted on the reduced axis is (b, r, s). -/
theorem lift_at (b : Fin 4) (r s : Fin 2048) : red2.lift (ix2 b r) s = ix3 b r s :=
  funext fun a => Fin.ext (by match a with | ⟨0, _⟩ => rfl | ⟨1, _⟩ => rfl | ⟨2, _⟩ => rfl)

/-- The row's maximum as the reference takes it: the maximum of -inf and the fold of max from -inf over the row's scores. -/
theorem max_at (b : Fin 4) (r : Fin 2048) :
    Read.val_main_v17 (F := Ideal) x0 x1 x2 x3 x4 (ix2 b r)
      = Attn.rowMax (fun s => Attn.score (Attn.qkv (fun b r k => x0 (ix3 b r k)) (fun k d => x1 (ix2 k d)) (fun d => x2 (ix1 d)))
          (Attn.qkv (fun b r k => x0 (ix3 b r k)) (fun k d => x3 (ix2 k d)) (fun d => x4 (ix1 d))) b r s) := by
  have hf : (Read.val_main_v14 (F := Ideal) x0 x1 x2 x3 x4 ∘ red2.lift (ix2 b r))
      = fun s : Fin 2048 => Attn.score (Attn.qkv (fun b r k => x0 (ix3 b r k)) (fun k d => x1 (ix2 k d)) (fun d => x2 (ix1 d)))
          (Attn.qkv (fun b r k => x0 (ix3 b r k)) (fun k d => x3 (ix2 k d)) (fun d => x4 (ix1 d))) b r s :=
    funext fun (s : Fin 2048) =>
      (congrArg (Read.val_main_v14 (F := Ideal) x0 x1 x2 x3 x4) (lift_at b r s)).trans (score_at x0 x1 x2 x3 x4 b r s)
  rw [Read.val_main_v17_apply, Read.val_main_v16_apply, Read.val_main_cst_1_apply]
  unfold Read.val_main_v15
  rw [Host.reduce_eq_fold_single (FloatOps.maximumf (F := Ideal) (φ := .f32)) _ _ reducesTo_S4x2048x2048_S4x2048_d2 red2 h_S_
    (ix2 b r), Read.val_main_cst_0_apply, hf]
  rfl

/-- The exponential of a score less its row's maximum. -/
theorem exp_at (b : Fin 4) (r s : Fin 2048) :
    Read.val_main_v21 (F := Ideal) x0 x1 x2 x3 x4 (ix3 b r s)
      = Ideal.exp (Attn.score (Attn.qkv (fun b r k => x0 (ix3 b r k)) (fun k d => x1 (ix2 k d)) (fun d => x2 (ix1 d)))
            (Attn.qkv (fun b r k => x0 (ix3 b r k)) (fun k d => x3 (ix2 k d)) (fun d => x4 (ix1 d))) b r s
          - Attn.rowMax (fun s => Attn.score (Attn.qkv (fun b r k => x0 (ix3 b r k)) (fun k d => x1 (ix2 k d)) (fun d => x2 (ix1 d)))
            (Attn.qkv (fun b r k => x0 (ix3 b r k)) (fun k d => x3 (ix2 k d)) (fun d => x4 (ix1 d))) b r s)) := by
  have hi : Read.idx_main_v18 (Read.idx_main_v19 (ix3 b r s)) = ix2 b r :=
    funext fun a => Fin.ext (by match a with | ⟨0, _⟩ => rfl | ⟨1, _⟩ => rfl)
  rw [Read.val_main_v21_apply, Read.val_main_v20_apply, Read.val_main_v19_apply, Read.val_main_v18_apply, hi,
    score_at, max_at]
  rfl

/-- The row's normaliser as the reference takes it: 0 plus the sum of the exponentials. -/
theorem sum_at (b : Fin 4) (r : Fin 2048) :
    Read.val_main_v22 (F := Ideal) x0 x1 x2 x3 x4 (ix2 b r)
      = Attn.rowSum (fun s => Attn.score (Attn.qkv (fun b r k => x0 (ix3 b r k)) (fun k d => x1 (ix2 k d)) (fun d => x2 (ix1 d)))
          (Attn.qkv (fun b r k => x0 (ix3 b r k)) (fun k d => x3 (ix2 k d)) (fun d => x4 (ix1 d))) b r s) := by
  have hi : ∀ k : Fin 2048, Read.idx_main_v22 (ix2 b r) k = ix3 b r k := fun k =>
    funext fun a => Fin.ext (by match a with | ⟨0, _⟩ => rfl | ⟨1, _⟩ => rfl | ⟨2, _⟩ => rfl)
  rw [Read.val_main_v22_apply, Read.val_main_cst_2_apply, Finset.sum_congr rfl fun k _ => by rw [hi k, exp_at],
    Ideal.ofBits_def, Ideal.ofBits_zero_f32]
  rfl

/-- The softmax weight: the exponential over the row's normaliser, by the reference's quotient. -/
theorem w_at (b : Fin 4) (r s : Fin 2048) :
    Read.val_main_v25 (F := Ideal) x0 x1 x2 x3 x4 (ix3 b r s)
      = Ideal.div (Ideal.exp (Attn.score (Attn.qkv (fun b r k => x0 (ix3 b r k)) (fun k d => x1 (ix2 k d)) (fun d => x2 (ix1 d)))
            (Attn.qkv (fun b r k => x0 (ix3 b r k)) (fun k d => x3 (ix2 k d)) (fun d => x4 (ix1 d))) b r s
          - Attn.rowMax (fun s => Attn.score (Attn.qkv (fun b r k => x0 (ix3 b r k)) (fun k d => x1 (ix2 k d)) (fun d => x2 (ix1 d)))
            (Attn.qkv (fun b r k => x0 (ix3 b r k)) (fun k d => x3 (ix2 k d)) (fun d => x4 (ix1 d))) b r s)))
          (Attn.rowSum (fun s => Attn.score (Attn.qkv (fun b r k => x0 (ix3 b r k)) (fun k d => x1 (ix2 k d)) (fun d => x2 (ix1 d)))
            (Attn.qkv (fun b r k => x0 (ix3 b r k)) (fun k d => x3 (ix2 k d)) (fun d => x4 (ix1 d))) b r s)) := by
  have hi : Read.idx_main_v23 (Read.idx_main_v24 (ix3 b r s)) = ix2 b r :=
    funext fun a => Fin.ext (by match a with | ⟨0, _⟩ => rfl | ⟨1, _⟩ => rfl)
  rw [Read.val_main_v25_apply, Read.val_main_v24_apply, Read.val_main_v23_apply, hi, exp_at, sum_at]
  rfl

end Stages

/-- The reference's last stage, over its seven arguments, is the softmax attention of the three projections. -/
theorem ref_value (x0 : FVec Ideal S4x2048x1024 .f32) (x1 : FVec Ideal S1024x1024 .f32) (x2 : FVec Ideal S1024 .f32)
    (x3 : FVec Ideal S1024x1024 .f32) (x4 : FVec Ideal S1024 .f32) (x5 : FVec Ideal S1024x1024 .f32) (x6 : FVec Ideal S1024 .f32) :
    (Cert.ReferenceIdeal.Read.val_main_v26 (F := Ideal) x0 x1 x2 x3 x4 x5 x6 : S4x2048x1024.Idx → EReal)
      = fun i => Attn.softOut
          (Attn.qkv (fun b r k => x0 (ix3 b r k)) (fun k d => x1 (ix2 k d)) (fun d => x2 (ix1 d)))
          (Attn.qkv (fun b r k => x0 (ix3 b r k)) (fun k d => x3 (ix2 k d)) (fun d => x4 (ix1 d)))
          (Attn.qkv (fun b r k => x0 (ix3 b r k)) (fun k d => x5 (ix2 k d)) (fun d => x6 (ix1 d)))
          (i 0) (i 1) (i 2) := by
  funext i
  obtain ⟨b, r, j, rfl⟩ : ∃ b r j, i = ix3 b r j := ⟨i 0, i 1, i 2, eq_ix3 i⟩
  have hl : ∀ k : Fin 2048, Read.lidx_main_v26 (ix3 b r j) k = ix3 b r k := fun k =>
    funext fun a => Fin.ext (by match a with | ⟨0, _⟩ => rfl | ⟨1, _⟩ => rfl | ⟨2, _⟩ => rfl)
  have hr : ∀ k : Fin 2048, Read.ridx_main_v26 (ix3 b r j) k = ix3 b k j := fun k =>
    funext fun a => Fin.ext (by match a with | ⟨0, _⟩ => rfl | ⟨1, _⟩ => rfl | ⟨2, _⟩ => rfl)
  rw [Read.val_main_v26_apply, Finset.sum_congr rfl fun k _ => by rw [hl k, hr k, w_at, v_at]]
  rfl

end Cert.ReferenceIdeal.RefValue

end
-- ==== Proof.Math.lean ====
/-
  The mathematics: on real-valued Q, K, V the tiled attention (a running maximum, normaliser and weighted sum
  updated over four key tiles, then acc / l) is the softmax attention. With every score real, the running maximum
  after the fourth tile is the row's maximum M; exp(m_old - m_new)·exp(s - m_old) = exp(s - m_new) carries the
  normaliser and the weighted sums to sum of exp(s - M) and sum of exp(s - M)·v; the first step's factor
  exp(-inf - m) = 0 kills the reset values; and (sum_s e_s·v_s) / L = sum_s (e_s / L)·v_s since L is a positive real.
-/
import proofs.«425711_j52012053954870_3_alg».proof.Proof.Spec
import Mathlib.Analysis.SpecialFunctions.Exp
import Mathlib.Data.EReal.Operations
import Mathlib.Algebra.BigOperators.Field
import Mathlib.Algebra.BigOperators.Fin
import Mathlib.Algebra.Order.BigOperators.Group.Finset

noncomputable section

namespace Attn

open Idealize.ShloMosaic

/-! ## The two literals -/

/-- The word the maxima start from denotes -inf, the least extended real. -/
theorem negInfW_eq : negInfW = ⊥ := by
  simp [negInfW, Ideal.ofBits, Ideal.ieee]

/-- The scale word denotes the real 1/32. -/
theorem scaleW_eq : scaleW = (((1 : ℝ) / 32 : ℝ) : EReal) := by
  simp [scaleW, Ideal.ofBits, Ideal.ieee, -EReal.coe_mul]
  norm_num

/-! ## The embedding of the reals commutes with finite sums and with max -/

theorem coe_sum' {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem coe_max' (a b : ℝ) : ((max a b : ℝ) : EReal) = max (a : EReal) (b : EReal) :=
  EReal.coe_strictMono.monotone.map_max

/-! ## Projections and scores of real arrays are real -/

/-- A dot product of real rows plus a real bias is the real one. -/
theorem proj_coe (x w : Fin 1024 → ℝ) (b : ℝ) :
    proj (fun k => (x k : EReal)) (fun k => (w k : EReal)) (b : EReal) = ((∑ k, x k * w k + b : ℝ) : EReal) := by
  simp only [proj, ← EReal.coe_mul, ← coe_sum', ← EReal.coe_add]

/-- A projection of real arrays is real. -/
theorem real_qkv (x : A3) (W : M2) (bias : B1) (hx : Real3 x) (hW : Real2 W) (hb : Real1 bias) : Real3 (qkv x W bias) := by
  choose xr hxr using hx
  choose Wr hWr using hW
  choose br hbr using hb
  intro b r d
  refine ⟨∑ k, xr b r k * Wr k d + br d, ?_⟩
  simp only [qkv, hxr, hWr, hbr]
  exact proj_coe _ _ _

/-- The score of real rows is the real scaled dot product. -/
theorem score_coe (Q K : A3) (q k : Fin 4 → Fin 2048 → Fin 1024 → ℝ) (hq : ∀ b r d, Q b r d = (q b r d : EReal))
    (hk : ∀ b r d, K b r d = (k b r d : EReal)) (b : Fin 4) (r s : Fin 2048) :
    score Q K b r s = (((∑ d, q b r d * k b s d) * (1 / 32) : ℝ) : EReal) := by
  simp only [score, hq, hk, scaleW_eq, ← EReal.coe_mul, ← coe_sum']

/-! ## One tile's maximum -/

/-- A tile's maximum score, as an extended real. -/
def tsup (t : Fin 512 → ℝ) : EReal := Finset.univ.sup fun k => (t k : EReal)

/-- The fold of max from -inf over a tile is that maximum. -/
theorem fold_eq_tsup (t : Fin 512 → ℝ) : Finset.univ.fold max negInfW (fun k => (t k : EReal)) = tsup t := by
  rw [negInfW_eq]; rfl

/-- It is attained, so it is a real. -/
theorem tsup_real (t : Fin 512 → ℝ) : ∃ τ : ℝ, tsup t = (τ : EReal) := by
  obtain ⟨i, -, hi⟩ := Finset.exists_mem_eq_sup Finset.univ Finset.univ_nonempty (fun k => (t k : EReal))
  exact ⟨t i, hi⟩

/-! ## One step on a real row state, and the first step from the reset state -/

/-- From a real state (mu, l, a) a tile of real scores and values leads to the real state whose maximum is
    mu' = max mu (tile maximum), the old normaliser and sums rescaled by exp(mu - mu'). -/
theorem rowStep_coe (t : Fin 512 → ℝ) (w : Fin 512 → Fin 1024 → ℝ) (μ l : ℝ) (a : Fin 1024 → ℝ) (μ' : ℝ)
    (hμ' : (μ' : EReal) = max (μ : EReal) (tsup t)) :
    rowStep (fun k => (t k : EReal)) (fun k j => (w k j : EReal)) ((μ : EReal), (l : EReal), fun j => (a j : EReal))
      = ((μ' : EReal), ((Real.exp (μ - μ') * l + ∑ k, Real.exp (t k - μ') : ℝ) : EReal),
          fun j => ((Real.exp (μ - μ') * a j + ∑ k, Real.exp (t k - μ') * w k j : ℝ) : EReal)) := by
  have hnm : newMax (μ : EReal) (fun k => (t k : EReal)) = (μ' : EReal) := by
    rw [newMax, fold_eq_tsup, hμ']
  simp only [rowStep, hnm, ← EReal.coe_sub, Ideal.exp_coe, ← EReal.coe_mul, ← coe_sum', ← EReal.coe_add]

/-- From the reset state (-inf, 0, 0): exp(-inf - mu') = 0 removes the old terms. -/
theorem rowStep_init (t : Fin 512 → ℝ) (w : Fin 512 → Fin 1024 → ℝ) (μ' : ℝ) (hμ' : (μ' : EReal) = tsup t) :
    rowStep (fun k => (t k : EReal)) (fun k j => (w k j : EReal)) rowInit
      = ((μ' : EReal), ((∑ k, Real.exp (t k - μ') : ℝ) : EReal),
          fun j => ((∑ k, Real.exp (t k - μ') * w k j : ℝ) : EReal)) := by
  have hnm : newMax negInfW (fun k => (t k : EReal)) = (μ' : EReal) := by
    rw [newMax, fold_eq_tsup, hμ', negInfW_eq]; exact max_eq_right bot_le
  have h0 : Ideal.exp (negInfW - (μ' : EReal)) = 0 := by
    rw [negInfW_eq, EReal.bot_sub]; rfl
  simp only [rowStep, rowInit, hnm, h0, zero_mul, zero_add, ← EReal.coe_sub, Ideal.exp_coe, ← EReal.coe_mul, ← coe_sum']

/-! ## The state after a set of tiles -/

/-- Changing the reference point of the exponentials from mu to mu' and adding one more tile. -/
theorem shift_sum (μ μ' : ℝ) (P : Finset (Fin 4)) (kb : Fin 4) (hkb : kb ∉ P) (t c : Fin 4 → Fin 512 → ℝ) :
    Real.exp (μ - μ') * (∑ i ∈ P, ∑ k, Real.exp (t i k - μ) * c i k) + ∑ k, Real.exp (t kb k - μ') * c kb k
      = ∑ i ∈ insert kb P, ∑ k, Real.exp (t i k - μ') * c i k := by
  rw [Finset.sum_insert hkb, add_comm, Finset.mul_sum]
  congr 1
  refine Finset.sum_congr rfl fun i _ => ?_
  rw [Finset.mul_sum]
  refine Finset.sum_congr rfl fun k _ => ?_
  rw [← mul_assoc, ← Real.exp_add]
  congr 2; ring

theorem shift_sum_one (μ μ' : ℝ) (P : Finset (Fin 4)) (kb : Fin 4) (hkb : kb ∉ P) (t : Fin 4 → Fin 512 → ℝ) :
    Real.exp (μ - μ') * (∑ i ∈ P, ∑ k, Real.exp (t i k - μ)) + ∑ k, Real.exp (t kb k - μ')
      = ∑ i ∈ insert kb P, ∑ k, Real.exp (t i k - μ') := by
  simpa only [mul_one] using shift_sum μ μ' P kb hkb t (fun _ _ => 1)

/-- The row state after the tiles in P: the maximum mu of their scores (a real), the sum of exp(score - mu), and
    the sums of exp(score - mu)·value. -/
def Inv (t : Fin 4 → Fin 512 → ℝ) (w : Fin 4 → Fin 512 → Fin 1024 → ℝ) (P : Finset (Fin 4)) (st : RowSt) : Prop :=
  ∃ μ : ℝ, (μ : EReal) = P.sup (fun kb => tsup (t kb)) ∧
    st = ((μ : EReal), ((∑ kb ∈ P, ∑ k, Real.exp (t kb k - μ) : ℝ) : EReal),
          fun j => ((∑ kb ∈ P, ∑ k, Real.exp (t kb k - μ) * w kb k j : ℝ) : EReal))

theorem inv_init (t : Fin 4 → Fin 512 → ℝ) (w : Fin 4 → Fin 512 → Fin 1024 → ℝ) (kb : Fin 4) :
    Inv t w {kb} (rowStep (fun k => (t kb k : EReal)) (fun k j => (w kb k j : EReal)) rowInit) := by
  obtain ⟨τ, hτ⟩ := tsup_real (t kb)
  refine ⟨τ, ?_, ?_⟩
  · rw [Finset.sup_singleton, hτ]
  · rw [rowStep_init (t kb) (w kb) τ hτ.symm]
    simp only [Finset.sum_singleton]

theorem inv_step {t : Fin 4 → Fin 512 → ℝ} {w : Fin 4 → Fin 512 → Fin 1024 → ℝ} {P : Finset (Fin 4)} {st : RowSt}
    (kb : Fin 4) (h : Inv t w P st) (hkb : kb ∉ P) :
    Inv t w (insert kb P) (rowStep (fun k => (t kb k : EReal)) (fun k j => (w kb k j : EReal)) st) := by
  obtain ⟨μ, hμ, rfl⟩ := h
  obtain ⟨τ, hτ⟩ := tsup_real (t kb)
  have hμ' : ((max μ τ : ℝ) : EReal) = max (μ : EReal) (tsup (t kb)) := by rw [coe_max', hτ]
  refine ⟨max μ τ, ?_, ?_⟩
  · rw [Finset.sup_insert, hμ', hμ]; exact max_comm _ _
  · rw [rowStep_coe (t kb) (w kb) μ _ _ (max μ τ) hμ']
    have e1 := shift_sum_one μ (max μ τ) P kb hkb t
    have e2 := fun j => shift_sum μ (max μ τ) P kb hkb t (fun i k => w i k j)
    simp only [e1, e2]

/-- After the four tiles. -/
theorem inv_final (t : Fin 4 → Fin 512 → ℝ) (w : Fin 4 → Fin 512 → Fin 1024 → ℝ) :
    Inv t w Finset.univ (rowFinal (fun kb k => (t kb k : EReal)) (fun kb k j => (w kb k j : EReal))) := by
  have h0 := inv_init t w 0
  have h1 := inv_step 1 h0 (by decide)
  have h2 := inv_step 2 h1 (by decide)
  have h3 := inv_step 3 h2 (by decide)
  have hU : (insert 3 (insert 2 (insert 1 {0})) : Finset (Fin 4)) = Finset.univ := by decide
  rw [hU] at h3
  exact h3

/-- A sum of exponentials over the four tiles is positive. -/
theorem norm_pos (t : Fin 4 → Fin 512 → ℝ) (μ : ℝ) : 0 < ∑ kb, ∑ k, Real.exp (t kb k - μ) :=
  Finset.sum_pos (fun _ _ => Finset.sum_pos (fun _ _ => Real.exp_pos _) Finset.univ_nonempty) Finset.univ_nonempty

/-- The tiled result on real scores and values, as a real quotient. -/
theorem flashRow_coe (t : Fin 4 → Fin 512 → ℝ) (w : Fin 4 → Fin 512 → Fin 1024 → ℝ) (j : Fin 1024) :
    ∃ μ : ℝ, (μ : EReal) = Finset.univ.sup (fun kb => tsup (t kb)) ∧
      flashRow (fun kb k => (t kb k : EReal)) (fun kb k j' => (w kb k j' : EReal)) j
        = (((∑ kb, ∑ k, Real.exp (t kb k - μ) * w kb k j) / (∑ kb, ∑ k, Real.exp (t kb k - μ)) : ℝ) : EReal) := by
  obtain ⟨μ, hμ, hst⟩ := inv_final t w
  refine ⟨μ, hμ, ?_⟩
  rw [flashRow, hst]
  simp only
  rw [Ideal.div_coe (norm_pos t μ).ne', ← EReal.coe_mul, mul_one_div]

/-! ## The reference's row on real scores and values -/

theorem softRow_coe (σ : Fin 2048 → ℝ) (v : Fin 2048 → Fin 1024 → ℝ) (j : Fin 1024) (M : ℝ)
    (hM : (M : EReal) = Finset.univ.sup (fun s => (σ s : EReal))) :
    softRow (fun s => (σ s : EReal)) (fun s j' => (v s j' : EReal)) j
      = ((∑ s, Real.exp (σ s - M) * (1 / ∑ s', Real.exp (σ s' - M)) * v s j : ℝ) : EReal) := by
  have hmax : rowMax (fun s => (σ s : EReal)) = (M : EReal) := by
    rw [rowMax, negInfW_eq, hM]; exact max_eq_right bot_le
  have hsum : rowSum (fun s => (σ s : EReal)) = ((∑ s, Real.exp (σ s - M) : ℝ) : EReal) := by
    simp only [rowSum, hmax, zero_add, ← EReal.coe_sub, Ideal.exp_coe, ← coe_sum']
  have hL : 0 < ∑ s, Real.exp (σ s - M) := Finset.sum_pos (fun _ _ => Real.exp_pos _) Finset.univ_nonempty
  simp only [softRow, hmax, hsum, Ideal.div_coe hL.ne', ← EReal.coe_sub, Ideal.exp_coe, ← EReal.coe_mul, ← coe_sum']

/-! ## The key axis as four tiles of 512 -/

theorem kidx_bij : Function.Bijective (fun p : Fin 4 × Fin 512 => kidx p.1 p.2) := by
  rw [Fintype.bijective_iff_injective_and_card]
  constructor
  · rintro ⟨a, b⟩ ⟨a', b'⟩ h
    have h' : 512 * a.val + b.val = 512 * a'.val + b'.val := congrArg Fin.val h
    have hb := b.isLt
    have hb' := b'.isLt
    refine Prod.ext (Fin.ext ?_) (Fin.ext ?_) <;> simp only <;> omega
  · simp [Fintype.card_prod]

theorem sum_tiles (f : Fin 2048 → ℝ) : ∑ s, f s = ∑ kb : Fin 4, ∑ k : Fin 512, f (kidx kb k) := by
  rw [← Fintype.sum_prod_type' (fun kb k => f (kidx kb k))]
  exact (Fintype.sum_bijective _ kidx_bij _ _ (fun _ => rfl)).symm

theorem sup_tiles (F : Fin 2048 → EReal) :
    Finset.univ.sup F = Finset.univ.sup (fun kb : Fin 4 => Finset.univ.sup (fun k : Fin 512 => F (kidx kb k))) := by
  apply le_antisymm
  · refine Finset.sup_le fun s _ => ?_
    obtain ⟨⟨kb, k⟩, rfl⟩ := kidx_bij.surjective s
    exact le_trans (Finset.le_sup (f := fun k => F (kidx kb k)) (Finset.mem_univ k))
      (Finset.le_sup (f := fun kb => Finset.univ.sup (fun k => F (kidx kb k))) (Finset.mem_univ kb))
  · exact Finset.sup_le fun kb _ => Finset.sup_le fun k _ => Finset.le_sup (Finset.mem_univ _)

/-! ## The two rows agree -/

theorem flashRow_eq_softRow (σ : Fin 2048 → ℝ) (v : Fin 2048 → Fin 1024 → ℝ) (j : Fin 1024) :
    flashRow (fun kb k => (σ (kidx kb k) : EReal)) (fun kb k j' => (v (kidx kb k) j' : EReal)) j
      = softRow (fun s => (σ s : EReal)) (fun s j' => (v s j' : EReal)) j := by
  obtain ⟨μ, hμ, hf⟩ := flashRow_coe (fun kb k => σ (kidx kb k)) (fun kb k j' => v (kidx kb k) j') j
  have hM : (μ : EReal) = Finset.univ.sup (fun s => (σ s : EReal)) := by
    rw [hμ, sup_tiles]; rfl
  rw [hf, softRow_coe σ v j μ hM, sum_tiles (fun s => Real.exp (σ s - μ)), EReal.coe_eq_coe_iff]
  refine Eq.trans ?_ (sum_tiles _).symm
  rw [Finset.sum_div]
  refine Finset.sum_congr rfl fun kb _ => ?_
  rw [Finset.sum_div]
  refine Finset.sum_congr rfl fun k _ => ?_
  ring

/-- On real Q, K, V the tiled attention is the softmax attention. -/
theorem flash_eq_soft (Q K Vp : A3) (hQ : Real3 Q) (hK : Real3 K) (hV : Real3 Vp) (b : Fin 4) (r : Fin 2048) (j : Fin 1024) :
    flashOut Q K Vp b r j = softOut Q K Vp b r j := by
  choose q hq using hQ
  choose k hk using hK
  choose v hv using hV
  have hs : ∀ s, score Q K b r s = (((∑ d, q b r d * k b s d) * (1 / 32) : ℝ) : EReal) :=
    fun s => score_coe Q K q k hq hk b r s
  simp only [flashOut, softOut, hs, hv]
  exact flashRow_eq_softRow (fun s => (∑ d, q b r d * k b s d) * (1 / 32)) (fun s j' => v b s j') j

end Attn

end
-- ==== Proof.Finite.lean ====
/-
  From the precondition (every entry of every input has absolute value below +inf) to: every entry of every
  input is a real number.
-/
import proofs.«425711_j52012053954870_3_alg».proof.Defs
import proofs.«425711_j52012053954870_3_alg».proof.Proof.Gen.Pre_finite_inputs
import proofs.«425711_j52012053954870_3_alg».proof.Proof.Spec
import Idealize.ShloMosaic.Lib.ValueIdx
import Idealize.ShloMosaic.Lib.ReduceAll
import Idealize.ShloMosaic.PureOps.Ideal.Laws

set_option maxRecDepth 16384

noncomputable section

namespace Cert.FiniteInputs

open Idealize.ShloMosaic Idealize.ShloMosaic.TcCoe Idealize.SL.Sem Idealize.ShloMosaic.ValueIdx

/-- The scalar shape has exactly one index. -/
instance : Subsingleton Cert.Pre_finite_inputs.S_.Idx := ⟨fun a b => funext fun d => d.elim0⟩

/-- The f32 word 0x7F800000 (exponent all ones, fraction zero, sign clear) denotes +inf. -/
theorem inf_word : Ideal.ofBits .f32 0x7F800000#32 = (⊤ : EReal) := by simp [Ideal.ofBits, Ideal.ieee]

/-- For an extended real a: |a| < +inf says a is a real number. |a| is max a (-a), which is +inf at both
    infinities (-(-inf) = +inf), and +inf is not below itself; what is left is the real case. -/
theorem real_of_abs_lt (a : Ideal .f32)
    (h : FloatOps.cmpf .olt (FloatOps.hostAbsf a) (Ideal.ofBits .f32 0x7F800000#32) = 1#1) :
    ∃ r : ℝ, a = (r : EReal) := by
  rw [Ideal.hostAbsf_def, Ideal.cmpf_def, Ideal.absf_def, inf_word] at h
  induction a using EReal.rec with
  | bot => simp [Ideal.cmp] at h
  | coe r => exact ⟨r, rfl⟩
  | top => simp [Ideal.cmp] at h

/-- One conjunct of the precondition: the conjunction over all entries of |x| < +inf (the bound a scalar spread over
    the array's shape) came out 1, so each entry's comparison is 1, so each entry is real. -/
theorem real_of_all {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (h0 : 0 < Cert.Pre_finite_inputs.S_.numel)
    (init : IVec Cert.Pre_finite_inputs.S_ 1)
    (e : Host.reduce IntOp.andi
          (cmpf .olt (Host.absf x)
            (broadcastInDim s ![] hb (constant (F := Ideal) Cert.Pre_finite_inputs.S_ .f32 0x7F800000#32)))
          init hr h0 ix0 = 1#1)
    (i : s.Idx) : ∃ r : ℝ, x i = (r : EReal) :=
  real_of_abs_lt (x i) (Host.reduce_andi_all _ init hr h0 ix0 e i)

/-- The printed precondition, at the ideal values, on seven arrays of the inputs' shapes says every entry is real. -/
theorem real_of_fn [Cert.Pre_finite_inputs.Facts]
    (x0 : FVec Ideal Cert.Pre_finite_inputs.S4x2048x1024 .f32) (x1 : FVec Ideal Cert.Pre_finite_inputs.S1024x1024 .f32) (x2 : FVec Ideal Cert.Pre_finite_inputs.S1024 .f32)
    (x3 : FVec Ideal Cert.Pre_finite_inputs.S1024x1024 .f32) (x4 : FVec Ideal Cert.Pre_finite_inputs.S1024 .f32) (x5 : FVec Ideal Cert.Pre_finite_inputs.S1024x1024 .f32) (x6 : FVec Ideal Cert.Pre_finite_inputs.S1024 .f32)
    (h : Cert.Pre_finite_inputs.fn (F := Ideal) x0 x1 x2 x3 x4 x5 x6 = (fun _ => 1#1)) :
    Attn.Real3 (fun b r k => x0 (ix3 b r k)) ∧ Attn.Real2 (fun k d => x1 (ix2 k d)) ∧ Attn.Real1 (fun d => x2 (ix1 d))
    ∧ Attn.Real2 (fun k d => x3 (ix2 k d)) ∧ Attn.Real1 (fun d => x4 (ix1 d))
    ∧ Attn.Real2 (fun k d => x5 (ix2 k d)) ∧ Attn.Real1 (fun d => x6 (ix1 d)) := by
  -- the predicate's one word is 1
  have hw := congrFun h ix0
  dsimp only [Cert.Pre_finite_inputs.fn, Cert.Pre_finite_inputs.fn_part1] at hw
  -- the word is a left-nested conjunction of seven; a conjunction of bits is 1 only where both are
  obtain ⟨hw, e6⟩ := IntOp.andi_eq_one.1 hw
  obtain ⟨hw, e5⟩ := IntOp.andi_eq_one.1 hw
  obtain ⟨hw, e4⟩ := IntOp.andi_eq_one.1 hw
  obtain ⟨hw, e3⟩ := IntOp.andi_eq_one.1 hw
  obtain ⟨hw, e2⟩ := IntOp.andi_eq_one.1 hw
  obtain ⟨e0, e1⟩ := IntOp.andi_eq_one.1 hw
  exact ⟨fun b r k => real_of_all x0 _ _ _ _ e0 (ix3 b r k),
    fun k d => real_of_all x1 _ _ _ _ e1 (ix2 k d),
    fun d => real_of_all x2 _ _ _ _ e2 (ix1 d),
    fun k d => real_of_all x3 _ _ _ _ e3 (ix2 k d),
    fun d => real_of_all x4 _ _ _ _ e4 (ix1 d),
    fun k d => real_of_all x5 _ _ _ _ e5 (ix2 k d),
    fun d => real_of_all x6 _ _ _ _ e6 (ix1 d)⟩

end Cert.FiniteInputs

end
-- ==== Proof.lean ====
/-
  Attention over B = 4, S = 2048, D = 1024: a two-call kernel (the projections Q, K, V = x·W + b on row blocks, then
  tiled attention with a running maximum, normaliser and weighted sum over four key tiles of 512) against the plain
  reference softmax(Q·Kᵀ/32)·V.
  * The frames: each program runs to the end without a fault and leaves its seven inputs unchanged — the kernel
    programs by running @main as four segments (host lines, the projection call, three reshapes, the attention call)
    with the attention call's three scratch buffers carried in the invariant; the reference by its run.
  * preserves: the idealization rewrote nothing.
  * algebraic: at the ideal values the kernel's result array is the tiled attention of the three projections of the
    inputs, the reference's is their softmax attention; the inputs are real by the precondition, so the projections
    are, and on real Q, K, V the two agree: the running maximum ends at the row maximum, exp(m - m')·exp(s - m) =
    exp(s - m') carries the partial sums across tiles, and dividing the weighted sum by the positive normaliser is
    the same as weighting by the quotients.
-/
import proofs.«425711_j52012053954870_3_alg».proof.Defs
import proofs.«425711_j52012053954870_3_alg».proof.Proof.Gen.Kernel
import proofs.«425711_j52012053954870_3_alg».proof.Proof.Gen.KernelIdeal
import proofs.«425711_j52012053954870_3_alg».proof.Proof.Gen.ReferenceIdeal
import proofs.«425711_j52012053954870_3_alg».proof.Proof.Gen.Pre_finite_inputs
import proofs.«425711_j52012053954870_3_alg».proof.Proof.Gen.ReferenceIdeal.Run
import proofs.«425711_j52012053954870_3_alg».proof.Proof.Gen.ReferenceIdeal.Read
import proofs.«425711_j52012053954870_3_alg».proof.Proof.K.Run
import proofs.«425711_j52012053954870_3_alg».proof.Proof.KI.Run
import proofs.«425711_j52012053954870_3_alg».proof.Proof.KI.KVal
import proofs.«425711_j52012053954870_3_alg».proof.Proof.RefVal
import proofs.«425711_j52012053954870_3_alg».proof.Proof.Math
import proofs.«425711_j52012053954870_3_alg».proof.Proof.Finite
import Idealize.ShloMosaic.Adequacy
import Idealize.ShloMosaic.Init

noncomputable section

namespace Cert.Proof

open Idealize.ShloMosaic Idealize.SL.Sem

/-- The word-level kernel program runs and leaves its inputs unchanged. -/
theorem frame_k : Cert.frame_Kernel := fun m ρ _ =>
  (θ_run Cert.Kernel.defs _ _).mono (fun _ h c => (h c).2) (Cert.Kernel.Hand.run_val (F := Bits) m ρ)

/-- The idealized kernel program runs and leaves its inputs unchanged. -/
theorem frame_ki : Cert.frame_KernelIdeal := fun m ρ _ =>
  (θ_run Cert.KernelIdeal.defs _ _).mono (fun _ h c => (h c).2) (Cert.KernelIdeal.Hand.run_val (F := Ideal) m ρ)

/-- The reference runs and leaves its inputs unchanged. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end at the tiled attention of the three projections of the (real) inputs. -/
theorem algebraic : Cert.algebraic_KernelIdeal_ReferenceIdeal := by
  intro m ρ m' ρ' hpre hagree
  refine ⟨fun c => Cert.KernelIdeal.Hand.Gk m c, ?_, ?_⟩
  · exact (θ_run Cert.KernelIdeal.defs _ _).mono
      (fun _ h c => ⟨(h c).1.trans (Cert.KernelIdeal.Hand.kval m c), (h c).2⟩)
      (Cert.KernelIdeal.Hand.run_val (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6⟩ := hagree c
    obtain ⟨r0, r1, r2, r3, r4, r5, r6⟩ := Cert.FiniteInputs.real_of_fn _ _ _ _ _ _ _ (hpre c)
    rw [Cert.ReferenceIdeal.Read.val_main_v26_eq, h0, h1, h2, h3, h4, h5, h6, Cert.ReferenceIdeal.RefValue.ref_value]
    funext i
    exact (Attn.flash_eq_soft _ _ _ (Attn.real_qkv _ _ _ r0 r1 r2) (Attn.real_qkv _ _ _ r0 r3 r4)
      (Attn.real_qkv _ _ _ r0 r5 r6) (i 0) (i 1) (i 2)).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
